-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S128x256 : Shape := ⟨2, ![128, 256]⟩
abbrev S128x1 : Shape := ⟨2, ![128, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S8192x256 .f32) (main_arg1 : IVec S8192x8192 32) (main_arg2 : FVec F S128x256 .f32) (main_arg3 : FVec F S128x1 .f32) (main_arg4 : FVec F S128x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S128x256 : Shape := ⟨2, ![128, 256]⟩
abbrev S128x1 : Shape := ⟨2, ![128, 1]⟩
abbrev S8192x128 : Shape := ⟨2, ![8192, 128]⟩
abbrev S8192x1 : Shape := ⟨2, ![8192, 1]⟩
abbrev S1024x256 : Shape := ⟨2, ![1024, 256]⟩
abbrev S1024x128 : Shape := ⟨2, ![1024, 128]⟩
abbrev S1024x1 : Shape := ⟨2, ![1024, 1]⟩
abbrev S256x128 : Shape := ⟨2, ![256, 128]⟩
abbrev S1x8192 : Shape := ⟨2, ![1, 8192]⟩
abbrev S1x2048 : Shape := ⟨2, ![1, 2048]⟩
abbrev S1024x2048 : Shape := ⟨2, ![1024, 2048]⟩
abbrev S1024 : Shape := ⟨1, ![1024]⟩
abbrev S2048x128 : Shape := ⟨2, ![2048, 128]⟩

abbrev nBuf : Space → Nat
  | .hbm => 11
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S128x256, .f32⟩
  | .hbm, ⟨3, _⟩ => ⟨S128x1, .f32⟩
  | .hbm, ⟨4, _⟩ => ⟨S128x1, .f32⟩
  | .hbm, ⟨5, _⟩ => ⟨S8192x128, .f32⟩
  | .hbm, ⟨6, _⟩ => ⟨S8192x1, .f32⟩
  | .hbm, ⟨7, _⟩ => ⟨S8192x1, .f32⟩
  | .hbm, ⟨8, _⟩ => ⟨S8192x128, .bf16⟩
  | .hbm, ⟨9, _⟩ => ⟨S1x8192, .f32⟩
  | .hbm, ⟨10, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S128x256, .f32⟩
  | .local _ .vmem, ⟨3, _⟩ => ⟨S128x1, .f32⟩
  | .local _ .vmem, ⟨4, _⟩ => ⟨S128x1, .f32⟩
  | .local _ .vmem, ⟨5, _⟩ => ⟨S1024x128, .f32⟩
  | .local _ .vmem, ⟨6, _⟩ => ⟨S1024x128, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x2048, .f32⟩
  | .local _ .vmem, ⟨14, _⟩ => ⟨S1x2048, .f32⟩
  | .local _ .vmem, ⟨15, _⟩ => ⟨S1024x2048, .i32⟩
  | .local _ .vmem, ⟨16, _⟩ => ⟨S1024x2048, .i32⟩
  | .local _ .vmem, ⟨17, _⟩ => ⟨S8192x128, .bf16⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v37 : BitVec 32 := Scalar.muli arg1 c2048_i32
  v37
def k1_off1 (i : grid1.Coords) : Fin 2 → Nat :=
  let arg1 : BitVec 32 := BitVec.ofNat 32 (i 1).val
  let c2048_i32 : BitVec 32 := 2048#32
  let v37 : BitVec 32 := Scalar.muli arg1 c2048_i32
  let v38 : BitVec 32 := v37
  let v39 : Index := Scalar.indexCast v38
  let c0_18 : Index := 0#32
  ![v39.toNat, 0]
def k1_cond2 (i : grid1.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_26 : BitVec 32 := 0#32
  let v55 : BitVec 1 := Scalar.cmpi .ne v54 c0_i32_26
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128x1_S128x1_0_0 : ∀ a, (![0, 0] : Fin 2 → Nat) a + S128x1.size a ≤ S128x1.size a
  h_S128x1 : 0 < S128x1.numel
  inb_S1024x128_S1024x128_0_0 : ∀ a, (![0, 0] : Fin 2 → Nat) a + S1024x128.size a ≤ S1024x128.size a
  h_S1024x128 : 0 < S1024x128.numel
  inb_S1024x1_S1024x1_0_0 : ∀ a, (![0, 0] : Fin 2 → Nat) a + S1024x1.size a ≤ S1024x1.size a
  h_S1024x1 : 0 < S1024x1.numel
  bitsLt_bf16_f32 : FTy.bits .bf16 < FTy.bits .f32
  shapeCasts_S8192x1_S1x8192 : S8192x1.ShapeCasts S1x8192
  shapeCasts_S1024x1_S1024x1 : S1024x1.ShapeCasts S1024x1
  shapeCasts_S1024x128_S1024x128 : S1024x128.ShapeCasts S1024x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  h_S2048x128 : 0 < S2048x128.numel
  shapeCasts_S2048x128_S2048x128 : S2048x128.ShapeCasts S2048x128
  broadcasts_S1024x1_S1024x128 : S1024x1.Broadcasts S1024x128
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x8192.size a
  hwx1_2 : ∀ i : grid1.Coords, EltTy.bits .i32 = 32 ∨ (Rect.block (s := S8192x8192) S1024x2048.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .bf16 = 32 ∨ (Rect.block (s := S8192x128) S8192x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S128x256 : Shape := ⟨2, ![128, 256]⟩
abbrev S128x1 : Shape := ⟨2, ![128, 1]⟩
abbrev S256x128 : Shape := ⟨2, ![256, 128]⟩
abbrev S8192x128 : Shape := ⟨2, ![8192, 128]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S128x256, .f32⟩
  | .hbm, ⟨3, _⟩ => ⟨S128x1, .f32⟩
  | .hbm, ⟨4, _⟩ => ⟨S128x1, .f32⟩
  | .hbm, ⟨5, _⟩ => ⟨S256x128, .f32⟩
  | .hbm, ⟨6, _⟩ => ⟨S8192x128, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .i1⟩
  | .hbm, ⟨45, _⟩ => ⟨S_, .f32⟩
  | .hbm, ⟨46, _⟩ => ⟨S8192x128, .f32⟩
  | .hbm, ⟨47, _⟩ => ⟨S8192x128, .i1⟩
  | .hbm, ⟨48, _⟩ => ⟨S_, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_call1_v0 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v24 : Ref sig .tc := ⟨.hbm, 56, rfl⟩

abbrev nD : Nat := 1
abbrev τ : Topo := Topo.v7x

variable {F : FTy → Type} [FloatOps F]

class Facts₀ : Prop where
  transposes_S128x256_S256x128_1_0 : S128x256.Transposes [1, 0] S256x128
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.FrmB.Reg0.lean ====
import proofs.«417751_j15599321219367_3_alg».proof.Proof.Gen.Kernel.Launch
import proofs.«417751_j15599321219367_3_alg».proof.Proof.Gen.Kernel.Skeleton
import proofs.«417751_j15599321219367_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection call (region 0) at region-entry contents `V`

The first call of the layer runs on a grid of 8 row tiles. At each point its body reads the row tile of the
features (1024×256) and the three parameter blocks (the weight 128×256 and the two attention vectors 128×1, whose
block index never moves), and stores three whole blocks: the projected tile `h·Wᵀ` (1024×128) and its two products
with the attention vectors (1024×1 each). Nothing is carried from point to point, so what the body leaves in each
output buffer is a closed function of the four input blocks at the point. This file states that function per output,
proves the body's triple against it, and packages the pipeline's proof data and body obligation, all at an arbitrary
valuation `V` of the core's buffers at region entry and for any float instance. -/

-- membership in a rectangle of large extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the feature tile, fetched at every point): its current staging buffer holds its block at every point, fetched there or not, for any
    proof data whose array is `V`'s and whose body leaves the block in place. Where the window is not fetched its
    block index has not moved, so the block left by the previous point is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, fetched at the first point only): its current staging buffer holds its block at every point, fetched there or not, for any
    proof data whose array is `V`'s and whose body leaves the block in place. Where the window is not fetched its
    block index has not moved, so the block left by the previous point is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first attention vector, fetched at the first point only): its current staging buffer holds its block at every point, fetched there or not, for any
    proof data whose array is `V`'s and whose body leaves the block in place. Where the window is not fetched its
    block index has not moved, so the block left by the previous point is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second attention vector, fetched at the first point only): its current staging buffer holds its block at every point, fetched there or not, for any
    proof data whose array is `V`'s and whose body leaves the block in place. Where the window is not fetched its
    block index has not moved, so the block left by the previous point is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x256 := Rect.unit (s := S1024x256) ![0, 0] S1024x256.size inb_S1024x256_S1024x256_0_0
abbrev r0_1 : Rect S128x256 := Rect.unit (s := S128x256) ![0, 0] S128x256.size inb_S128x256_S128x256_0_0
abbrev r0_2 : Rect S128x1 := Rect.unit (s := S128x1) ![0, 0] S128x1.size inb_S128x1_S128x1_0_0
abbrev r0_3 : Rect S128x1 := Rect.unit (s := S128x1) ![0, 0] S128x1.size inb_S128x1_S128x1_0_0
abbrev r0_4 : Rect S1024x128 := Rect.unit (s := S1024x128) ![0, 0] S1024x128.size inb_S1024x128_S1024x128_0_0
abbrev r0_5 : Rect S1024x1 := Rect.unit (s := S1024x1) ![0, 0] S1024x1.size inb_S1024x1_S1024x1_0_0
abbrev r0_6 : Rect S1024x1 := Rect.unit (s := S1024x1) ![0, 0] S1024x1.size inb_S1024x1_S1024x1_0_0

/-! ## What the body leaves in each output window's buffer -/

/-- Window 4's buffer after the body: the projected tile, the feature tile times the transposed weight, stored whole. -/
def out0_4 (x0 : Vec F S1024x256 .f32) (x1 : Vec F S128x256 .f32) : Vec F S1024x128 .f32 :=
  View.canon [⟨r0_4, k0_pay1 (View.ld x0 r0_0) (View.ld x1 r0_1)⟩]

/-- Window 5's buffer after the body: the projected tile times the first attention vector, stored whole. -/
def out0_5 (x0 : Vec F S1024x256 .f32) (x1 : Vec F S128x256 .f32) (x2 : Vec F S128x1 .f32) : Vec F S1024x1 .f32 :=
  View.canon [⟨r0_5, k0_pay2 (View.ld x0 r0_0) (View.ld x1 r0_1) (View.ld x2 r0_2)⟩]

/-- Window 6's buffer after the body: the projected tile times the second attention vector, stored whole. -/
def out0_6 (x0 : Vec F S1024x256 .f32) (x1 : Vec F S128x256 .f32) (x3 : Vec F S128x1 .f32) : Vec F S1024x1 .f32 :=
  View.canon [⟨r0_6, k0_pay3 (View.ld x0 r0_0) (View.ld x1 r0_1) (View.ld x3 r0_3)⟩]

/-- The one store into window 4's buffer is the whole buffer, so it covers it. -/
theorem cover0_4 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

/-- The one store into window 5's buffer is the whole buffer, so it covers it. -/
theorem cover0_5 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one store into window 6's buffer is the whole buffer, so it covers it. -/
theorem cover0_6 (p0 : Vec F S1024x1 .f32) (y : S1024x1.Idx) :
    ∃ pc ∈ ([⟨r0_6, p0⟩] : List (View.Piece (Elt F) S1024x1 .f32)), y ∈ pc.1.set :=
  View.cover_of_tiled [⟨r0_6, p0⟩] S1024x1.size (by rfl) y

/-! ## The body's triple -/

set_option maxHeartbeats 1000000 in
/-- The body on whole staging memrefs, the inputs' at read contents `x0 … x3` and the outputs' at anything, runs to
    the continuation holding the inputs' as they were and each output's at `out0_W` of the inputs': four whole loads,
    then per output a load whose value is dropped and one whole store of the payload. -/
theorem sound_kernel0 (c : Dev nD) (E : Set ℕ) (i : grid0.Coords)
    (arg1 : Memref sig .tc .vmem S1024x256 .f32) (harg1 : arg1.IsWhole) (arg2 : Memref sig .tc .vmem S128x256 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1024x128 .f32) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S128x256 .f32) (x2 : Vec F S128x1 .f32) (x3 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the projection call on core `c`: the arrays as the region finds them; after the body at point
    `t` each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point: the windows' conjunction spelled out, then the body's triple. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.FrmB.Reg1Runs.lean ====
import proofs.«417751_j15599321219367_3_alg».proof.Proof.Gen.Kernel.Launch
import proofs.«417751_j15599321219367_3_alg».proof.Proof.Gen.Kernel.Skeleton
import proofs.«417751_j15599321219367_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has
    not moved the block index, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has
    not moved the block index, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has
    not moved the block index, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has
    not moved the block index, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the reset of the three running buffers, inside the printed part),
    from the grid coordinates: the column-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (normalise and store the output): the column-tile coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle (the printed configuration's table) -/

/-- Windows 0 to 3 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the points of case A the printed configuration calls output 4 idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B the printed configuration calls output 4 idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C the printed configuration calls output 4 live: the case stores into it. -/
theorem liveAt1_4_C : ∀ t : Fin cfg1.N, ¬cond1_0 (grid1.coords t) → cond1_1 (grid1.coords t) → cfg1.idle 4 (grid1.coords t) = false := by decide +kernel

/-! ## The kernel body on any staging memrefs -/

/-- One staging buffer of output window 4, through which its contents are stated (the choice does not matter). -/
abbrev VO1_4 : View sig .tc .vmem S1024x128 .f32 := (Memref.whole cc1_stg4_0 : Memref sig .tc .vmem S1024x128 .f32).view
/-- Each window's current staging memref at point `t`, spelled as the pipeline passes it, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the running
    row maximum, the running row sum and the running weighted sum of the online softmax. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The three scratches as views: what each holds between points is stated through its view. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The scoped buffers of the core that this region never touches (the staging buffers of the region before it),
    each whole at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))

/-- Separating conjunction re-associated, as an equation of propositions. -/
theorem sepA (P Q R : sProp 𝕄) : (iprop((P ∗ Q) ∗ R) : sProp 𝕄) = iprop(P ∗ Q ∗ R) :=
  BI.Entails.antisymm
    (show iprop((P ∗ Q) ∗ R) ⊢ iprop(P ∗ Q ∗ R) from by
      iintro ⟨⟨HP, HQ⟩, HR⟩
      isplitl [HP]; · iexact HP
      isplitl [HQ]; · iexact HQ
      iexact HR)
    (show iprop(P ∗ Q ∗ R) ⊢ iprop((P ∗ Q) ∗ R) from by
      iintro ⟨HP, HQ, HR⟩
      isplitr [HR]
      · isplitl [HP]; · iexact HP
        iexact HQ
      iexact HR)

/-- The region's invariant with the scratch operands as memrefs owned at some contents: what the body obligation
    hands the body and takes back; the untouched scoped buffers ride along as `rest1`. -/
theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; unfold rest1; simp only [scM1_0, scM1_1, scM1_2, owns_whole, sepA]; rfl

end Cert.Kernel.Frm

end
-- ==== Proof.FrmB.Reg1RunA.lean ====
import proofs.«417751_j15599321219367_3_alg».proof.Proof.FrmB.Reg1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratches, as pieces (last first),
    in case A (the reset taken, the output's store not taken (column tile 0)), with the proof that on whole memrefs — the inputs' at their contents, the output's at contents `xi4` handed back untouched,
    the scratches at anything (each is stored whole by the reset before anything read from it is used) — the body runs to the continuation holding the inputs' as they were and each
    scratch with its pieces written: the printed functions are their skeletons, and the weakest precondition is computed along them, each
    `scf.if` decided by the case's hypotheses; the pieces are the witness found along the way. -/
noncomputable def kernelRun1_A (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Frm

end
-- ==== Proof.FrmB.Reg1RunB.lean ====
import proofs.«417751_j15599321219367_3_alg».proof.Proof.FrmB.Reg1RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratches, as pieces (last first),
    in case B (neither conditional taken (column tiles 1 and 2)), with the proof that on whole memrefs — the inputs' at their contents, the output's at contents `xi4` handed back untouched,
    the scratches at what the point before left (`xs·`) — the body runs to the continuation holding the inputs' as they were and each
    scratch with its pieces written: the printed functions are their skeletons, and the weakest precondition is computed along them, each
    `scf.if` decided by the case's hypotheses; the pieces are the witness found along the way. -/
noncomputable def kernelRun1_B (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Frm

end
-- ==== Proof.FrmB.Reg1RunC.lean ====
import proofs.«417751_j15599321219367_3_alg».proof.Proof.FrmB.Reg1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratches, as pieces (last first),
    in case C (the reset not taken, the output's store taken (column tile 3)), with the proof that on whole memrefs — the inputs' at their contents, the output's at anything,
    the scratches at what the point before left (`xs·`) — the body runs to the continuation holding the inputs' as they were, the output's with its pieces written and each
    scratch with its pieces written: the printed functions are their skeletons, and the weakest precondition is computed along them, each
    `scf.if` decided by the case's hypotheses; the pieces are the witness found along the way. -/
noncomputable def kernelRun1_C (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Frm

end
-- ==== Proof.FrmB.Reg1.lean ====
import proofs.«417751_j15599321219367_3_alg».proof.Proof.FrmB.Reg1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 4 (the window is idle at its points and not written back there): no pieces —
    a placeholder that nothing consults, since at these points the window is neither written back nor read at the
    next point. -/
def out1_A_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's pieces for scratch 0 (the running maximum) cover it: whole-buffer stores. -/
theorem scover1_A_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch 0: its pieces read back over junk. -/
def sout1_A_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's pieces for scratch 1 (the running sum) cover it: whole-buffer stores. -/
theorem scover1_A_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch 1: its pieces read back over junk. -/
def sout1_A_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's pieces for scratch 2 (the running weighted sum) cover it: whole-buffer stores. -/
theorem scover1_A_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y

/-- What case A leaves in scratch 2: its pieces read back over junk. -/
def sout1_A_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- Case B stores nothing into output 4 (the window is idle at its points and not written back there): no pieces —
    a placeholder that nothing consults, since at these points the window is neither written back nor read at the
    next point. -/
def out1_B_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's pieces for scratch 0 (the running maximum) cover it: whole-buffer stores. -/
theorem scover1_B_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch 0: its pieces read back over junk. -/
def sout1_B_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's pieces for scratch 1 (the running sum) cover it: whole-buffer stores. -/
theorem scover1_B_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch 1: its pieces read back over junk. -/
def sout1_B_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's pieces for scratch 2 (the running weighted sum) cover it: whole-buffer stores. -/
theorem scover1_B_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case B leaves in scratch 2: its pieces read back over junk. -/
def sout1_B_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's pieces for output 4 tile its block (one store of the whole block), so they cover it. -/
theorem cover1_C_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What case C leaves in output 4's staging buffer: its pieces read back over junk. -/
def out1_C_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's pieces for scratch 0 (the running maximum) cover it: whole-buffer stores. -/
theorem scover1_C_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch 0: its pieces read back over junk. -/
def sout1_C_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's pieces for scratch 1 (the running sum) cover it: whole-buffer stores. -/
theorem scover1_C_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch 1: its pieces read back over junk. -/
def sout1_C_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's pieces for scratch 2 (the running weighted sum) cover it: whole-buffer stores. -/
theorem scover1_C_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case C leaves in scratch 2: its pieces read back over junk. -/
def sout1_C_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## What the output and the scratches hold after each point -/

/-- THE ACCUMULATION. What the output's staging buffer and the three scratches hold after the body at position `n`
    (a tuple: the output, then the running maximum, the running sum, the running weighted sum): the case the closed
    forms select at `n`, at the point's memrefs and input blocks, the scratches entering at what `n - 1` left.
    An assignment of the conditions no point meets is no case. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the untouched scoped buffers at anything, each scratch at what the point before left in it
    (`outsAt1`'s scratch components), and the generator register at some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratches at that point's contents. -/
theorem PhiS1_succ (c : Dev nD) (n : ℕ) (hn : n < cfg1.N) :
    PhiS1 V c (n + 1) hn = iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratches at what the point before left. -/
theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the three scratches at what the point before left (at anything at the first point),
    the untouched scoped buffers and the generator register at some state, and takes the scratches back at this
    point's contents (their pieces cover them); the output's buffer is handed back untouched where the case stores
    nothing into it, and at its covering pieces where it does; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratches' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Frm

end
-- ==== Proof.FrmB.Run.lean ====
/-
  The launch of the two-region program: the contents of the TensorCore's unscoped buffers at each boundary of @main
  (at launch; after the projection region, whose three output arrays hold what the pipeline's write-backs leave;
  after the two host operations between the regions; after the attention region, whose output array holds what its
  write-backs leave), the two regions as segments of @main entered from and left at those contents — the attention
  region's invariant carrying its three scratch buffers from point to point —, and the run: every weakly fair
  execution terminates with every unscoped buffer at the last boundary's contents. The argument arrays, written by
  no host operation and by no region, read back through the boundaries to their launch contents.
-/
import proofs.«417751_j15599321219367_3_alg».proof.Proof.Gen.Kernel.Regions
import proofs.«417751_j15599321219367_3_alg».proof.Proof.FrmB.Reg0
import proofs.«417751_j15599321219367_3_alg».proof.Proof.FrmB.Reg1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the projection region's entry, no host operation comes before it. -/
abbrev W0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => W0 m ρ c b
/-- At the projection region's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the two host operations between the regions: the attention region's entry. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- The host operations write only their own two results. -/
theorem W2_of (c : Dev nD) (r : Ref sig .tc) (h : r ∉ hostOps1_W) : W2 m ρ c r = W1 m ρ c r :=
  StableHlo.after_of_writes_sub hostOps1 _ hostOps1_writes h
/-- At the attention region's exit: its arrays at what the pipeline leaves, every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-! ### The arguments end as launched -/

/-- An input array of the projection region that the attention region does not touch. -/
theorem W3_of_in0 (c : Dev nD) (w : Fin cfg0.W) (hw : (cfg0.win w).isOut = false)
    (h1 : ∀ w', Pipeline.arrRef spec1 w' ≠ Pipeline.arrRef spec0 w) (h2 : Pipeline.arrRef spec0 w ∉ hostOps1_W) :
    W3 m ρ c (Proc.devRef .tc (Pipeline.arrRef spec0 w)) = m ((c : Thread nD τ).loc (Pipeline.arrRef spec0 w)) :=
  calc W3 m ρ c (Proc.devRef .tc (Pipeline.arrRef spec0 w))
    _ = W2 m ρ c (Proc.devRef .tc (Pipeline.arrRef spec0 w)) := W3_of_ne m ρ c _ h1
    _ = W1 m ρ c (Proc.devRef .tc (Pipeline.arrRef spec0 w)) := W2_of m ρ c _ h2
    _ = (dat0 (E0 m ρ) c).arrAt w cfg0.N := W1_arr m ρ c w
    _ = (dat0 (E0 m ρ) c).A w := (dat0 (E0 m ρ) c).arrAt_in w hw _
    _ = E0 m ρ c (Pipeline.arrRef spec0 w) := A_eq0 (E0 m ρ) c w
    _ = m ((c : Thread nD τ).loc (Pipeline.arrRef spec0 w)) := rfl

theorem W3_main_arg0 (c : Dev nD) : W3 m ρ c (Proc.devRef .tc main_arg0) = m ((c : Thread nD τ).loc main_arg0) :=
  W3_of_in0 m ρ c 0 rfl (by decide) (by decide)
theorem W3_main_arg2 (c : Dev nD) : W3 m ρ c (Proc.devRef .tc main_arg2) = m ((c : Thread nD τ).loc main_arg2) :=
  W3_of_in0 m ρ c 1 rfl (by decide) (by decide)
theorem W3_main_arg3 (c : Dev nD) : W3 m ρ c (Proc.devRef .tc main_arg3) = m ((c : Thread nD τ).loc main_arg3) :=
  W3_of_in0 m ρ c 2 rfl (by decide) (by decide)
theorem W3_main_arg4 (c : Dev nD) : W3 m ρ c (Proc.devRef .tc main_arg4) = m ((c : Thread nD τ).loc main_arg4) :=
  W3_of_in0 m ρ c 3 rfl (by decide) (by decide)
/-- The adjacency array: an input of the attention region that bypasses the projection region. -/
theorem W3_main_arg1 (c : Dev nD) : W3 m ρ c (Proc.devRef .tc main_arg1) = m ((c : Thread nD τ).loc main_arg1) :=
  calc W3 m ρ c (Proc.devRef .tc main_arg1)
    _ = (dat1 (E2 m ρ) c).arrAt 2 cfg1.N := W3_arr m ρ c 2
    _ = (dat1 (E2 m ρ) c).A 2 := (dat1 (E2 m ρ) c).arrAt_in 2 rfl _
    _ = E2 m ρ c (Pipeline.arrRef spec1 2) := A_eq1 (E2 m ρ) c 2
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl

/-! ## The proof data family and the thread state -/

/-- No pipeline has a prefetched table. -/
abbrev admF : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admF p) c
  | ⟨0, _⟩ => fun c => dat0 (E0 m ρ) c
  | ⟨1, _⟩ => fun c => dat1 (E2 m ρ) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every segment: the generator register at some state and the core's dues, none. -/
abbrev RF (c : Dev nD) : sProp 𝕄 := iprop((∃ r, prngReg c r) ∗ ∃ W, owes (c : Thread nD τ) (0 : CellTallies nD τ sig Unit) W)
/-- A host stretch as a segment over the unscoped references from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev TF (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W0`, left at `W1`. -/
def reg0 : Pipeline.RegionSeg (pcfgs (F := F)) admF (pdats m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LF lvF 0 fun _ _ => rfl
  pre c := iprop(StableHlo.held (c : Thread nD τ) (Pipeline.ucRefs τ sig) (W0 m ρ c) ∗ RF c)
  post c := iprop(StableHlo.held (c : Thread nD τ) (Pipeline.ucRefs τ sig) (W1 m ρ c) ∗ RF c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; its invariant starts as the
    scoped rest with the generator register and ends giving them back, the scratch buffers' contents forgotten. -/
def reg1 : Pipeline.RegionSeg (pcfgs (F := F)) admF (pdats m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ LF lvF 1 fun _ _ => rfl
  pre c := iprop(StableHlo.held (c : Thread nD τ) (Pipeline.ucRefs τ sig) (W2 m ρ c) ∗ RF c)
  post c := iprop(TF m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (E2 m ρ) c
    unfold Pipeline.ΦA at h
    iintro ⟨Hp, -, Hr⟩
    iapply h
    isplitl [Hr]; · iexact Hr
    iexact Hp
  hout c := by
    have h : (pdats m ρ 1 c).Φ (Fin.last _) ⊢ Pipeline.ΦA spec1 c := hout1 (E2 m ρ) c
    unfold Pipeline.ΦA at h
    rw [Pipeline.ownSems0_none]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the projection region, the host stretch, the attention region. -/
abbrev segsF : List (Pipeline.Seg (pcfgs (F := F)) admF (pdats m ρ) () defs₀ 𝒱F LF lvF) :=
  [ .region (reg0 m ρ),
    .host (hsegF hostOps1 hostOps1_sub hostOps1_fresh (W1 m ρ)),
    .region (reg1 m ρ) ]
/-- @main is the run of the segments. -/
theorem main_run (c : Dev nD) : main (F := F) c = Pipeline.Seg.run (segsF m ρ) := (main_chain c).trans (by chain_rfl)

set_option backward.isDefEq.respectTransparency.types false in
/-- THE RUN: from any memory with zero counters every weakly fair execution of @main terminates, nothing faulting,
    and every final state holds every unscoped TensorCore buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admF (pdats m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RF c)) (Tₙ := TF m ρ)
    (hch := ⟨fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The result array at the end: what the attention region's write-backs leave in its output window's array. -/
theorem W3_main_v3 (c : Dev nD) : W3 m ρ c (Proc.devRef .tc main_v3) = (dat1 (E2 m ρ) c).arrAt 4 cfg1.N :=
  W3_arr m ρ c 4

end Cert.Kernel.Frm

end
-- ==== Proof.FrmI.Reg0.lean ====
import proofs.«417751_j15599321219367_3_alg».proof.Proof.Gen.KernelIdeal.Launch
import proofs.«417751_j15599321219367_3_alg».proof.Proof.Gen.KernelIdeal.Skeleton
import proofs.«417751_j15599321219367_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection call (region 0) at region-entry contents `V`

The first call of the layer runs on a grid of 8 row tiles. At each point its body reads the row tile of the
features (1024×256) and the three parameter blocks (the weight 128×256 and the two attention vectors 128×1, whose
block index never moves), and stores three whole blocks: the projected tile `h·Wᵀ` (1024×128) and its two products
with the attention vectors (1024×1 each). Nothing is carried from point to point, so what the body leaves in each
output buffer is a closed function of the four input blocks at the point. This file states that function per output,
proves the body's triple against it, and packages the pipeline's proof data and body obligation, all at an arbitrary
valuation `V` of the core's buffers at region entry and for any float instance. -/

-- membership in a rectangle of large extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the feature tile, fetched at every point): its current staging buffer holds its block at every point, fetched there or not, for any
    proof data whose array is `V`'s and whose body leaves the block in place. Where the window is not fetched its
    block index has not moved, so the block left by the previous point is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight, fetched at the first point only): its current staging buffer holds its block at every point, fetched there or not, for any
    proof data whose array is `V`'s and whose body leaves the block in place. Where the window is not fetched its
    block index has not moved, so the block left by the previous point is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first attention vector, fetched at the first point only): its current staging buffer holds its block at every point, fetched there or not, for any
    proof data whose array is `V`'s and whose body leaves the block in place. Where the window is not fetched its
    block index has not moved, so the block left by the previous point is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second attention vector, fetched at the first point only): its current staging buffer holds its block at every point, fetched there or not, for any
    proof data whose array is `V`'s and whose body leaves the block in place. Where the window is not fetched its
    block index has not moved, so the block left by the previous point is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1024x256 := Rect.unit (s := S1024x256) ![0, 0] S1024x256.size inb_S1024x256_S1024x256_0_0
abbrev r0_1 : Rect S128x256 := Rect.unit (s := S128x256) ![0, 0] S128x256.size inb_S128x256_S128x256_0_0
abbrev r0_2 : Rect S128x1 := Rect.unit (s := S128x1) ![0, 0] S128x1.size inb_S128x1_S128x1_0_0
abbrev r0_3 : Rect S128x1 := Rect.unit (s := S128x1) ![0, 0] S128x1.size inb_S128x1_S128x1_0_0
abbrev r0_4 : Rect S1024x128 := Rect.unit (s := S1024x128) ![0, 0] S1024x128.size inb_S1024x128_S1024x128_0_0
abbrev r0_5 : Rect S1024x1 := Rect.unit (s := S1024x1) ![0, 0] S1024x1.size inb_S1024x1_S1024x1_0_0
abbrev r0_6 : Rect S1024x1 := Rect.unit (s := S1024x1) ![0, 0] S1024x1.size inb_S1024x1_S1024x1_0_0

/-! ## What the body leaves in each output window's buffer -/

/-- Window 4's buffer after the body: the projected tile, the feature tile times the transposed weight, stored whole. -/
def out0_4 (x0 : Vec F S1024x256 .f32) (x1 : Vec F S128x256 .f32) : Vec F S1024x128 .f32 :=
  View.canon [⟨r0_4, k0_pay1 (View.ld x0 r0_0) (View.ld x1 r0_1)⟩]

/-- Window 5's buffer after the body: the projected tile times the first attention vector, stored whole. -/
def out0_5 (x0 : Vec F S1024x256 .f32) (x1 : Vec F S128x256 .f32) (x2 : Vec F S128x1 .f32) : Vec F S1024x1 .f32 :=
  View.canon [⟨r0_5, k0_pay2 (View.ld x0 r0_0) (View.ld x1 r0_1) (View.ld x2 r0_2)⟩]

/-- Window 6's buffer after the body: the projected tile times the second attention vector, stored whole. -/
def out0_6 (x0 : Vec F S1024x256 .f32) (x1 : Vec F S128x256 .f32) (x3 : Vec F S128x1 .f32) : Vec F S1024x1 .f32 :=
  View.canon [⟨r0_6, k0_pay3 (View.ld x0 r0_0) (View.ld x1 r0_1) (View.ld x3 r0_3)⟩]

/-- The one store into window 4's buffer is the whole buffer, so it covers it. -/
theorem cover0_4 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

/-- The one store into window 5's buffer is the whole buffer, so it covers it. -/
theorem cover0_5 (p0 : Vec F S1024x1 .f32) (y : S1024x1.Idx) :
    ∃ pc ∈ ([⟨r0_5, p0⟩] : List (View.Piece (Elt F) S1024x1 .f32)), y ∈ pc.1.set :=
  View.cover_of_tiled [⟨r0_5, p0⟩] S1024x1.size (by rfl) y

/-- The one store into window 6's buffer is the whole buffer, so it covers it. -/
theorem cover0_6 (p0 : Vec F S1024x1 .f32) (y : S1024x1.Idx) :
    ∃ pc ∈ ([⟨r0_6, p0⟩] : List (View.Piece (Elt F) S1024x1 .f32)), y ∈ pc.1.set :=
  View.cover_of_tiled [⟨r0_6, p0⟩] S1024x1.size (by rfl) y

/-! ## The body's triple -/

set_option maxHeartbeats 1000000 in
/-- The body on whole staging memrefs, the inputs' at read contents `x0 … x3` and the outputs' at anything, runs to
    the continuation holding the inputs' as they were and each output's at `out0_W` of the inputs': four whole loads,
    then per output a load whose value is dropped and one whole store of the payload. -/
theorem sound_kernel0 (c : Dev nD) (E : Set ℕ) (i : grid0.Coords)
    (arg1 : Memref sig .tc .vmem S1024x256 .f32) (harg1 : arg1.IsWhole) (arg2 : Memref sig .tc .vmem S128x256 .f32) (harg2 : arg2.IsWhole)
    (arg3 : Memref sig .tc .vmem S128x1 .f32) (harg3 : arg3.IsWhole) (arg4 : Memref sig .tc .vmem S128x1 .f32) (harg4 : arg4.IsWhole)
    (arg5 : Memref sig .tc .vmem S1024x128 .f32) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S128x256 .f32) (x2 : Vec F S128x1 .f32) (x3 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of the projection call on core `c`: the arrays as the region finds them; after the body at point
    `t` each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point: the windows' conjunction spelled out, then the body's triple. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.FrmI.Reg1Runs.lean ====
import proofs.«417751_j15599321219367_3_alg».proof.Proof.Gen.KernelIdeal.Launch
import proofs.«417751_j15599321219367_3_alg».proof.Proof.Gen.KernelIdeal.Skeleton
import proofs.«417751_j15599321219367_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has
    not moved the block index, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has
    not moved the block index, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has
    not moved the block index, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has
    not moved the block index, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first `scf.if` (the reset of the three running buffers, inside the printed part),
    from the grid coordinates: the column-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if` (normalise and store the output): the column-tile coordinate is 3. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle (the printed configuration's table) -/

/-- Windows 0 to 3 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At the points of case A the printed configuration calls output 4 idle: the case stores nothing into it. -/
theorem idleAt1_4_A : ∀ t : Fin cfg1.N, cond1_0 (grid1.coords t) → ¬cond1_1 (grid1.coords t) → cfg1.idle 4 (grid1.coords t) = true := by decide +kernel
/-- At the points of case A the pipeline does not write output 4's block back. -/
theorem noFlush1_4_A : ∀ t : Fin cfg1.N, cond1_0 (grid1.coords t) → ¬cond1_1 (grid1.coords t) → (cfg1.win 4).flush t = false := by decide +kernel
/-- At the points of case B the printed configuration calls output 4 idle: the case stores nothing into it. -/
theorem idleAt1_4_B : ∀ t : Fin cfg1.N, ¬cond1_0 (grid1.coords t) → ¬cond1_1 (grid1.coords t) → cfg1.idle 4 (grid1.coords t) = true := by decide +kernel
/-- At the points of case B the pipeline does not write output 4's block back. -/
theorem noFlush1_4_B : ∀ t : Fin cfg1.N, ¬cond1_0 (grid1.coords t) → ¬cond1_1 (grid1.coords t) → (cfg1.win 4).flush t = false := by decide +kernel
/-- At the points of case C the printed configuration calls output 4 live: the case stores into it. -/
theorem liveAt1_4_C : ∀ t : Fin cfg1.N, ¬cond1_0 (grid1.coords t) → cond1_1 (grid1.coords t) → cfg1.idle 4 (grid1.coords t) = false := by decide +kernel

/-! ## The kernel body on any staging memrefs -/

/-- One staging buffer of output window 4, through which its contents are stated (the choice does not matter). -/
abbrev VO1_4 : View sig .tc .vmem S1024x128 .f32 := (Memref.whole cc1_stg4_0 : Memref sig .tc .vmem S1024x128 .f32).view
/-- Each window's current staging memref at point `t`, spelled as the pipeline passes it, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x2048 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows — the running
    row maximum, the running row sum and the running weighted sum of the online softmax. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The three scratches as views: what each holds between points is stated through its view. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The scoped buffers of the core that this region never touches (the staging buffers of the region before it),
    each whole at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f))

/-- Separating conjunction re-associated, as an equation of propositions. -/
theorem sepA (P Q R : sProp 𝕄) : (iprop((P ∗ Q) ∗ R) : sProp 𝕄) = iprop(P ∗ Q ∗ R) :=
  BI.Entails.antisymm
    (show iprop((P ∗ Q) ∗ R) ⊢ iprop(P ∗ Q ∗ R) from by
      iintro ⟨⟨HP, HQ⟩, HR⟩
      isplitl [HP]; · iexact HP
      isplitl [HQ]; · iexact HQ
      iexact HR)
    (show iprop(P ∗ Q ∗ R) ⊢ iprop((P ∗ Q) ∗ R) from by
      iintro ⟨HP, HQ, HR⟩
      isplitr [HR]
      · isplitl [HP]; · iexact HP
        iexact HQ
      iexact HR)

/-- The region's invariant with the scratch operands as memrefs owned at some contents: what the body obligation
    hands the body and takes back; the untouched scoped buffers ride along as `rest1`. -/
theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; unfold rest1; simp only [scM1_0, scM1_1, scM1_2, owns_whole, sepA]; rfl

end Cert.KernelIdeal.Frm

end
-- ==== Proof.FrmI.Reg1RunA.lean ====
import proofs.«417751_j15599321219367_3_alg».proof.Proof.FrmI.Reg1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratches, as pieces (last first),
    in case A (the reset taken, the output's store not taken (column tile 0)), with the proof that on whole memrefs — the inputs' at their contents, the output's at contents `xi4` handed back untouched,
    the scratches at anything (each is stored whole by the reset before anything read from it is used) — the body runs to the continuation holding the inputs' as they were and each
    scratch with its pieces written: the printed functions are their skeletons, and the weakest precondition is computed along them, each
    `scf.if` decided by the case's hypotheses; the pieces are the witness found along the way. -/
noncomputable def kernelRun1_A (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Frm

end
-- ==== Proof.FrmI.Reg1RunB.lean ====
import proofs.«417751_j15599321219367_3_alg».proof.Proof.FrmI.Reg1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratches, as pieces (last first),
    in case B (neither conditional taken (column tiles 1 and 2)), with the proof that on whole memrefs — the inputs' at their contents, the output's at contents `xi4` handed back untouched,
    the scratches at what the point before left (`xs·`) — the body runs to the continuation holding the inputs' as they were and each
    scratch with its pieces written: the printed functions are their skeletons, and the weakest precondition is computed along them, each
    `scf.if` decided by the case's hypotheses; the pieces are the witness found along the way. -/
noncomputable def kernelRun1_B (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Frm

end
-- ==== Proof.FrmI.Reg1RunC.lean ====
import proofs.«417751_j15599321219367_3_alg».proof.Proof.FrmI.Reg1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- What the body's stores leave in the output's staging memref and in the three scratches, as pieces (last first),
    in case C (the reset not taken, the output's store taken (column tile 3)), with the proof that on whole memrefs — the inputs' at their contents, the output's at anything,
    the scratches at what the point before left (`xs·`) — the body runs to the continuation holding the inputs' as they were, the output's with its pieces written and each
    scratch with its pieces written: the printed functions are their skeletons, and the weakest precondition is computed along them, each
    `scf.if` decided by the case's hypotheses; the pieces are the witness found along the way. -/
noncomputable def kernelRun1_C (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Frm

end
-- ==== Proof.FrmI.Reg1.lean ====
import proofs.«417751_j15599321219367_3_alg».proof.Proof.FrmI.Reg1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 4 (the window is idle at its points and not written back there): no pieces —
    a placeholder that nothing consults, since at these points the window is neither written back nor read at the
    next point. -/
def out1_A_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- Case A's pieces for scratch 0 (the running maximum) cover it: whole-buffer stores. -/
theorem scover1_A_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What case A leaves in scratch 0: its pieces read back over junk. -/
def sout1_A_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- Case A's pieces for scratch 1 (the running sum) cover it: whole-buffer stores. -/
theorem scover1_A_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What case A leaves in scratch 1: its pieces read back over junk. -/
def sout1_A_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- Case A's pieces for scratch 2 (the running weighted sum) cover it: whole-buffer stores. -/
theorem scover1_A_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y

/-- What case A leaves in scratch 2: its pieces read back over junk. -/
def sout1_A_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- Case B stores nothing into output 4 (the window is idle at its points and not written back there): no pieces —
    a placeholder that nothing consults, since at these points the window is neither written back nor read at the
    next point. -/
def out1_B_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- Case B's pieces for scratch 0 (the running maximum) cover it: whole-buffer stores. -/
theorem scover1_B_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case B leaves in scratch 0: its pieces read back over junk. -/
def sout1_B_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- Case B's pieces for scratch 1 (the running sum) cover it: whole-buffer stores. -/
theorem scover1_B_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case B leaves in scratch 1: its pieces read back over junk. -/
def sout1_B_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- Case B's pieces for scratch 2 (the running weighted sum) cover it: whole-buffer stores. -/
theorem scover1_B_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case B leaves in scratch 2: its pieces read back over junk. -/
def sout1_B_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- Case C's pieces for output 4 tile its block (one store of the whole block), so they cover it. -/
theorem cover1_C_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What case C leaves in output 4's staging buffer: its pieces read back over junk. -/
def out1_C_4 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- Case C's pieces for scratch 0 (the running maximum) cover it: whole-buffer stores. -/
theorem scover1_C_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What case C leaves in scratch 0: its pieces read back over junk. -/
def sout1_C_0 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- Case C's pieces for scratch 1 (the running sum) cover it: whole-buffer stores. -/
theorem scover1_C_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What case C leaves in scratch 1: its pieces read back over junk. -/
def sout1_C_1 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- Case C's pieces for scratch 2 (the running weighted sum) cover it: whole-buffer stores. -/
theorem scover1_C_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What case C leaves in scratch 2: its pieces read back over junk. -/
def sout1_C_2 (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## What the output and the scratches hold after each point -/

/-- THE ACCUMULATION. What the output's staging buffer and the three scratches hold after the body at position `n`
    (a tuple: the output, then the running maximum, the running sum, the running weighted sum): the case the closed
    forms select at `n`, at the point's memrefs and input blocks, the scratches entering at what `n - 1` left.
    An assignment of the conditions no point meets is no case. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the untouched scoped buffers at anything, each scratch at what the point before left in it
    (`outsAt1`'s scratch components), and the generator register at some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratches at that point's contents. -/
theorem PhiS1_succ (c : Dev nD) (n : ℕ) (hn : n < cfg1.N) :
    PhiS1 V c (n + 1) hn = iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratches at what the point before left. -/
theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in;
    the invariant hands the body the three scratches at what the point before left (at anything at the first point),
    the untouched scoped buffers and the generator register at some state, and takes the scratches back at this
    point's contents (their pieces cover them); the output's buffer is handed back untouched where the case stores
    nothing into it, and at its covering pieces where it does; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratches' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Frm

end
-- ==== Proof.FrmI.Run.lean ====
/-
  The launch of the two-region program: the contents of the TensorCore's unscoped buffers at each boundary of @main
  (at launch; after the projection region, whose three output arrays hold what the pipeline's write-backs leave;
  after the two host operations between the regions; after the attention region, whose output array holds what its
  write-backs leave), the two regions as segments of @main entered from and left at those contents — the attention
  region's invariant carrying its three scratch buffers from point to point —, and the run: every weakly fair
  execution terminates with every unscoped buffer at the last boundary's contents. The argument arrays, written by
  no host operation and by no region, read back through the boundaries to their launch contents.
-/
import proofs.«417751_j15599321219367_3_alg».proof.Proof.Gen.KernelIdeal.Regions
import proofs.«417751_j15599321219367_3_alg».proof.Proof.FrmI.Reg0
import proofs.«417751_j15599321219367_3_alg».proof.Proof.FrmI.Reg1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the projection region's entry, no host operation comes before it. -/
abbrev W0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => W0 m ρ c b
/-- At the projection region's exit: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the two host operations between the regions: the attention region's entry. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
/-- The host operations write only their own two results. -/
theorem W2_of (c : Dev nD) (r : Ref sig .tc) (h : r ∉ hostOps1_W) : W2 m ρ c r = W1 m ρ c r :=
  StableHlo.after_of_writes_sub hostOps1 _ hostOps1_writes h
/-- At the attention region's exit: its arrays at what the pipeline leaves, every other buffer as entered. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-! ### The arguments end as launched -/

/-- An input array of the projection region that the attention region does not touch. -/
theorem W3_of_in0 (c : Dev nD) (w : Fin cfg0.W) (hw : (cfg0.win w).isOut = false)
    (h1 : ∀ w', Pipeline.arrRef spec1 w' ≠ Pipeline.arrRef spec0 w) (h2 : Pipeline.arrRef spec0 w ∉ hostOps1_W) :
    W3 m ρ c (Proc.devRef .tc (Pipeline.arrRef spec0 w)) = m ((c : Thread nD τ).loc (Pipeline.arrRef spec0 w)) :=
  calc W3 m ρ c (Proc.devRef .tc (Pipeline.arrRef spec0 w))
    _ = W2 m ρ c (Proc.devRef .tc (Pipeline.arrRef spec0 w)) := W3_of_ne m ρ c _ h1
    _ = W1 m ρ c (Proc.devRef .tc (Pipeline.arrRef spec0 w)) := W2_of m ρ c _ h2
    _ = (dat0 (E0 m ρ) c).arrAt w cfg0.N := W1_arr m ρ c w
    _ = (dat0 (E0 m ρ) c).A w := (dat0 (E0 m ρ) c).arrAt_in w hw _
    _ = E0 m ρ c (Pipeline.arrRef spec0 w) := A_eq0 (E0 m ρ) c w
    _ = m ((c : Thread nD τ).loc (Pipeline.arrRef spec0 w)) := rfl

theorem W3_main_arg0 (c : Dev nD) : W3 m ρ c (Proc.devRef .tc main_arg0) = m ((c : Thread nD τ).loc main_arg0) :=
  W3_of_in0 m ρ c 0 rfl (by decide) (by decide)
theorem W3_main_arg2 (c : Dev nD) : W3 m ρ c (Proc.devRef .tc main_arg2) = m ((c : Thread nD τ).loc main_arg2) :=
  W3_of_in0 m ρ c 1 rfl (by decide) (by decide)
theorem W3_main_arg3 (c : Dev nD) : W3 m ρ c (Proc.devRef .tc main_arg3) = m ((c : Thread nD τ).loc main_arg3) :=
  W3_of_in0 m ρ c 2 rfl (by decide) (by decide)
theorem W3_main_arg4 (c : Dev nD) : W3 m ρ c (Proc.devRef .tc main_arg4) = m ((c : Thread nD τ).loc main_arg4) :=
  W3_of_in0 m ρ c 3 rfl (by decide) (by decide)
/-- The adjacency array: an input of the attention region that bypasses the projection region. -/
theorem W3_main_arg1 (c : Dev nD) : W3 m ρ c (Proc.devRef .tc main_arg1) = m ((c : Thread nD τ).loc main_arg1) :=
  calc W3 m ρ c (Proc.devRef .tc main_arg1)
    _ = (dat1 (E2 m ρ) c).arrAt 2 cfg1.N := W3_arr m ρ c 2
    _ = (dat1 (E2 m ρ) c).A 2 := (dat1 (E2 m ρ) c).arrAt_in 2 rfl _
    _ = E2 m ρ c (Pipeline.arrRef spec1 2) := A_eq1 (E2 m ρ) c 2
    _ = W1 m ρ c (Proc.devRef .tc main_arg1) := W2_of m ρ c main_arg1 (by decide)
    _ = W0 m ρ c (Proc.devRef .tc main_arg1) := W1_of_ne m ρ c main_arg1 (by decide)
    _ = m ((c : Thread nD τ).loc main_arg1) := rfl

/-! ## The proof data family and the thread state -/

/-- No pipeline has a prefetched table. -/
abbrev admF : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admF p) c
  | ⟨0, _⟩ => fun c => dat0 (E0 m ρ) c
  | ⟨1, _⟩ => fun c => dat1 (E2 m ρ) c
abbrev 𝒱F : Variants := Variants.none
/-- No core owes another anything: no level is assigned. -/
abbrev LF : GSem nD τ sig → Finset Unit := fun _ => ∅
abbrev lvF : GSem nD τ sig → Unit → ℕ := fun _ _ => 0
/-- What rides beside the buffers through every segment: the generator register at some state and the core's dues, none. -/
abbrev RF (c : Dev nD) : sProp 𝕄 := iprop((∃ r, prngReg c r) ∗ ∃ W, owes (c : Thread nD τ) (0 : CellTallies nD τ sig Unit) W)
/-- A host stretch as a segment over the unscoped references from the contents `W`. -/
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev TF (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection region: entered from every unscoped buffer at `W0`, left at `W1`. -/
def reg0 : Pipeline.RegionSeg (pcfgs (F := F)) admF (pdats m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LF lvF 0 fun _ _ => rfl
  pre c := iprop(StableHlo.held (c : Thread nD τ) (Pipeline.ucRefs τ sig) (W0 m ρ c) ∗ RF c)
  post c := iprop(StableHlo.held (c : Thread nD τ) (Pipeline.ucRefs τ sig) (W1 m ρ c) ∗ RF c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; its invariant starts as the
    scoped rest with the generator register and ends giving them back, the scratch buffers' contents forgotten. -/
def reg1 : Pipeline.RegionSeg (pcfgs (F := F)) admF (pdats m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ LF lvF 1 fun _ _ => rfl
  pre c := iprop(StableHlo.held (c : Thread nD τ) (Pipeline.ucRefs τ sig) (W2 m ρ c) ∗ RF c)
  post c := iprop(TF m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (E2 m ρ) c
    unfold Pipeline.ΦA at h
    iintro ⟨Hp, -, Hr⟩
    iapply h
    isplitl [Hr]; · iexact Hr
    iexact Hp
  hout c := by
    have h : (pdats m ρ 1 c).Φ (Fin.last _) ⊢ Pipeline.ΦA spec1 c := hout1 (E2 m ρ) c
    unfold Pipeline.ΦA at h
    rw [Pipeline.ownSems0_none]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the projection region, the host stretch, the attention region. -/
abbrev segsF : List (Pipeline.Seg (pcfgs (F := F)) admF (pdats m ρ) () defs₀ 𝒱F LF lvF) :=
  [ .region (reg0 m ρ),
    .host (hsegF hostOps1 hostOps1_sub hostOps1_fresh (W1 m ρ)),
    .region (reg1 m ρ) ]
/-- @main is the run of the segments. -/
theorem main_run (c : Dev nD) : main (F := F) c = Pipeline.Seg.run (segsF m ρ) := (main_chain c).trans (by chain_rfl)

set_option backward.isDefEq.respectTransparency.types false in
/-- THE RUN: from any memory with zero counters every weakly fair execution of @main terminates, nothing faulting,
    and every final state holds every unscoped TensorCore buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admF (pdats m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RF c)) (Tₙ := TF m ρ)
    (hch := ⟨fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- The result array at the end: what the attention region's write-backs leave in its output window's array. -/
theorem W3_main_v3 (c : Dev nD) : W3 m ρ c (Proc.devRef .tc main_v3) = (dat1 (E2 m ρ) c).arrAt 4 cfg1.N :=
  W3_arr m ρ c 4

end Cert.KernelIdeal.Frm

end
-- ==== Proof.Spec.lean ====
/-
  The mathematics of the layer, over plain index functions on the extended reals, with no program in sight.
  From the feature matrix `h`, the weights `W` and the two attention vectors: `wh = h Wᵀ`, `s = wh · a`.
  From the two score columns `s1`, `s2`, the adjacency words and `wh`: the masked score of the pair `(i, j)` is the
  leaky rectifier of `s1 i + s2 j` where the adjacency word is positive and a large negative constant elsewhere; row
  `i` of the result is the exponential-linear unit of the softmax-weighted combination of the rows of `wh`.
  Two spellings of that result are defined: `outK`, the streaming one (four column tiles of 2048, a running maximum,
  a running normaliser and a running weighted sum rescaled at each tile, one division at the end), and `outR`, the
  two-pass one (row maximum, exponentials, row sum, quotient, then the product with `wh`).
-/
import Idealize.ShloMosaic.PureOps.Ideal

noncomputable section

open scoped BigOperators

namespace Cert.Spec

open Idealize.ShloMosaic

/-- The leaky rectifier's slope: the f32 nearest to one fifth, as an extended real. -/
abbrev c02 : EReal := Ideal.ofBits .f32 0x3E4CCCCD#32
/-- The mask's fill value: the f32 nearest to `-9e15`, as an extended real. -/
abbrev negBig : EReal := Ideal.ofBits .f32 0xD9FFCB9E#32
/-- An adjacency word counts as an edge when it is positive as a signed integer. -/
abbrev edge (a : BitVec 32) : BitVec 1 := IntOp.cmpi .sgt a 0#32

/-! ## The projection -/

/-- `wh = h Wᵀ`. -/
def wh (h : Fin 8192 → Fin 256 → EReal) (W : Fin 128 → Fin 256 → EReal) (i : Fin 8192) (f : Fin 128) : EReal :=
  ∑ k : Fin 256, h i k * W f k

/-- `s = wh · a`. -/
def sv (wh : Fin 8192 → Fin 128 → EReal) (a : Fin 128 → EReal) (i : Fin 8192) : EReal :=
  ∑ f : Fin 128, wh i f * a f

section Attention

variable (s1 s2 : Fin 8192 → EReal) (adj : Fin 8192 → Fin 8192 → BitVec 32) (w : Fin 8192 → Fin 128 → EReal)

/-! ## The streaming spelling -/

/-- The masked score, the rectifier as the larger of `e` and `c02 · e`. -/
def xK (i j : Fin 8192) : EReal :=
  Scalar.select (edge (adj i j)) (max (s1 i + s2 j) (c02 * (s1 i + s2 j))) negBig

/-- Column `q` of column tile `k`. -/
def col (k : Fin 4) (q : Fin 2048) : Fin 8192 := ⟨2048 * k.val + q.val, by omega⟩

/-- A row's running state: maximum, normaliser, weighted sum. -/
structure St where
  m : EReal
  l : EReal
  acc : Fin 128 → EReal

/-- Before the first tile. -/
def St.init : St := ⟨⊥, 0, fun _ => 0⟩

/-- One tile: the new maximum, the old state rescaled by `exp (old maximum - new maximum)`, the tile's terms added. -/
def St.step (x : Fin 2048 → EReal) (v : Fin 2048 → Fin 128 → EReal) (s : St) : St :=
  let M : EReal := max s.m ((Finset.univ : Finset (Fin 2048)).fold max ⊥ x)
  let a : EReal := Ideal.exp (s.m - M)
  ⟨M, a * s.l + ∑ q : Fin 2048, Ideal.exp (x q - M), fun f => a * s.acc f + ∑ q : Fin 2048, Ideal.exp (x q - M) * v q f⟩

/-- Row `i`'s scores in tile `k`, and the rows of `w` the tile meets. -/
def tileX (i : Fin 8192) (k : Fin 4) : Fin 2048 → EReal := fun q => xK s1 s2 adj i (col k q)
def tileW (k : Fin 4) : Fin 2048 → Fin 128 → EReal := fun q f => w (col k q) f

/-- Row `i`'s state after tiles `0 … k`. -/
def stAfter (i : Fin 8192) : Fin 4 → St
  | ⟨0, _⟩ => St.step (tileX s1 s2 adj i 0) (tileW w 0) St.init
  | ⟨k + 1, hk⟩ => St.step (tileX s1 s2 adj i ⟨k + 1, hk⟩) (tileW w ⟨k + 1, hk⟩) (stAfter i ⟨k, by omega⟩)

/-- The exponential-linear unit, the negative branch as `exp y - 1`. -/
def eluK (y : EReal) : EReal := Scalar.select (Ideal.cmp .ogt y 0) y (Ideal.exp y - 1)

/-- The streaming result. -/
def outK (i : Fin 8192) (f : Fin 128) : EReal :=
  eluK (Ideal.div ((stAfter s1 s2 adj w i 3).acc f) (stAfter s1 s2 adj w i 3).l)

/-! ## The two-pass spelling -/

/-- The masked score, the rectifier as a selection on the sign of `e`. -/
def xR (i j : Fin 8192) : EReal :=
  Scalar.select (edge (adj i j))
    (Scalar.select (Ideal.cmp .oge (s1 i + s2 j) 0) (s1 i + s2 j) (c02 * (s1 i + s2 j))) negBig

/-- The row maximum (joined once more with `⊥`, which changes nothing). -/
def maxR (i : Fin 8192) : EReal := max ⊥ ((Finset.univ : Finset (Fin 8192)).fold max ⊥ (xR s1 s2 adj i))
/-- The shifted exponentials, their row sum, the quotient. -/
def expR (i j : Fin 8192) : EReal := Ideal.exp (xR s1 s2 adj i j - maxR s1 s2 adj i)
def sumR (i : Fin 8192) : EReal := 0 + ∑ j : Fin 8192, expR s1 s2 adj i j
def attR (i j : Fin 8192) : EReal := Ideal.div (expR s1 s2 adj i j) (sumR s1 s2 adj i)
/-- The weighted combination of the rows of `w`. -/
def hR (i : Fin 8192) (f : Fin 128) : EReal := ∑ j : Fin 8192, attR s1 s2 adj i j * w j f
/-- The exponential-linear unit, the negative branch as `1 · (exp (select … 0 y) - 1)`. -/
def eluR (y : EReal) : EReal :=
  Scalar.select (Ideal.cmp .ogt y 0) y (1 * (Ideal.exp (Scalar.select (Ideal.cmp .ogt y 0) 0 y) - 1))

/-- The two-pass result. -/
def outR (i : Fin 8192) (f : Fin 128) : EReal := eluR (hR s1 s2 adj w i f)

end Attention

end Cert.Spec

end
-- ==== Proof.Val.Pay0.lean ====
/-
  The three products of the projection, read at an index of the extended reals:
  the first is the feature block times the transposed weight matrix, a sum over the 256 input features;
  the other two are that product times one of the two attention columns, a sum over the 128 output features.
-/
import proofs.«417751_j15599321219367_3_alg».proof.Proof.Gen.KernelIdeal.Skeleton
import proofs.«417751_j15599321219367_3_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## The operand indices of the two contractions, axis by axis -/

/-- Rows of the feature block follow the output's row. -/
theorem lhs_featW_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide),
    dif_pos (show (0 : Fin S1024x256.rank) ∈ dot_S1024x256_S256x128_S1024x128_1_0_0_1_n_n.lhsNonContracting by decide)]
  rfl

/-- Columns of the feature block follow the summation index. -/
theorem lhs_featW_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q

/-- Rows of the transposed weights follow the summation index. -/
theorem rhs_featW_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q

/-- Columns of the transposed weights follow the output's column. -/
theorem rhs_featW_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide),
    dif_pos (show (1 : Fin S256x128.rank) ∈ dot_S1024x256_S256x128_S1024x128_1_0_0_1_n_n.rhsNonContracting by decide)]
  rfl

/-- Rows of the projected block follow the output's row. -/
theorem lhs_whA_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide),
    dif_pos (show (0 : Fin S1024x128.rank) ∈ dot_S1024x128_S128x1_S1024x1_1_0_0_1_n_n.lhsNonContracting by decide)]
  rfl

/-- Columns of the projected block follow the summation index. -/
theorem lhs_whA_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q

/-- Rows of the attention column follow the summation index. -/
theorem rhs_whA_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q

/-- The attention column's one column follows the output's. -/
theorem rhs_whA_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide),
    dif_pos (show (1 : Fin S128x1.rank) ∈ dot_S1024x128_S128x1_S1024x1_1_0_0_1_n_n.rhsNonContracting by decide)]
  rfl

/-! ## The products at an index -/

/-- The projected block at row `r`, feature `f`: the row of the feature block against row `f` of the weights. -/
theorem k0_pay1_apply (v0 : Vec Ideal S1024x256 .f32) (v1 : Vec Ideal S128x256 .f32) (r : Fin 1024) (f : Fin 128) :
    k0_pay1 (F := Ideal) v0 v1 (ix2 r f) = ∑ k : Fin 256, v0 (ix2 r k) * v1 (ix2 f k) := by
  unfold k0_pay1
  simp only [matmul]
  rw [Ideal.matmul_constant_zero_apply,
    ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 r f)
      ((contrEquiv1 dot_S1024x256_S256x128_S1024x128_1_0_0_1_n_n 256 rfl rfl).symm k) = ix2 r k :=
    funext fun a => Fin.ext (by
      match a with
      | ⟨0, _⟩ => exact lhs_featW_0 _ _
      | ⟨1, _⟩ => exact (lhs_featW_1 _ _).trans hk)
  have er : dot_S1024x256_S256x128_S1024x128_1_0_0_1_n_n.rhsIdx (ix2 r f)
      ((contrEquiv1 dot_S1024x256_S256x128_S1024x128_1_0_0_1_n_n 256 rfl rfl).symm k) = ix2 k f :=
    funext fun a => Fin.ext (by
      match a with
      | ⟨0, _⟩ => exact (rhs_featW_0 _ _).trans hk
      | ⟨1, _⟩ => exact rhs_featW_1 _ _)
  rw [el, er, transpose_ix2_apply]

/-- A projected block times a column: at row `r` the sum over the 128 features. -/
theorem whCol_apply (w : FVec Ideal S1024x128 .f32) (a : FVec Ideal S128x1 .f32) (r : Fin 1024) :
    matmul (F := Ideal) dot_S1024x128_S128x1_S1024x1_1_0_0_1_n_n none w a (constant (F := Ideal) S1024x1 .f32 0x00000000#32)
      (ix2 r (0 : Fin 1)) = ∑ f : Fin 128, w (ix2 r f) * a (ix2 f (0 : Fin 1)) := by
  simp only [matmul]
  rw [Ideal.matmul_constant_zero_apply,
    ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 r (0 : Fin 1))
      ((contrEquiv1 dot_S1024x128_S128x1_S1024x1_1_0_0_1_n_n 128 rfl rfl).symm k) = ix2 r k :=
    funext fun a => Fin.ext (by
      match a with
      | ⟨0, _⟩ => exact lhs_whA_0 _ _
      | ⟨1, _⟩ => exact (lhs_whA_1 _ _).trans hk)
  have er : dot_S1024x128_S128x1_S1024x1_1_0_0_1_n_n.rhsIdx (ix2 r (0 : Fin 1))
      ((contrEquiv1 dot_S1024x128_S128x1_S1024x1_1_0_0_1_n_n 128 rfl rfl).symm k) = ix2 k (0 : Fin 1) :=
    funext fun a => Fin.ext (by
      match a with
      | ⟨0, _⟩ => exact (rhs_whA_0 _ _).trans hk
      | ⟨1, _⟩ => exact rhs_whA_1 _ _)
  rw [el, er]

/-- The first score column at row `r`. -/
theorem k0_pay2_apply (v0 : Vec Ideal S1024x256 .f32) (v1 : Vec Ideal S128x256 .f32) (v4 : Vec Ideal S128x1 .f32)
    (r : Fin 1024) :
    k0_pay2 (F := Ideal) v0 v1 v4 (ix2 r (0 : Fin 1))
      = ∑ f : Fin 128, k0_pay1 (F := Ideal) v0 v1 (ix2 r f) * v4 (ix2 f (0 : Fin 1)) := by
  unfold k0_pay2
  exact whCol_apply (k0_pay1 (F := Ideal) v0 v1) v4 r

/-- The second score column at row `r`. -/
theorem k0_pay3_apply (v0 : Vec Ideal S1024x256 .f32) (v1 : Vec Ideal S128x256 .f32) (v6 : Vec Ideal S128x1 .f32)
    (r : Fin 1024) :
    k0_pay3 (F := Ideal) v0 v1 v6 (ix2 r (0 : Fin 1))
      = ∑ f : Fin 128, k0_pay1 (F := Ideal) v0 v1 (ix2 r f) * v6 (ix2 f (0 : Fin 1)) := by
  unfold k0_pay3
  exact whCol_apply (k0_pay1 (F := Ideal) v0 v1) v6 r

end Cert.KernelIdeal.Val

end
-- ==== Proof.Val.Reg0.lean ====
/-
  The projection call's three result arrays as functions of its argument arrays.
  At each of the 8 row tiles the body stores the tile's rows of `h Wᵀ` and of its two products with the attention
  columns; the tile's feature block is rows `1024 t … 1024 t + 1023` of the features, the three parameter blocks are the
  whole parameter arrays, and the three stored blocks are the same rows of the results. The tiles cover every row, so
  each result array ends as its function of the whole arguments, index by index.
-/
import proofs.«417751_j15599321219367_3_alg».proof.Proof.Val.Pay0
import proofs.«417751_j15599321219367_3_alg».proof.Proof.FrmI.Reg0
import Idealize.ShloMosaic.Lib.Pipeline.Value

noncomputable section

open scoped BigOperators

namespace Cert.KernelIdeal.Val

open Cert.KernelIdeal Cert.KernelIdeal.Gen Cert.KernelIdeal.Frm Idealize.ShloMosaic Idealize.ShloMosaic.ValueIdx
open Idealize.ShloMosaic.TcCoe Idealize.SL.Sem
open Idealize.ShloMosaic.Pipeline (Dat)

-- the core's buffer contents when the call is entered, at the extended reals
variable (V : (c : Dev nD) → (b : Ref sig .tc) → Buf (Elt Ideal) ((c : Thread nD τ).loc b))

theorem zeroOff0 : (![0, 0] : Fin 2 → Nat) = fun _ => 0 := funext fun a => by fin_cases a <;> rfl

/-! ## A tile's results from its blocks -/

/-- Row `p`, feature `q` of a projected tile, once row `p` of the feature block is row `i` of `h` and row `q` of the
    weight block is row `g` of `W`. -/
theorem tile_wh (x0 : Vec Ideal S1024x256 .f32) (x1 : Vec Ideal S128x256 .f32)
    (h : Fin 8192 → Fin 256 → EReal) (W : Fin 128 → Fin 256 → EReal) (p : Fin 1024) (q : Fin 128) (i : Fin 8192) (g : Fin 128)
    (hx0 : ∀ k : Fin 256, x0 (ix2 p k) = h i k) (hx1 : ∀ k : Fin 256, x1 (ix2 q k) = W g k) :
    k0_pay1 (F := Ideal) x0 x1 (ix2 p q) = Cert.Spec.wh h W i g := by
  rw [k0_pay1_apply]
  unfold Cert.Spec.wh
  exact Finset.sum_congr rfl fun k _ => by rw [hx0 k, hx1 k]

/-- Row `p` of a tile's first score column, once the blocks are known rows of `h`, all of `W` and all of `a`. -/
theorem tile_sv1 (x0 : Vec Ideal S1024x256 .f32) (x1 : Vec Ideal S128x256 .f32) (x2 : Vec Ideal S128x1 .f32)
    (h : Fin 8192 → Fin 256 → EReal) (W : Fin 128 → Fin 256 → EReal) (a : Fin 128 → EReal) (p : Fin 1024) (i : Fin 8192)
    (hx0 : ∀ k : Fin 256, x0 (ix2 p k) = h i k) (hx1 : ∀ (g : Fin 128) (k : Fin 256), x1 (ix2 g k) = W g k)
    (hx2 : ∀ g : Fin 128, x2 (ix2 g (0 : Fin 1)) = a g) :
    k0_pay2 (F := Ideal) x0 x1 x2 (ix2 p (0 : Fin 1)) = Cert.Spec.sv (Cert.Spec.wh h W) a i := by
  rw [k0_pay2_apply]
  unfold Cert.Spec.sv
  exact Finset.sum_congr rfl fun g _ => by rw [tile_wh x0 x1 h W p g i g hx0 (hx1 g), hx2 g]

/-- The same for the second score column. -/
theorem tile_sv2 (x0 : Vec Ideal S1024x256 .f32) (x1 : Vec Ideal S128x256 .f32) (x3 : Vec Ideal S128x1 .f32)
    (h : Fin 8192 → Fin 256 → EReal) (W : Fin 128 → Fin 256 → EReal) (a : Fin 128 → EReal) (p : Fin 1024) (i : Fin 8192)
    (hx0 : ∀ k : Fin 256, x0 (ix2 p k) = h i k) (hx1 : ∀ (g : Fin 128) (k : Fin 256), x1 (ix2 g k) = W g k)
    (hx3 : ∀ g : Fin 128, x3 (ix2 g (0 : Fin 1)) = a g) :
    k0_pay3 (F := Ideal) x0 x1 x3 (ix2 p (0 : Fin 1)) = Cert.Spec.sv (Cert.Spec.wh h W) a i := by
  rw [k0_pay3_apply]
  unfold Cert.Spec.sv
  exact Finset.sum_congr rfl fun g _ => by rw [tile_wh x0 x1 h W p g i g hx0 (hx1 g), hx3 g]

/-! ## Where each tile's blocks lie -/

/-- The block indices over the grid: the feature block and the three result blocks sit at row block `t`, the parameter
    blocks never move. -/
theorem tileIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of tile `t`'s feature block is row `1024 t + p` of the features. -/
theorem featTile_apply (c : Dev nD) (t : Fin cfg0.N) (p : Fin 1024) (k : Fin 256) (i : Fin 8192)
    (hi : i.val = 1024 * t.val + p.val) :
    (iblk0 V c 0 t : Vec Ideal S1024x256 .f32) (ix2 p k) = V c main_arg0 (ix2 i k) := by
  obtain ⟨e0, e1, -⟩ := tileIdx0 t
  unfold iblk0
  rw [View.read_apply]
  show V c main_arg0 (((cfg0.win 0).blk t).view.emb (ix2 p k)) = V c main_arg0 (ix2 i k)
  refine congrArg (V c main_arg0) (funext fun a => Fin.ext ?_)
  match a with
  | ⟨0, _⟩ => show win0_0.index t (0 : Fin 2) * 1024 + 1 * p.val = i.val; rw [e0, hi]; omega
  | ⟨1, _⟩ => show win0_0.index t (1 : Fin 2) * 256 + 1 * k.val = k.val; rw [e1]; omega

/-- The weight block is the whole weight array. -/
theorem weightTile_apply (c : Dev nD) (t : Fin cfg0.N) (g : Fin 128) (k : Fin 256) :
    (iblk0 V c 1 t : Vec Ideal S128x256 .f32) (ix2 g k) = V c main_arg2 (ix2 g k) := by
  obtain ⟨-, -, e2, e3, -⟩ := tileIdx0 t
  unfold iblk0
  rw [View.read_apply]
  show V c main_arg2 (((cfg0.win 1).blk t).view.emb (ix2 g k)) = V c main_arg2 (ix2 g k)
  refine congrArg (V c main_arg2) (funext fun a => Fin.ext ?_)
  match a with
  | ⟨0, _⟩ => show win0_1.index t (0 : Fin 2) * 128 + 1 * g.val = g.val; rw [e2]; omega
  | ⟨1, _⟩ => show win0_1.index t (1 : Fin 2) * 256 + 1 * k.val = k.val; rw [e3]; omega

/-- The first attention block is the whole first attention column. -/
theorem att1Tile_apply (c : Dev nD) (t : Fin cfg0.N) (g : Fin 128) :
    (iblk0 V c 2 t : Vec Ideal S128x1 .f32) (ix2 g (0 : Fin 1)) = V c main_arg3 (ix2 g (0 : Fin 1)) := by
  obtain ⟨-, -, -, -, e4, e5, -⟩ := tileIdx0 t
  unfold iblk0
  rw [View.read_apply]
  show V c main_arg3 (((cfg0.win 2).blk t).view.emb (ix2 g (0 : Fin 1))) = V c main_arg3 (ix2 g (0 : Fin 1))
  refine congrArg (V c main_arg3) (funext fun a => Fin.ext ?_)
  match a with
  | ⟨0, _⟩ => show win0_2.index t (0 : Fin 2) * 128 + 1 * g.val = g.val; rw [e4]; omega
  | ⟨1, _⟩ => show win0_2.index t (1 : Fin 2) * 1 + 1 * 0 = 0; rw [e5]

/-- The second attention block is the whole second attention column. -/
theorem att2Tile_apply (c : Dev nD) (t : Fin cfg0.N) (g : Fin 128) :
    (iblk0 V c 3 t : Vec Ideal S128x1 .f32) (ix2 g (0 : Fin 1)) = V c main_arg4 (ix2 g (0 : Fin 1)) := by
  obtain ⟨-, -, -, -, -, -, e6, e7, -⟩ := tileIdx0 t
  unfold iblk0
  rw [View.read_apply]
  show V c main_arg4 (((cfg0.win 3).blk t).view.emb (ix2 g (0 : Fin 1))) = V c main_arg4 (ix2 g (0 : Fin 1))
  refine congrArg (V c main_arg4) (funext fun a => Fin.ext ?_)
  match a with
  | ⟨0, _⟩ => show win0_3.index t (0 : Fin 2) * 128 + 1 * g.val = g.val; rw [e6]; omega
  | ⟨1, _⟩ => show win0_3.index t (1 : Fin 2) * 1 + 1 * 0 = 0; rw [e7]

/-! ## The results as functions of the whole arguments -/

/-- `h Wᵀ` of the feature and weight arrays. -/
abbrev whArr (c : Dev nD) : S8192x128.Idx → EReal := fun i =>
  Cert.Spec.wh (fun a k => V c main_arg0 (ix2 a k)) (fun g k => V c main_arg2 (ix2 g k)) (i 0) (i 1)

/-- Its product with the first attention column. -/
abbrev s1Arr (c : Dev nD) : S8192x1.Idx → EReal := fun i =>
  Cert.Spec.sv (Cert.Spec.wh (fun a k => V c main_arg0 (ix2 a k)) (fun g k => V c main_arg2 (ix2 g k)))
    (fun g => V c main_arg3 (ix2 g (0 : Fin 1))) (i 0)

/-- Its product with the second attention column. -/
abbrev s2Arr (c : Dev nD) : S8192x1.Idx → EReal := fun i =>
  Cert.Spec.sv (Cert.Spec.wh (fun a k => V c main_arg0 (ix2 a k)) (fun g k => V c main_arg2 (ix2 g k)))
    (fun g => V c main_arg4 (ix2 g (0 : Fin 1))) (i 0)

/-! ## What each tile writes back -/

/-- Tile `t` writes back its rows of `h Wᵀ`. -/
theorem flushed0_4 (c : Dev nD) (t : Fin cfg0.N) :
    (dat0 V c).flushed 4 t = ((cfg0.win 4).blk t).view.read (Elt Ideal) (whArr V c) := by
  show (cfg0.win 4).cut (grid0.coords t) ((dat0 V c).after 4 t) = _
  rw [after0_4]
  unfold out0_4
  rw [View.canon_unit_zero zeroOff0]
  simp only [View.ld_unit_zero (S := S1024x256) zeroOff0, View.ld_unit_zero (S := S128x256) zeroOff0]
  obtain ⟨-, -, -, -, -, -, -, -, e8, e9, -⟩ := tileIdx0 t
  funext j
  show k0_pay1 (F := Ideal) (iblk0 V c 0 t) (iblk0 V c 1 t) (j : S1024x128.Idx)
    = whArr V c (((cfg0.win 4).blk t).view.emb j)
  refine (congrArg (k0_pay1 (F := Ideal) (iblk0 V c 0 t) (iblk0 V c 1 t)) (eq_ix2 (n0 := 1024) (n1 := 128) j)).trans ?_
  refine tile_wh _ _ _ _ (j 0) (j 1) _ _ (fun k => featTile_apply V c t (j 0) k _ ?_) (fun k => ?_)
  · show win0_4.index t (0 : Fin 2) * 1024 + 1 * (j 0).val = 1024 * t.val + (j 0).val
    rw [e8]; omega
  · refine (weightTile_apply V c t (j 1) k).trans (congrArg (V c main_arg2) (congrArg (fun g => ix2 g k) (Fin.ext ?_)))
    show (j 1).val = win0_4.index t (1 : Fin 2) * 128 + 1 * (j 1).val
    rw [e9]; omega

/-- Tile `t` writes back its rows of the first score column. -/
theorem flushed0_5 (c : Dev nD) (t : Fin cfg0.N) :
    (dat0 V c).flushed 5 t = ((cfg0.win 5).blk t).view.read (Elt Ideal) (s1Arr V c) := by
  show (cfg0.win 5).cut (grid0.coords t) ((dat0 V c).after 5 t) = _
  rw [after0_5]
  unfold out0_5
  rw [View.canon_unit_zero zeroOff0]
  simp only [View.ld_unit_zero (S := S1024x256) zeroOff0, View.ld_unit_zero (S := S128x256) zeroOff0,
    View.ld_unit_zero (S := S128x1) zeroOff0]
  obtain ⟨-, -, -, -, -, -, -, -, -, -, e10, -⟩ := tileIdx0 t
  funext j
  show k0_pay2 (F := Ideal) (iblk0 V c 0 t) (iblk0 V c 1 t) (iblk0 V c 2 t) (j : S1024x1.Idx)
    = s1Arr V c (((cfg0.win 5).blk t).view.emb j)
  have hj : (j : S1024x1.Idx) = ix2 (j 0) (0 : Fin 1) :=
    (eq_ix2 (n0 := 1024) (n1 := 1) j).trans (congrArg (ix2 (j 0)) (@Subsingleton.elim (Fin 1) _ _ _))
  refine (congrArg (k0_pay2 (F := Ideal) (iblk0 V c 0 t) (iblk0 V c 1 t) (iblk0 V c 2 t)) hj).trans ?_
  refine tile_sv1 _ _ _ _ _ _ (j 0) _ (fun k => featTile_apply V c t (j 0) k _ ?_)
    (fun g k => weightTile_apply V c t g k) (fun g => att1Tile_apply V c t g)
  show win0_5.index t (0 : Fin 2) * 1024 + 1 * (j 0).val = 1024 * t.val + (j 0).val
  rw [e10]; omega

/-- Tile `t` writes back its rows of the second score column. -/
theorem flushed0_6 (c : Dev nD) (t : Fin cfg0.N) :
    (dat0 V c).flushed 6 t = ((cfg0.win 6).blk t).view.read (Elt Ideal) (s2Arr V c) := by
  show (cfg0.win 6).cut (grid0.coords t) ((dat0 V c).after 6 t) = _
  rw [after0_6]
  unfold out0_6
  rw [View.canon_unit_zero zeroOff0]
  simp only [View.ld_unit_zero (S := S1024x256) zeroOff0, View.ld_unit_zero (S := S128x256) zeroOff0,
    View.ld_unit_zero (S := S128x1) zeroOff0]
  obtain ⟨-, -, -, -, -, -, -, -, -, -, -, -, e12, -⟩ := tileIdx0 t
  funext j
  show k0_pay3 (F := Ideal) (iblk0 V c 0 t) (iblk0 V c 1 t) (iblk0 V c 3 t) (j : S1024x1.Idx)
    = s2Arr V c (((cfg0.win 6).blk t).view.emb j)
  have hj : (j : S1024x1.Idx) = ix2 (j 0) (0 : Fin 1) :=
    (eq_ix2 (n0 := 1024) (n1 := 1) j).trans (congrArg (ix2 (j 0)) (@Subsingleton.elim (Fin 1) _ _ _))
  refine (congrArg (k0_pay3 (F := Ideal) (iblk0 V c 0 t) (iblk0 V c 1 t) (iblk0 V c 3 t)) hj).trans ?_
  refine tile_sv2 _ _ _ _ _ _ (j 0) _ (fun k => featTile_apply V c t (j 0) k _ ?_)
    (fun g k => weightTile_apply V c t g k) (fun g => att2Tile_apply V c t g)
  show win0_6.index t (0 : Fin 2) * 1024 + 1 * (j 0).val = 1024 * t.val + (j 0).val
  rw [e12]; omega

/-! ## The tiles cover every row -/

/-- The tile that holds row `r` is `r / 1024`. -/
def tileOf0 (r : Fin 8192) : Fin cfg0.N := ⟨r.val / 1024, by show _ < grid0.N; rw [N_0]; omega⟩

theorem covered0_4 (i : S8192x128.Idx) :
    ∃ t : Fin cfg0.N, (cfg0.win 4).flush t = true ∧ i ∈ ((cfg0.win 4).blk t).view.set := by
  refine ⟨tileOf0 (i 0), flush0_4 _, ?_⟩
  obtain ⟨-, -, -, -, -, -, -, -, e8, e9, -⟩ := tileIdx0 (tileOf0 (i 0))
  have h0 : (i 0).val < 8192 := (i 0).isLt
  have h1 : (i 1).val < 128 := (i 1).isLt
  show i ∈ ((View.whole main_v0_0).slice (win0_4.rect (tileOf0 (i 0)))).set
  rw [View.set_slice_whole, Rect.mem_set_unit]
  intro a
  match a with
  | ⟨0, _⟩ =>
    show win0_4.index (tileOf0 (i 0)) (0 : Fin 2) * 1024 ≤ (i 0).val
      ∧ (i 0).val < win0_4.index (tileOf0 (i 0)) (0 : Fin 2) * 1024 + 1024
    rw [e8]; show (i 0).val / 1024 * 1024 ≤ (i 0).val ∧ (i 0).val < (i 0).val / 1024 * 1024 + 1024; omega
  | ⟨1, _⟩ =>
    show win0_4.index (tileOf0 (i 0)) (1 : Fin 2) * 128 ≤ (i 1).val
      ∧ (i 1).val < win0_4.index (tileOf0 (i 0)) (1 : Fin 2) * 128 + 128
    rw [e9]; omega

theorem covered0_5 (i : S8192x1.Idx) :
    ∃ t : Fin cfg0.N, (cfg0.win 5).flush t = true ∧ i ∈ ((cfg0.win 5).blk t).view.set := by
  refine ⟨tileOf0 (i 0), flush0_5 _, ?_⟩
  obtain ⟨-, -, -, -, -, -, -, -, -, -, e10, e11, -⟩ := tileIdx0 (tileOf0 (i 0))
  have h0 : (i 0).val < 8192 := (i 0).isLt
  have h1 : (i 1).val < 1 := (i 1).isLt
  show i ∈ ((View.whole main_v0_1).slice (win0_5.rect (tileOf0 (i 0)))).set
  rw [View.set_slice_whole, Rect.mem_set_unit]
  intro a
  match a with
  | ⟨0, _⟩ =>
    show win0_5.index (tileOf0 (i 0)) (0 : Fin 2) * 1024 ≤ (i 0).val
      ∧ (i 0).val < win0_5.index (tileOf0 (i 0)) (0 : Fin 2) * 1024 + 1024
    rw [e10]; show (i 0).val / 1024 * 1024 ≤ (i 0).val ∧ (i 0).val < (i 0).val / 1024 * 1024 + 1024; omega
  | ⟨1, _⟩ =>
    show win0_5.index (tileOf0 (i 0)) (1 : Fin 2) * 1 ≤ (i 1).val
      ∧ (i 1).val < win0_5.index (tileOf0 (i 0)) (1 : Fin 2) * 1 + 1
    rw [e11]; omega

theorem covered0_6 (i : S8192x1.Idx) :
    ∃ t : Fin cfg0.N, (cfg0.win 6).flush t = true ∧ i ∈ ((cfg0.win 6).blk t).view.set := by
  refine ⟨tileOf0 (i 0), flush0_6 _, ?_⟩
  obtain ⟨-, -, -, -, -, -, -, -, -, -, -, -, e12, e13⟩ := tileIdx0 (tileOf0 (i 0))
  have h0 : (i 0).val < 8192 := (i 0).isLt
  have h1 : (i 1).val < 1 := (i 1).isLt
  show i ∈ ((View.whole main_v0_2).slice (win0_6.rect (tileOf0 (i 0)))).set
  rw [View.set_slice_whole, Rect.mem_set_unit]
  intro a
  match a with
  | ⟨0, _⟩ =>
    show win0_6.index (tileOf0 (i 0)) (0 : Fin 2) * 1024 ≤ (i 0).val
      ∧ (i 0).val < win0_6.index (tileOf0 (i 0)) (0 : Fin 2) * 1024 + 1024
    rw [e12]; show (i 0).val / 1024 * 1024 ≤ (i 0).val ∧ (i 0).val < (i 0).val / 1024 * 1024 + 1024; omega
  | ⟨1, _⟩ =>
    show win0_6.index (tileOf0 (i 0)) (1 : Fin 2) * 1 ≤ (i 1).val
      ∧ (i 1).val < win0_6.index (tileOf0 (i 0)) (1 : Fin 2) * 1 + 1
    rw [e13]; omega

/-! ## The three arrays after the call -/

/-- The projected array: `h Wᵀ` of the feature and weight arrays. -/
theorem arr0_4 (c : Dev nD) : (dat0 V c).arrAt 4 cfg0.N = fun i =>
    Cert.Spec.wh (fun a k => V c main_arg0 (ix2 a k)) (fun g k => V c main_arg2 (ix2 g k)) (i 0) (i 1) :=
  (dat0 V c).arrAt_eq_of_cover 4 (whArr V c) (fun t _ => flushed0_4 V c t) covered0_4

/-- The first score column: the projected array times the first attention column. -/
theorem arr0_5 (c : Dev nD) : (dat0 V c).arrAt 5 cfg0.N = fun i =>
    Cert.Spec.sv (Cert.Spec.wh (fun a k => V c main_arg0 (ix2 a k)) (fun g k => V c main_arg2 (ix2 g k)))
      (fun g => V c main_arg3 (ix2 g (0 : Fin 1))) (i 0) :=
  (dat0 V c).arrAt_eq_of_cover 5 (s1Arr V c) (fun t _ => flushed0_5 V c t) covered0_5

/-- The second score column: the projected array times the second attention column. -/
theorem arr0_6 (c : Dev nD) : (dat0 V c).arrAt 6 cfg0.N = fun i =>
    Cert.Spec.sv (Cert.Spec.wh (fun a k => V c main_arg0 (ix2 a k)) (fun g k => V c main_arg2 (ix2 g k)))
      (fun g => V c main_arg4 (ix2 g (0 : Fin 1))) (i 0) :=
  (dat0 V c).arrAt_eq_of_cover 6 (s2Arr V c) (fun t _ => flushed0_6 V c t) covered0_6

end Cert.KernelIdeal.Val

end
-- ==== Proof.Val.Pieces1.lean ====
/-
  What one grid point of the attention call leaves behind, as arithmetic of what it found.
  A point reads its row tile of the first score column, its column tile of the second, its tile of adjacency words,
  the rows of the projected features its column tile meets, and the three running buffers of the online softmax
  (maximum, normaliser, weighted sum). It leaves the three running buffers updated by one tile step; at the first
  column tile the step starts from the reset values instead of the carried ones, and at the last column tile the
  output block is the rectified quotient of the new weighted sum by the new normaliser.
  Each statement below says so for one buffer in one of the three cases, for any float values.
-/
import proofs.«417751_j15599321219367_3_alg».proof.Proof.FrmI.Reg1
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic
open Idealize.SL Idealize.SL.Sem

variable {F : FTy → Type} [FloatOps F]

/-- The offsets of a whole-buffer access are zero on both axes. -/
theorem wholeOff1 : (![0, 0] : Fin 2 → Nat) = fun _ => 0 := funext fun a => by fin_cases a <;> rfl

/-! ## First column tile: the step starts from the reset values -/

/-- The running maximum after a first tile: the larger of the reset value and the tile's row maximum. -/
theorem sout1_A_0_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) :
    sout1_A_0 c i arg2 harg2 arg3 harg3 arg4 harg4 arg5 harg5 arg6 harg6 arg7 harg7 arg8 harg8 arg9 harg9 hc0 hc1 x0 x1 x2 x3 = k1_pay2 (k1_pay8 x0 x1 x2 (k1_pay4 (F := F))) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The running normaliser after a first tile: the reset value rescaled, plus the tile's row sum of shifted exponentials. -/
theorem sout1_A_1_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) :
    sout1_A_1 c i arg2 harg2 arg3 harg3 arg4 harg4 arg5 harg5 arg6 harg6 arg7 harg7 arg8 harg8 arg9 harg9 hc0 hc1 x0 x1 x2 x3 = k1_pay11 x0 x1 x2 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The running weighted sum after a first tile: the reset value rescaled, plus the tile's exponentials times the feature rows. -/
theorem sout1_A_2_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x2048 .f32) (x2 : Vec F S1024x2048 .i32) (x3 : Vec F S8192x128 .bf16) :
    sout1_A_2 c i arg2 harg2 arg3 harg3 arg4 harg4 arg5 harg5 arg6 harg6 arg7 harg7 arg8 harg8 arg9 harg9 hc0 hc1 x0 x1 x2 x3 = k1_pay1 (k1_pay9 x0 x1 x2 (k1_pay4 (F := F)) (k1_pay4 (F := F))) (k1_pay10 x0 x1 x2 (k1_pay4 (F := F))) (View.ld x3 (Rect.unit (s := S8192x128) (k1_off1 i) S2048x128.size (k1_off1_inb i))) (k1_pay6 (F := F)) := by
  unfold sout1_A_2
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x128) wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-! ## A middle column tile: the step starts from what the point before left -/

/-- The running maximum after a middle tile: the larger of the carried maximum and the tile's row maximum. -/
theorem sout1_B_0_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout1_B_0 c i arg2 harg2 arg3 harg3 arg4 harg4 arg5 harg5 arg6 harg6 arg7 harg7 arg8 harg8 arg9 harg9 hc0 hc1 x0 x1 x2 x3 xs0 xs1 xs2 = k1_pay2 (k1_pay8 x0 x1 x2 xs0) := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The running normaliser after a middle tile: the carried one rescaled, plus the tile's row sum of shifted exponentials. -/
theorem sout1_B_1_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout1_B_1 c i arg2 harg2 arg3 harg3 arg4 harg4 arg5 harg5 arg6 harg6 arg7 harg7 arg8 harg8 arg9 harg9 hc0 hc1 x0 x1 x2 x3 xs0 xs1 xs2 = k1_pay11 x0 x1 x2 xs0 xs0 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The running weighted sum after a middle tile: the carried one rescaled, plus the tile's exponentials times the feature rows. -/
theorem sout1_B_2_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout1_B_2 c i arg2 harg2 arg3 harg3 arg4 harg4 arg5 harg5 arg6 harg6 arg7 harg7 arg8 harg8 arg9 harg9 hc0 hc1 x0 x1 x2 x3 xs0 xs1 xs2 = k1_pay1 (k1_pay9 x0 x1 x2 xs0 xs0) (k1_pay10 x0 x1 x2 xs0) (View.ld x3 (Rect.unit (s := S8192x128) (k1_off1 i) S2048x128.size (k1_off1_inb i))) xs2 := by
  unfold sout1_B_2
  rw [View.read_writes_eq_canon _ _ _ (scover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-! ## Last column tile: the same step, then the output block -/

/-- The running maximum after the last tile. -/
theorem sout1_C_0_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout1_C_0 c i arg2 harg2 arg3 harg3 arg4 harg4 arg5 harg5 arg6 harg6 arg7 harg7 arg8 harg8 arg9 harg9 hc0 hc1 x0 x1 x2 x3 xs0 xs1 xs2 = k1_pay2 (k1_pay8 x0 x1 x2 xs0) := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The running normaliser after the last tile. -/
theorem sout1_C_1_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout1_C_1 c i arg2 harg2 arg3 harg3 arg4 harg4 arg5 harg5 arg6 harg6 arg7 harg7 arg8 harg8 arg9 harg9 hc0 hc1 x0 x1 x2 x3 xs0 xs1 xs2 = k1_pay11 x0 x1 x2 xs0 xs0 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The running weighted sum after the last tile. -/
theorem sout1_C_2_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    sout1_C_2 c i arg2 harg2 arg3 harg3 arg4 harg4 arg5 harg5 arg6 harg6 arg7 harg7 arg8 harg8 arg9 harg9 hc0 hc1 x0 x1 x2 x3 xs0 xs1 xs2 = k1_pay1 (k1_pay9 x0 x1 x2 xs0 xs0) (k1_pay10 x0 x1 x2 xs0) (View.ld x3 (Rect.unit (s := S8192x128) (k1_off1 i) S2048x128.size (k1_off1_inb i))) xs2 := by
  unfold sout1_C_2
  rw [View.read_writes_eq_canon _ _ _ (scover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

/-- The output block at the last tile: the rectified quotient of the new weighted sum by the new normaliser. -/
theorem out1_C_4_eq (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1024x2048 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x2048 .f32) (x2 : Vec F S1024x2048 .i32) (x3 : Vec F S8192x128 .bf16) (xs0 : Vec F S1024x1 .f32) (xs1 : Vec F S1024x1 .f32) (xs2 : Vec F S1024x128 .f32) :
    out1_C_4 c i arg2 harg2 arg3 harg3 arg4 harg4 arg5 harg5 arg6 harg6 arg7 harg7 arg8 harg8 arg9 harg9 hc0 hc1 x0 x1 x2 x3 xs0 xs1 xs2 = k1_pay3 (k1_pay1 (k1_pay9 x0 x1 x2 xs0 xs0) (k1_pay10 x0 x1 x2 xs0) (View.ld x3 (Rect.unit (s := S8192x128) (k1_off1 i) S2048x128.size (k1_off1_inb i))) xs2) (k1_pay11 x0 x1 x2 xs0 xs0 xs1) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_unit_zero wholeOff1]
  simp only [View.readAt_eq_ld, harg2.read_unread, harg3.read_unread, harg4.read_unread, harg5.read_unread, harg7.read_unread, harg8.read_unread, harg9.read_unread, View.ld_unit_zero (S := S1024x1) wholeOff1, View.ld_unit_zero (S := S1x2048) wholeOff1, View.ld_unit_zero (S := S1024x2048) wholeOff1, View.ld_unit_zero (S := S1024x128) wholeOff1, View.readCov_unit_zero (S := S1024x1) _ wholeOff1, View.readCov_unit_zero (S := S1024x128) _ wholeOff1]

end Cert.KernelIdeal.Val

end
-- ==== Proof.Val.Pay1.lean ====
/-
  One column tile of the streaming softmax, read entry by entry over the extended reals.
  For a row r of the row tile and a column q of the column tile, the masked score is the leaky rectifier of the sum of
  the two score entries where the adjacency word is positive and a large negative constant elsewhere. From the old
  running maximum m, normaliser l and weighted sum acc of the row, the tile yields the new maximum
  M = max m (the row maximum of the scores), the factor a = exp (m - M), the new normaliser a · l + Σ_q exp (x q - M)
  and the new weighted sum a · acc f + Σ_q exp (x q - M) · v q f. Before the first tile the three are minus infinity,
  zero and zero; after the last one the result is the exponential-linear unit of acc f / l.
-/
import proofs.«417751_j15599321219367_3_alg».proof.Proof.Gen.KernelIdeal.Skeleton
import proofs.«417751_j15599321219367_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## Constants, layout operations and reductions at an index -/

/-- An elementwise exponential read at an index. -/
theorem exp_at {s : Shape} {φ : FTy} (a : FVec Ideal s φ) (i : s.Idx) : Idealize.ShloMosaic.exp a i = Ideal.exp (a i) := rfl

/-- The f32 pattern with the sign bit set, the exponent all ones and the significand zero is minus infinity. -/
theorem negInf_f32 : Ideal.ofBits .f32 0xFF800000#32 = ⊥ := by
  simp [Ideal.ofBits, Ideal.ieee]

/-- The f32 pattern 0x3F800000 is one. -/
theorem one_f32 : Ideal.ofBits .f32 0x3F800000#32 = 1 := by
  simp [Ideal.ofBits, Ideal.ieee]
  rw [← EReal.coe_mul]
  norm_num

/-- A column [1024,1] broadcast along the lanes to [1024,2048] reads its row's one entry. -/
theorem colBcast2048_apply {α : Type} (v : S1024x1.Idx → α) (r : Fin 1024) (q : Fin 2048) :
    broadcastTo S1024x2048 v broadcasts_S1024x1_S1024x2048 (ix2 r q) = v (ix2 r 0) := by
  refine broadcastTo_apply v _ (ix2 r q) (ix2 r 0) fun ax => ?_
  match ax with
  | ⟨0, _⟩ => rfl
  | ⟨1, _⟩ => rfl

/-- A column [1024,1] broadcast to [1024,128] reads its row's one entry. -/
theorem colBcast128_apply {α : Type} (v : S1024x1.Idx → α) (r : Fin 1024) (f : Fin 128) :
    broadcastTo S1024x128 v broadcasts_S1024x1_S1024x128 (ix2 r f) = v (ix2 r 0) := by
  refine broadcastTo_apply v _ (ix2 r f) (ix2 r 0) fun ax => ?_
  match ax with
  | ⟨0, _⟩ => rfl
  | ⟨1, _⟩ => rfl

/-- A vector [1024] cast to a column [1024,1] reads, at row r, the vector at r. -/
theorem colCast_apply {α : Type} (v : S1024.Idx → α) (r : Fin 1024) :
    shapeCast S1024x1 v shapeCasts_S1024_S1024x1 (ix2 r 0) = v (ix1 r) :=
  shapeCast_apply v _ _ _ (by
    rw [Shape.rowMajor_val_one, Shape.rowMajor_val_two]
    show r.val = r.val * 1 + 0
    omega)

/-- The index the lane reduction inserts coordinate q into, at row r, is (r, q). -/
theorem rowLift (r : Fin 1024) (q : Fin 2048) : reduces_S1024x2048_S1024.lift (ix1 r) q = ix2 r q :=
  funext fun a => Fin.ext (by
    match a with
    | ⟨0, _⟩ => rfl
    | ⟨1, _⟩ => rfl)

/-- The lane maximum of a [1024,2048] vector at row r: the fold of max from minus infinity over the row. -/
theorem rowMax_apply (src : FVec Ideal S1024x2048 .f32) (r : Fin 1024) :
    multiReduction (F := Ideal) .maximumf [1] S1024 src 0xFF800000#32 reduces_S1024x2048_S1024 (.inl rfl) rfl (ix1 r)
      = (Finset.univ : Finset (Fin 2048)).fold max ⊥ (fun q => src (ix2 r q)) := by
  refine (Ideal.multiReduction_maximumf_single src _ reduces_S1024x2048_S1024 (.inl rfl) rfl (ix1 r)).trans ?_
  have hf : (src ∘ reduces_S1024x2048_S1024.lift (ix1 r)) = fun q : Fin 2048 => src (ix2 r q) :=
    funext fun q => congrArg src (rowLift r q)
  rw [hf]
  exact congrArg (fun b : EReal => (Finset.univ : Finset (Fin 2048)).fold max b (fun q => src (ix2 r q))) negInf_f32

/-- The lane sum of a [1024,2048] vector at row r: the sum over the row. -/
theorem rowSum_apply (src : FVec Ideal S1024x2048 .f32) (r : Fin 1024) :
    multiReduction (F := Ideal) .add [1] S1024 src 0x00000000#32 reduces_S1024x2048_S1024 (.inl rfl) rfl (ix1 r)
      = ∑ q : Fin 2048, src (ix2 r q) := by
  refine (Ideal.multiReduction_add_single src _ reduces_S1024x2048_S1024 (.inl rfl) rfl (ix1 r)).trans ?_
  exact Finset.sum_congr rfl fun q _ => congrArg src (rowLift r q)

/-! ## The product of the exponentials with the value tile

The operand indices of the [1024,2048] × [2048,128] product at an output index and a contraction index, axis by axis. -/

theorem lhs_expV_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl

theorem lhs_expV_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q

theorem rhs_expV_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q

theorem rhs_expV_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The product of a [1024,2048] matrix with a [2048,128] matrix into a zero accumulator, at (r, f):
    the sum over the 2048 contracted positions of the products of the entries. -/
theorem expV_apply {φ₁ φ₂ : FTy} (A : FVec Ideal S1024x2048 φ₁) (B : FVec Ideal S2048x128 φ₂) (r : Fin 1024) (f : Fin 128) :
    matmul (F := Ideal) dot_S1024x2048_S2048x128_S1024x128_1_0_0_1_n_n none A B
        (constant (F := Ideal) S1024x128 .f32 0x00000000#32) (ix2 r f)
      = ∑ q : Fin 2048, A (ix2 r q) * B (ix2 q f) := by
  refine (Ideal.matmul_constant_zero_apply dot_S1024x2048_S2048x128_S1024x128_1_0_0_1_n_n none A B (ix2 r f)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r f)
      ((contrEquiv1 dot_S1024x2048_S2048x128_S1024x128_1_0_0_1_n_n 2048 rfl rfl).symm k) = ix2 r k :=
    funext fun a => Fin.ext (by
      match a with
      | ⟨0, _⟩ => exact lhs_expV_0 _ _
      | ⟨1, _⟩ => exact (lhs_expV_1 _ _).trans hk)
  have er : dot_S1024x2048_S2048x128_S1024x128_1_0_0_1_n_n.rhsIdx (ix2 r f)
      ((contrEquiv1 dot_S1024x2048_S2048x128_S1024x128_1_0_0_1_n_n 2048 rfl rfl).symm k) = ix2 k f :=
    funext fun a => Fin.ext (by
      match a with
      | ⟨0, _⟩ => exact (rhs_expV_0 _ _).trans hk
      | ⟨1, _⟩ => exact rhs_expV_1 _ _)
  rw [el, er]

/-! ## The masked score, the reset values and the final value -/

/-- The masked score of one pair: the leaky rectifier of the sum of the two score entries on an edge, the fill value
    elsewhere. -/
theorem pay7_apply (x0 : Vec Ideal S1024x1 .f32) (x1 : Vec Ideal S1x2048 .f32) (x2 : Vec Ideal S1024x2048 .i32)
    (r : Fin 1024) (q : Fin 2048) :
    k1_pay7 (F := Ideal) x0 x1 x2 (ix2 r q)
      = Scalar.select (Cert.Spec.edge (x2 (ix2 r q)))
          (max (x0 (ix2 r 0) + x1 (ix2 0 q)) (Cert.Spec.c02 * (x0 (ix2 r 0) + x1 (ix2 0 q)))) Cert.Spec.negBig := by
  unfold k1_pay7
  rw [shapeCast_self, shapeCast_self, select_apply, maximumf_apply, mulf_apply, addf_apply, broadcast_apply, broadcast_apply,
    colBcast2048_apply, broadcastTo_1b_ab_apply]
  rfl

/-- The reset value of the running maximum: minus infinity at every row. -/
theorem pay4_apply (r : Fin 1024) : k1_pay4 (F := Ideal) (ix2 r 0) = ⊥ := by
  unfold k1_pay4
  rw [shapeCast_self, broadcast_apply]
  exact negInf_f32

/-- The reset value of the running normaliser: zero at every row. -/
theorem pay5_apply (r : Fin 1024) : k1_pay5 (F := Ideal) (ix2 r 0) = 0 := by
  unfold k1_pay5
  rw [shapeCast_self, broadcast_apply]
  exact Ideal.ofBits_zero_f32

/-- The reset value of the running weighted sum: zero at every entry. -/
theorem pay6_apply (r : Fin 1024) (f : Fin 128) : k1_pay6 (F := Ideal) (ix2 r f) = 0 := by
  unfold k1_pay6
  rw [shapeCast_self, broadcast_apply]
  exact Ideal.ofBits_zero_f32

/-- The stored result: the exponential-linear unit of the weighted sum divided by the normaliser of its row. -/
theorem pay3_apply (v56 : Vec Ideal S1024x128 .f32) (v57 : Vec Ideal S1024x1 .f32) (r : Fin 1024) (f : Fin 128) :
    k1_pay3 (F := Ideal) v56 v57 (ix2 r f) = Cert.Spec.eluK (Ideal.div (v56 (ix2 r f)) (v57 (ix2 r 0))) := by
  unfold k1_pay3 Cert.Spec.eluK
  rw [select_apply, cmpf_apply, subf_apply, exp_at, divf_apply, broadcast_apply, broadcast_apply, colBcast128_apply]
  show Scalar.select (Ideal.cmp .ogt _ (Ideal.ofBits .f32 0x00000000#32)) _ (Ideal.exp _ - Ideal.ofBits .f32 0x3F800000#32) = _
  rw [Ideal.ofBits_zero_f32, one_f32]

/-! ## One tile's step -/

/-- The new running maximum at row r: the larger of the old one and the row maximum of the tile's scores. -/
theorem pay8_apply (x0 : Vec Ideal S1024x1 .f32) (x1 : Vec Ideal S1x2048 .f32) (x2 : Vec Ideal S1024x2048 .i32)
    (m0 : Vec Ideal S1024x1 .f32) (r : Fin 1024) :
    k1_pay8 (F := Ideal) x0 x1 x2 m0 (ix2 r 0)
      = max (m0 (ix2 r 0)) ((Finset.univ : Finset (Fin 2048)).fold max ⊥ fun q => k1_pay7 (F := Ideal) x0 x1 x2 (ix2 r q)) := by
  unfold k1_pay8
  rw [maximumf_apply, colCast_apply, rowMax_apply]

/-- The rescaling factor at row r: the exponential of the old maximum minus the new one. -/
theorem pay9_apply (x0 : Vec Ideal S1024x1 .f32) (x1 : Vec Ideal S1x2048 .f32) (x2 : Vec Ideal S1024x2048 .i32)
    (m0 m1 : Vec Ideal S1024x1 .f32) (r : Fin 1024) :
    k1_pay9 (F := Ideal) x0 x1 x2 m0 m1 (ix2 r 0)
      = Ideal.exp (m1 (ix2 r 0) - k1_pay8 (F := Ideal) x0 x1 x2 m0 (ix2 r 0)) := by
  unfold k1_pay9
  rw [exp_at, subf_apply]

/-- The tile's shifted exponentials: the exponential of the score minus the new maximum of its row. -/
theorem pay10_apply (x0 : Vec Ideal S1024x1 .f32) (x1 : Vec Ideal S1x2048 .f32) (x2 : Vec Ideal S1024x2048 .i32)
    (m0 : Vec Ideal S1024x1 .f32) (r : Fin 1024) (q : Fin 2048) :
    k1_pay10 (F := Ideal) x0 x1 x2 m0 (ix2 r q)
      = Ideal.exp (k1_pay7 (F := Ideal) x0 x1 x2 (ix2 r q) - k1_pay8 (F := Ideal) x0 x1 x2 m0 (ix2 r 0)) := by
  unfold k1_pay10
  rw [exp_at, subf_apply, colBcast2048_apply]

/-- The stored maximum is the state's new maximum. -/
theorem step_m (x0 : Vec Ideal S1024x1 .f32) (x1 : Vec Ideal S1x2048 .f32) (x2 : Vec Ideal S1024x2048 .i32)
    (v40 : Vec Ideal S2048x128 .bf16) (m0 : Vec Ideal S1024x1 .f32) (r : Fin 1024) (s : Cert.Spec.St)
    (hm : m0 (ix2 r 0) = s.m) :
    k1_pay2 (F := Ideal) (k1_pay8 (F := Ideal) x0 x1 x2 m0) (ix2 r 0)
      = (Cert.Spec.St.step (fun q => k1_pay7 (F := Ideal) x0 x1 x2 (ix2 r q)) (fun q f => v40 (ix2 q f)) s).m := by
  unfold k1_pay2
  rw [shapeCast_self, pay8_apply, hm]
  rfl

/-- The stored normaliser is the state's new normaliser. -/
theorem step_l (x0 : Vec Ideal S1024x1 .f32) (x1 : Vec Ideal S1x2048 .f32) (x2 : Vec Ideal S1024x2048 .i32)
    (v40 : Vec Ideal S2048x128 .bf16) (m0 l0 : Vec Ideal S1024x1 .f32) (r : Fin 1024) (s : Cert.Spec.St)
    (hm : m0 (ix2 r 0) = s.m) (hl : l0 (ix2 r 0) = s.l) :
    k1_pay11 (F := Ideal) x0 x1 x2 m0 m0 l0 (ix2 r 0)
      = (Cert.Spec.St.step (fun q => k1_pay7 (F := Ideal) x0 x1 x2 (ix2 r q)) (fun q f => v40 (ix2 q f)) s).l := by
  unfold k1_pay11
  rw [shapeCast_self, addf_apply, mulf_apply, colCast_apply, rowSum_apply, pay9_apply, pay8_apply, hm, hl]
  refine congrArg (_ + ·) (Finset.sum_congr rfl fun q _ => ?_)
  rw [pay10_apply, pay8_apply, hm]

/-- The stored weighted sum is the state's new weighted sum. -/
theorem step_acc (x0 : Vec Ideal S1024x1 .f32) (x1 : Vec Ideal S1x2048 .f32) (x2 : Vec Ideal S1024x2048 .i32)
    (v40 : Vec Ideal S2048x128 .bf16) (m0 : Vec Ideal S1024x1 .f32) (a0 : Vec Ideal S1024x128 .f32)
    (r : Fin 1024) (f : Fin 128) (s : Cert.Spec.St)
    (hm : m0 (ix2 r 0) = s.m) (ha : ∀ f, a0 (ix2 r f) = s.acc f) :
    k1_pay1 (F := Ideal) (k1_pay9 (F := Ideal) x0 x1 x2 m0 m0) (k1_pay10 (F := Ideal) x0 x1 x2 m0) v40 a0 (ix2 r f)
      = (Cert.Spec.St.step (fun q => k1_pay7 (F := Ideal) x0 x1 x2 (ix2 r q)) (fun q f => v40 (ix2 q f)) s).acc f := by
  unfold k1_pay1
  rw [shapeCast_self, shapeCast_self, addf_apply, mulf_apply, colBcast128_apply, expV_apply, pay9_apply, pay8_apply, hm, ha]
  refine congrArg (_ + ·) (Finset.sum_congr rfl fun q _ => ?_)
  rw [truncf_apply, pay10_apply, pay8_apply, hm]

end Cert.KernelIdeal.Val

end
-- ==== Proof.Val.Blk1.lean ====
import proofs.«417751_j15599321219367_3_alg».proof.Proof.FrmI.Reg1Runs
import proofs.«417751_j15599321219367_3_alg».proof.Proof.Spec
import Idealize.ShloMosaic.Lib.Pipeline.Value
import Idealize.ShloMosaic.Lib.ValueIdx

/-! # The attention call's blocks, read at an index

The second call runs on a grid of 8 row tiles by 4 column tiles; point `t` is row tile `t / 4`, column tile `t % 4`.
Its windows cut the score column `s1` into 8 blocks of 1024 rows, the score row `s2` into 4 blocks of 2048 columns,
the adjacency matrix into 8 × 4 blocks of 1024 × 2048, take the projected features whole, and cut the result into 8
blocks of 1024 rows. This file reads each input block at an index of the block as the array at the index the block's
position gives (block index times block size plus the coordinate inside the block), reads the column tile the body
loads out of the whole projected features, and states for the result window which indices each block holds, that the
blocks written back cover the array, and what reading a whole-array function through a block gives. -/

noncomputable section

namespace Cert.KernelIdeal.Val

open Cert.KernelIdeal Cert.KernelIdeal.Gen Cert.KernelIdeal.Frm Idealize.ShloMosaic Idealize.ShloMosaic.ValueIdx
open Idealize.ShloMosaic.TcCoe Idealize.SL.Sem

-- the core's buffer contents when the region is entered
variable (V : (c : Dev nD) → (b : Ref sig .tc) → Buf (Elt Ideal) ((c : Thread nD τ).loc b))

/-! ## The grid's arithmetic -/

/-- The grid has 32 points. -/
theorem pts1 : cfg1.N = 32 := N_1

/-- Row `r` of row tile `t / 4`, as a row of the arrays. -/
def rowOf (t : Fin cfg1.N) (r : Fin 1024) : Fin 8192 :=
  ⟨1024 * (t.val / 4) + r.val, by have ht : t.val < 32 := lt_of_lt_of_eq t.isLt pts1; have := r.isLt; omega⟩

/-- Column `q` of column tile `t % 4`, as a column of the arrays. -/
def colOf (t : Fin cfg1.N) (q : Fin 2048) : Fin 8192 :=
  ⟨2048 * (t.val % 4) + q.val, by have := q.isLt; omega⟩

theorem rowOf_val (t : Fin cfg1.N) (r : Fin 1024) : (rowOf t r).val = 1024 * (t.val / 4) + r.val := rfl
theorem colOf_val (t : Fin cfg1.N) (q : Fin 2048) : (colOf t q).val = 2048 * (t.val % 4) + q.val := rfl

/-- The column is the mathematical layer's column `q` of tile `t % 4`. -/
theorem colOf_eq (t : Fin cfg1.N) (q : Fin 2048) :
    colOf t q = Cert.Spec.col ⟨t.val % 4, Nat.mod_lt _ (by decide)⟩ q := rfl

/-- The printed index maps, decided once over the grid: each window's block index on each axis at point `t`, and the
    first row of the column tile the body loads out of the projected features. -/
theorem idx1 : ∀ t : Fin cfg1.N,
    win1_0.index t (0 : Fin 2) = t.val / 4 ∧ win1_0.index t (1 : Fin 2) = 0
    ∧ win1_1.index t (0 : Fin 2) = 0 ∧ win1_1.index t (1 : Fin 2) = t.val % 4
    ∧ win1_2.index t (0 : Fin 2) = t.val / 4 ∧ win1_2.index t (1 : Fin 2) = t.val % 4
    ∧ win1_3.index t (0 : Fin 2) = 0 ∧ win1_3.index t (1 : Fin 2) = 0
    ∧ win1_4.index t (0 : Fin 2) = t.val / 4 ∧ win1_4.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

/-! ## The input windows' blocks at an index

Each is stated over variables of the literal index types with hypotheses on the coordinates, then at explicit
coordinates. An element of a block sits in the array, on each axis, at the block index times the block size plus its
coordinate in the block. -/

/-- The score column's block at point `t`: rows `1024 (t / 4) …` of the array. -/
theorem blk1_0_at (c : Dev nD) (t : Fin cfg1.N) (x : S1024x1.Idx) (k : S8192x1.Idx)
    (hk0 : (k 0).val = 1024 * (t.val / 4) + (x 0).val) (hk1 : (k 1).val = (x 1).val) :
    (iblk1 V c 0 t : Vec Ideal S1024x1 .f32) x = (V c main_v0_1 : S8192x1.Idx → EReal) k := by
  obtain ⟨e0, e1, -⟩ := idx1 t
  unfold iblk1
  rw [View.read_apply]
  show V c main_v0_1 _ = V c main_v0_1 _
  congr 1
  funext a
  apply Fin.ext
  match a with
  | ⟨0, _⟩ => show win1_0.index t 0 * 1024 + 1 * (x 0).val = (k 0).val; rw [e0, hk0]; omega
  | ⟨1, _⟩ => show win1_0.index t 1 * 1 + 1 * (x 1).val = (k 1).val; rw [e1, hk1]; omega

/-- The score row's block at point `t`: columns `2048 (t % 4) …` of the array. -/
theorem blk1_1_at (c : Dev nD) (t : Fin cfg1.N) (x : S1x2048.Idx) (k : S1x8192.Idx)
    (hk0 : (k 0).val = (x 0).val) (hk1 : (k 1).val = 2048 * (t.val % 4) + (x 1).val) :
    (iblk1 V c 1 t : Vec Ideal S1x2048 .f32) x = (V c main_v2 : S1x8192.Idx → EReal) k := by
  obtain ⟨-, -, e0, e1, -⟩ := idx1 t
  unfold iblk1
  rw [View.read_apply]
  show V c main_v2 _ = V c main_v2 _
  congr 1
  funext a
  apply Fin.ext
  match a with
  | ⟨0, _⟩ => show win1_1.index t 0 * 1 + 1 * (x 0).val = (k 0).val; rw [e0, hk0]; omega
  | ⟨1, _⟩ => show win1_1.index t 1 * 2048 + 1 * (x 1).val = (k 1).val; rw [e1, hk1]; omega

/-- The adjacency block at point `t`: rows `1024 (t / 4) …`, columns `2048 (t % 4) …` of the array. -/
theorem blk1_2_at (c : Dev nD) (t : Fin cfg1.N) (x : S1024x2048.Idx) (k : S8192x8192.Idx)
    (hk0 : (k 0).val = 1024 * (t.val / 4) + (x 0).val) (hk1 : (k 1).val = 2048 * (t.val % 4) + (x 1).val) :
    (iblk1 V c 2 t : Vec Ideal S1024x2048 .i32) x = (V c main_arg1 : S8192x8192.Idx → BitVec 32) k := by
  obtain ⟨-, -, -, -, e0, e1, -⟩ := idx1 t
  unfold iblk1
  rw [View.read_apply]
  show V c main_arg1 _ = V c main_arg1 _
  congr 1
  funext a
  apply Fin.ext
  match a with
  | ⟨0, _⟩ => show win1_2.index t 0 * 1024 + 1 * (x 0).val = (k 0).val; rw [e0, hk0]; omega
  | ⟨1, _⟩ => show win1_2.index t 1 * 2048 + 1 * (x 1).val = (k 1).val; rw [e1, hk1]; omega

/-- The projected features' one block, at every point, is the array. -/
theorem blk1_3_at (c : Dev nD) (t : Fin cfg1.N) (x : S8192x128.Idx) (k : S8192x128.Idx)
    (hk0 : (k 0).val = (x 0).val) (hk1 : (k 1).val = (x 1).val) :
    (iblk1 V c 3 t : Vec Ideal S8192x128 .bf16) x = (V c main_v1 : S8192x128.Idx → EReal) k := by
  obtain ⟨-, -, -, -, -, -, e0, e1, -⟩ := idx1 t
  unfold iblk1
  rw [View.read_apply]
  show V c main_v1 _ = V c main_v1 _
  congr 1
  funext a
  apply Fin.ext
  match a with
  | ⟨0, _⟩ => show win1_3.index t 0 * 8192 + 1 * (x 0).val = (k 0).val; rw [e0, hk0]; omega
  | ⟨1, _⟩ => show win1_3.index t 1 * 128 + 1 * (x 1).val = (k 1).val; rw [e1, hk1]; omega

/-- Row `r` of the score column's block is row `rowOf t r` of the array. -/
theorem blk1_0 (c : Dev nD) (t : Fin cfg1.N) (r : Fin 1024) :
    (iblk1 V c 0 t : Vec Ideal S1024x1 .f32) (ix2 r (0 : Fin 1)) = (V c main_v0_1 : S8192x1.Idx → EReal) (ix2 (rowOf t r) (0 : Fin 1)) :=
  blk1_0_at V c t _ _ rfl rfl

/-- Column `q` of the score row's block is column `colOf t q` of the array. -/
theorem blk1_1 (c : Dev nD) (t : Fin cfg1.N) (q : Fin 2048) :
    (iblk1 V c 1 t : Vec Ideal S1x2048 .f32) (ix2 (0 : Fin 1) q) = (V c main_v2 : S1x8192.Idx → EReal) (ix2 (0 : Fin 1) (colOf t q)) :=
  blk1_1_at V c t _ _ rfl rfl

/-- Entry `(r, q)` of the adjacency block is entry `(rowOf t r, colOf t q)` of the array. -/
theorem blk1_2 (c : Dev nD) (t : Fin cfg1.N) (r : Fin 1024) (q : Fin 2048) :
    (iblk1 V c 2 t : Vec Ideal S1024x2048 .i32) (ix2 r q) = (V c main_arg1 : S8192x8192.Idx → BitVec 32) (ix2 (rowOf t r) (colOf t q)) :=
  blk1_2_at V c t _ _ rfl rfl

/-- Entry `(a, f)` of the projected features' block is that entry of the array. -/
theorem blk1_3 (c : Dev nD) (t : Fin cfg1.N) (a : Fin 8192) (f : Fin 128) :
    (iblk1 V c 3 t : Vec Ideal S8192x128 .bf16) (ix2 a f) = (V c main_v1 : S8192x128.Idx → EReal) (ix2 a f) :=
  blk1_3_at V c t _ _ rfl rfl

/-- The column tile the body loads out of the projected features at point `t`: its row `q` is row `colOf t q` of
    the array (the load starts at row `2048 (t % 4)`). -/
theorem ld1_3 (c : Dev nD) (t : Fin cfg1.N) (q : Fin 2048) (f : Fin 128) :
    View.ld (iblk1 V c 3 t : Vec Ideal S8192x128 .bf16)
        (Rect.unit (s := S8192x128) (k1_off1 (grid1.coords t)) S2048x128.size (k1_off1_inb (grid1.coords t))) (ix2 q f)
      = (V c main_v1 : S8192x128.Idx → EReal) (ix2 (colOf t q) f) := by
  obtain ⟨-, -, -, -, -, -, -, -, -, -, o0, o1⟩ := idx1 t
  refine blk1_3_at V c t _ _ ?_ ?_
  · show (colOf t q).val = k1_off1 (grid1.coords t) 0 + 1 * q.val
    rw [o0, colOf_val]; omega
  · show f.val = k1_off1 (grid1.coords t) 1 + 1 * f.val
    rw [o1]; omega

/-! ## The result window: which indices a block holds, the cover, reading through a block -/

/-- An index of the result array is in point `t`'s block iff each coordinate is in the block's range on its axis. -/
theorem mem_blk1_4_axes (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v3).slice (win1_4.rect t)).set ↔ _
  rw [View.set_slice_whole, Rect.mem_set_unit]
  exact Iff.rfl

/-- So it is in point `t`'s block iff its row lies in row tile `t / 4`. -/
theorem mem_blk1_4 (t : Fin cfg1.N) (i : S8192x128.Idx) :
    i ∈ ((cfg1.win 4).blk t).view.set ↔ (i 0).val / 1024 = t.val / 4 := by
  rw [mem_blk1_4_axes]
  obtain ⟨-, -, -, -, -, -, -, -, e0, e1, -⟩ := idx1 t
  constructor
  · intro h
    have b0 : win1_4.index t (0 : Fin 2) * 1024 ≤ (i 0).val ∧ (i 0).val < win1_4.index t (0 : Fin 2) * 1024 + 1024 := h 0
    omega
  · intro h a
    have h1 : (i 1).val < 128 := (i 1).isLt
    match a with
    | ⟨0, _⟩ => show win1_4.index t (0 : Fin 2) * 1024 ≤ (i 0).val ∧ (i 0).val < win1_4.index t (0 : Fin 2) * 1024 + 1024; omega
    | ⟨1, _⟩ => show win1_4.index t (1 : Fin 2) * 128 ≤ (i 1).val ∧ (i 1).val < win1_4.index t (1 : Fin 2) * 128 + 128; omega

/-- The last point of row tile `k`: the one that writes the tile's block back. -/
def lastOf (k : Fin 8) : Fin cfg1.N := ⟨4 * k.val + 3, by rw [pts1]; have := k.isLt; omega⟩

theorem lastOf_val (k : Fin 8) : (lastOf k).val = 4 * k.val + 3 := rfl

/-- It writes back. -/
theorem flush_lastOf (k : Fin 8) : (cfg1.win 4).flush (lastOf k) = true :=
  (flush1_4 (lastOf k)).mpr (by rw [lastOf_val]; omega)

/-- Every index of the result array is in the block of a point that writes back: the last point of its row tile. -/
theorem cover1_4 (i : S8192x128.Idx) :
    ∃ t : Fin cfg1.N, (cfg1.win 4).flush t = true ∧ i ∈ ((cfg1.win 4).blk t).view.set := by
  have hi : (i 0).val < 8192 := (i 0).isLt
  refine ⟨lastOf ⟨(i 0).val / 1024, by omega⟩, flush_lastOf _, ?_⟩
  rw [mem_blk1_4, lastOf_val]
  show (i 0).val / 1024 = (4 * ((i 0).val / 1024) + 3) / 4
  omega

/-- A function on the result array read through point `t`'s block: at `(r, f)` its value at `(rowOf t r, f)`. -/
theorem rd1_4_at (t : Fin cfg1.N) (G : S8192x128.Idx → EReal) (x : S1024x128.Idx) (k : S8192x128.Idx)
    (hk0 : (k 0).val = 1024 * (t.val / 4) + (x 0).val) (hk1 : (k 1).val = (x 1).val) :
    (((cfg1.win 4).blk t).view.read (Elt Ideal) G : Vec Ideal S1024x128 .f32) x = G k := by
  obtain ⟨-, -, -, -, -, -, -, -, e0, e1, -⟩ := idx1 t
  rw [View.read_apply]
  show G _ = G _
  congr 1
  funext a
  apply Fin.ext
  match a with
  | ⟨0, _⟩ => show win1_4.index t 0 * 1024 + 1 * (x 0).val = (k 0).val; rw [e0, hk0]; omega
  | ⟨1, _⟩ => show win1_4.index t 1 * 128 + 1 * (x 1).val = (k 1).val; rw [e1, hk1]; omega

theorem rd1_4 (t : Fin cfg1.N) (G : S8192x128.Idx → EReal) (r : Fin 1024) (f : Fin 128) :
    (((cfg1.win 4).blk t).view.read (Elt Ideal) G : Vec Ideal S1024x128 .f32) (ix2 r f) = G (ix2 (rowOf t r) f) :=
  rd1_4_at t G _ _ rfl rfl

/-- The result array after the run, for any proof data of the call: if at every point that writes back the body leaves
    in the result window's buffer, at `(r, f)`, the value of `G` at `(rowOf t r, f)`, the array ends holding `G`. -/
theorem arr1_4_eq {c : Dev nD} (dat : Pipeline.Dat τ (Elt Ideal) Unit ℕ (UR sig nD τ) ℕ cfg1 c) (G : S8192x128.Idx → EReal)
    (h : ∀ t : Fin cfg1.N, t.val % 4 = 3 → ∀ (r : Fin 1024) (f : Fin 128),
      (dat.after 4 t : Vec Ideal S1024x128 .f32) (ix2 r f) = G (ix2 (rowOf t r) f)) :
    dat.arrAt 4 cfg1.N = G :=
  dat.arrAt_eq_of_cover 4 G (fun t ht => by
    funext j
    obtain ⟨r, f, rfl⟩ : ∃ (r : Fin 1024) (f : Fin 128), j = ix2 r f := ⟨j 0, j 1, eq_ix2 j⟩
    rw [rd1_4]
    exact h t ((flush1_4 t).mp ht) r f) cover1_4

end Cert.KernelIdeal.Val

end
-- ==== Proof.Val.Reg1.lean ====
/-
  The value of the attention call: what its write-backs leave in the output array, as one function of the arrays
  the call is entered with.
  The call visits 8 row tiles of 1024 rows, and for each the 4 column tiles of 2048 columns in turn. Three running
  buffers (row maximum, normaliser, weighted sum of feature rows) carry the online softmax from one column tile to
  the next: reset at the first, rescaled and added to at each, and at the last the output block is the rectified
  quotient. Read row by row, the buffers after a point are the mathematical layer's running state of that array row
  after the column tiles seen so far (an induction on the point), so the block written back at a last column tile is
  the streaming result of its rows, and the blocks written back cover the array.
-/
import proofs.«417751_j15599321219367_3_alg».proof.Proof.Val.Pieces1
import proofs.«417751_j15599321219367_3_alg».proof.Proof.Val.Pay1
import proofs.«417751_j15599321219367_3_alg».proof.Proof.Val.Blk1

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx
open Idealize.SL.Sem

-- the core's buffer contents when the call is entered
variable (V : (c : Dev nD) → (b : Ref sig .tc) → Buf (Elt Ideal) ((c : Thread nD τ).loc b))

/-! ## The arrays the call is entered with, as index functions -/

/-- The first score column. -/
abbrev scoreCol (c : Dev nD) : Fin 8192 → EReal := fun a => (V c main_v0_1 : S8192x1.Idx → EReal) (ix2 a (0 : Fin 1))
/-- The second score column, laid out as a row. -/
abbrev scoreRow (c : Dev nD) : Fin 8192 → EReal := fun b => (V c main_v2 : S1x8192.Idx → EReal) (ix2 (0 : Fin 1) b)
/-- The adjacency words. -/
abbrev adjWords (c : Dev nD) : Fin 8192 → Fin 8192 → BitVec 32 := fun a b => (V c main_arg1 : S8192x8192.Idx → BitVec 32) (ix2 a b)
/-- The rows of the projected features. -/
abbrev featRows (c : Dev nD) : Fin 8192 → Fin 128 → EReal := fun b f => (V c main_v1 : S8192x128.Idx → EReal) (ix2 b f)

/-! ## A point's blocks, at their literal types -/

abbrev blkCol (c : Dev nD) (t : Fin cfg1.N) : Vec Ideal S1024x1 .f32 := iblk1 V c 0 t
abbrev blkRow (c : Dev nD) (t : Fin cfg1.N) : Vec Ideal S1x2048 .f32 := iblk1 V c 1 t
abbrev blkAdj (c : Dev nD) (t : Fin cfg1.N) : Vec Ideal S1024x2048 .i32 := iblk1 V c 2 t
abbrev blkFeat (c : Dev nD) (t : Fin cfg1.N) : Vec Ideal S8192x128 .bf16 := iblk1 V c 3 t
/-- The feature rows the point's column tile meets. -/
abbrev tileFeat (c : Dev nD) (t : Fin cfg1.N) : Vec Ideal S2048x128 .bf16 :=
  View.ld (blkFeat V c t) (Rect.unit (s := S8192x128) (k1_off1 (grid1.coords t)) S2048x128.size (k1_off1_inb (grid1.coords t)))

/-! ## The state of a row unfolds one tile at a time -/

section Unfold

variable (s1 s2 : Fin 8192 → EReal) (adj : Fin 8192 → Fin 8192 → BitVec 32) (w : Fin 8192 → Fin 128 → EReal)

/-- After the first tile: one step from the initial state. -/
theorem stAfter_first (i : Fin 8192) (k : Fin 4) (h : k.val = 0) :
    Cert.Spec.stAfter s1 s2 adj w i k
      = Cert.Spec.St.step (Cert.Spec.tileX s1 s2 adj i k) (Cert.Spec.tileW w k) Cert.Spec.St.init := by
  obtain ⟨k, hk⟩ := k
  dsimp only at h
  subst h
  rw [Cert.Spec.stAfter]
  rfl

/-- After a later tile: one step from the state after the tile before. -/
theorem stAfter_next (i : Fin 8192) (k k' : Fin 4) (h : k'.val = k.val + 1) :
    Cert.Spec.stAfter s1 s2 adj w i k'
      = Cert.Spec.St.step (Cert.Spec.tileX s1 s2 adj i k') (Cert.Spec.tileW w k') (Cert.Spec.stAfter s1 s2 adj w i k) := by
  obtain ⟨k, hk⟩ := k
  obtain ⟨k', hk'⟩ := k'
  dsimp only at h
  subst h
  rw [Cert.Spec.stAfter]

/-- The streaming result reads the state after the last tile. -/
theorem outK_last (i : Fin 8192) (f : Fin 128) (k : Fin 4) (h : k.val = 3) :
    Cert.Spec.outK s1 s2 adj w i f
      = Cert.Spec.eluK (Ideal.div ((Cert.Spec.stAfter s1 s2 adj w i k).acc f) (Cert.Spec.stAfter s1 s2 adj w i k).l) := by
  obtain rfl : k = 3 := Fin.ext h
  rfl

end Unfold

/-! ## The tile a point works on is the mathematical layer's tile -/

/-- The blocks read at an index, over the names above: a block's entry is the array's entry at the position the
    point gives (row tile `t / 4`, column tile `t % 4`). -/
theorem blkCol_at (c : Dev nD) (t : Fin cfg1.N) (r : Fin 1024) :
    blkCol V c t (ix2 r (0 : Fin 1)) = scoreCol V c (rowOf t r) := blk1_0 V c t r
theorem blkRow_at (c : Dev nD) (t : Fin cfg1.N) (q : Fin 2048) :
    blkRow V c t (ix2 (0 : Fin 1) q) = scoreRow V c (colOf t q) := blk1_1 V c t q
theorem blkAdj_at (c : Dev nD) (t : Fin cfg1.N) (r : Fin 1024) (q : Fin 2048) :
    blkAdj V c t (ix2 r q) = adjWords V c (rowOf t r) (colOf t q) := blk1_2 V c t r q

/-- Row `r` of the point's masked scores: the scores of array row `rowOf t r` against column tile `t % 4`. -/
theorem tileX_at (c : Dev nD) (t : Fin cfg1.N) (r : Fin 1024) :
    (fun q : Fin 2048 => k1_pay7 (F := Ideal) (blkCol V c t) (blkRow V c t) (blkAdj V c t) (ix2 r q))
      = Cert.Spec.tileX (scoreCol V c) (scoreRow V c) (adjWords V c) (rowOf t r) ⟨t.val % 4, Nat.mod_lt _ (by decide)⟩ := by
  funext q
  refine (pay7_apply (blkCol V c t) (blkRow V c t) (blkAdj V c t) r q).trans ?_
  rw [blkCol_at V c t r, blkRow_at V c t q, blkAdj_at V c t r q]
  rfl

/-- The feature rows the point's column tile meets: those of column tile `t % 4`. -/
theorem tileW_at (c : Dev nD) (t : Fin cfg1.N) :
    (fun (q : Fin 2048) (f : Fin 128) => tileFeat V c t (ix2 q f)) = Cert.Spec.tileW (featRows V c) ⟨t.val % 4, Nat.mod_lt _ (by decide)⟩ := by
  funext q f
  exact (ld1_3 V c t q f).trans rfl

/-- One tile step of array row `rowOf t r` at point `t`, from state `S`. -/
def stepAt (c : Dev nD) (t : Fin cfg1.N) (r : Fin 1024) (S : Cert.Spec.St) : Cert.Spec.St :=
  Cert.Spec.St.step (Cert.Spec.tileX (scoreCol V c) (scoreRow V c) (adjWords V c) (rowOf t r) ⟨t.val % 4, Nat.mod_lt _ (by decide)⟩) (Cert.Spec.tileW (featRows V c) ⟨t.val % 4, Nat.mod_lt _ (by decide)⟩) S

/-- If the buffers a point's step starts from hold state `S` at row `r`, what the step computes for the three
    running buffers is, at row `r`, the state one tile later. -/
theorem tile_step (c : Dev nD) (t : Fin cfg1.N) (r : Fin 1024) (m0 l0 : Vec Ideal S1024x1 .f32) (a0 : Vec Ideal S1024x128 .f32)
    (S : Cert.Spec.St) (hm : m0 (ix2 r (0 : Fin 1)) = S.m) (hl : l0 (ix2 r (0 : Fin 1)) = S.l) (ha : ∀ f : Fin 128, a0 (ix2 r f) = S.acc f) :
    k1_pay2 (F := Ideal) (k1_pay8 (F := Ideal) (blkCol V c t) (blkRow V c t) (blkAdj V c t) m0) (ix2 r (0 : Fin 1)) = (stepAt V c t r S).m
    ∧ k1_pay11 (F := Ideal) (blkCol V c t) (blkRow V c t) (blkAdj V c t) m0 m0 l0 (ix2 r (0 : Fin 1)) = (stepAt V c t r S).l
    ∧ ∀ f : Fin 128, k1_pay1 (F := Ideal) (k1_pay9 (F := Ideal) (blkCol V c t) (blkRow V c t) (blkAdj V c t) m0 m0)
        (k1_pay10 (F := Ideal) (blkCol V c t) (blkRow V c t) (blkAdj V c t) m0) (tileFeat V c t) a0 (ix2 r f) = (stepAt V c t r S).acc f := by
  unfold stepAt
  rw [← tileX_at V c t r, ← tileW_at V c t]
  exact ⟨step_m (blkCol V c t) (blkRow V c t) (blkAdj V c t) (tileFeat V c t) m0 r S hm,
    step_l (blkCol V c t) (blkRow V c t) (blkAdj V c t) (tileFeat V c t) m0 l0 r S hm hl,
    fun f => step_acc (blkCol V c t) (blkRow V c t) (blkAdj V c t) (tileFeat V c t) m0 a0 r f S hm ha⟩

/-! ## The running buffers after each point -/

/-- The three running buffers after point `n` hold, at row `r`, the state `S`. -/
def RowInv (c : Dev nD) (n : ℕ) (hn : n < cfg1.N) (r : Fin 1024) (S : Cert.Spec.St) : Prop :=
  (outsAt1 V c n hn).2.1 (ix2 r (0 : Fin 1)) = S.m
  ∧ (outsAt1 V c n hn).2.2.1 (ix2 r (0 : Fin 1)) = S.l
  ∧ ∀ f : Fin 128, (outsAt1 V c n hn).2.2.2 (ix2 r f) = S.acc f

/-- At a first column tile the buffers are reset, then stepped: one step from the initial state. -/
theorem rowInv_first (c : Dev nD) (t : Fin cfg1.N) (h0 : t.val % 4 = 0) (r : Fin 1024) :
    RowInv V c t.val t.isLt r (stepAt V c t r Cert.Spec.St.init) := by
  have h1 : ¬t.val % 4 = 3 := by omega
  obtain ⟨sm, sl, sa⟩ := tile_step V c t r (k1_pay4 (F := Ideal)) (k1_pay5 (F := Ideal)) (k1_pay6 (F := Ideal)) Cert.Spec.St.init
    (pay4_apply r) (pay5_apply r) (fun f => pay6_apply r f)
  unfold RowInv
  rw [outsAt1_A V c t h0 h1]
  dsimp only
  refine ⟨?_, ?_, fun f => ?_⟩
  · exact (congrFun (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) (ix2 r (0 : Fin 1))).trans sm
  · exact (congrFun (sout1_A_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) (ix2 r (0 : Fin 1))).trans sl
  · exact (congrFun (sout1_A_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) (ix2 r f)).trans (sa f)

/-- At a middle column tile the buffers are stepped from what the point before left. -/
theorem rowInv_middle (c : Dev nD) (t : Fin cfg1.N) (h0 : ¬t.val % 4 = 0) (h1 : ¬t.val % 4 = 3) (r : Fin 1024) (S : Cert.Spec.St)
    (ih : RowInv V c (t.val - 1) (Nat.lt_of_le_of_lt (Nat.sub_le _ _) t.isLt) r S) :
    RowInv V c t.val t.isLt r (stepAt V c t r S) := by
  obtain ⟨im, il, ia⟩ := ih
  obtain ⟨sm, sl, sa⟩ := tile_step V c t r (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 S im il ia
  unfold RowInv
  rw [outsAt1_B V c t h0 h1]
  dsimp only
  refine ⟨?_, ?_, fun f => ?_⟩
  · exact (congrFun (sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r (0 : Fin 1))).trans sm
  · exact (congrFun (sout1_B_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r (0 : Fin 1))).trans sl
  · exact (congrFun (sout1_B_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r f)).trans (sa f)

/-- At a last column tile likewise. -/
theorem rowInv_last (c : Dev nD) (t : Fin cfg1.N) (h0 : ¬t.val % 4 = 0) (h1 : t.val % 4 = 3) (r : Fin 1024) (S : Cert.Spec.St)
    (ih : RowInv V c (t.val - 1) (Nat.lt_of_le_of_lt (Nat.sub_le _ _) t.isLt) r S) :
    RowInv V c t.val t.isLt r (stepAt V c t r S) := by
  obtain ⟨im, il, ia⟩ := ih
  obtain ⟨sm, sl, sa⟩ := tile_step V c t r (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 S im il ia
  unfold RowInv
  rw [outsAt1_C V c t h0 h1]
  dsimp only
  refine ⟨?_, ?_, fun f => ?_⟩
  · exact (congrFun (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r (0 : Fin 1))).trans sm
  · exact (congrFun (sout1_C_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r (0 : Fin 1))).trans sl
  · exact (congrFun (sout1_C_2_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r f)).trans (sa f)

/-- And there the output block is the rectified quotient of the stepped state. -/
theorem out_last (c : Dev nD) (t : Fin cfg1.N) (h0 : ¬t.val % 4 = 0) (h1 : t.val % 4 = 3) (r : Fin 1024) (f : Fin 128) (S : Cert.Spec.St)
    (ih : RowInv V c (t.val - 1) (Nat.lt_of_le_of_lt (Nat.sub_le _ _) t.isLt) r S) :
    (outsAt1 V c t.val t.isLt).1 (ix2 r f)
      = Cert.Spec.eluK (Ideal.div ((stepAt V c t r S).acc f) (stepAt V c t r S).l) := by
  obtain ⟨im, il, ia⟩ := ih
  obtain ⟨sm, sl, sa⟩ := tile_step V c t r (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 S im il ia
  rw [outsAt1_C V c t h0 h1]
  dsimp only
  refine (congrFun (out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 r f)).trans ?_
  refine (pay3_apply _ _ r f).trans ?_
  exact congrArg₂ (fun a b => Cert.Spec.eluK (Ideal.div a b)) (sa f) sl

/-- Points of one row tile work on the same array rows. -/
theorem rowOf_pred (n : ℕ) (hn : n + 1 < cfg1.N) (h0 : ¬(n + 1) % 4 = 0) (r : Fin 1024) :
    rowOf ⟨n, Nat.lt_of_succ_lt hn⟩ r = rowOf ⟨n + 1, hn⟩ r := by
  apply Fin.ext
  rw [rowOf_val, rowOf_val]
  show 1024 * (n / 4) + r.val = 1024 * ((n + 1) / 4) + r.val
  omega

/-- THE INVARIANT. After point `n` the running buffers hold, at row `r`, the state of array row `rowOf n r` after
    column tiles `0 … n % 4`: by induction on the point. -/
theorem rowInv_all (c : Dev nD) : ∀ (n : ℕ) (hn : n < cfg1.N) (r : Fin 1024),
    RowInv V c n hn r (Cert.Spec.stAfter (scoreCol V c) (scoreRow V c) (adjWords V c) (featRows V c) (rowOf ⟨n, hn⟩ r) ⟨n % 4, Nat.mod_lt _ (by decide)⟩)
  | 0, hn, r => by
    rw [stAfter_first _ _ _ _ _ _ rfl]
    exact rowInv_first V c ⟨0, hn⟩ rfl r
  | n + 1, hn, r => by
    by_cases h0 : (n + 1) % 4 = 0
    · rw [stAfter_first _ _ _ _ _ _ h0]
      exact rowInv_first V c ⟨n + 1, hn⟩ h0 r
    · have ih := rowInv_all c n (Nat.lt_of_succ_lt hn) r
      rw [rowOf_pred n hn h0 r] at ih
      rw [stAfter_next _ _ _ _ _ ⟨n % 4, Nat.mod_lt _ (by decide)⟩ ⟨(n + 1) % 4, Nat.mod_lt _ (by decide)⟩ (by dsimp only; omega)]
      by_cases h1 : (n + 1) % 4 = 3
      · exact rowInv_last V c ⟨n + 1, hn⟩ h0 h1 r _ ih
      · exact rowInv_middle V c ⟨n + 1, hn⟩ h0 h1 r _ ih

/-- At a last column tile the output block holds, at `(r, f)`, the streaming result of array row `rowOf t r`. -/
theorem out_at (c : Dev nD) (t : Fin cfg1.N) (h3 : t.val % 4 = 3) (r : Fin 1024) (f : Fin 128) :
    (outsAt1 V c t.val t.isLt).1 (ix2 r f) = Cert.Spec.outK (scoreCol V c) (scoreRow V c) (adjWords V c) (featRows V c) (rowOf t r) f := by
  obtain ⟨n, hn⟩ := t
  dsimp only at h3
  obtain ⟨n, rfl⟩ : ∃ n', n = n' + 1 := ⟨n - 1, by omega⟩
  have h0 : ¬(n + 1) % 4 = 0 := by omega
  have ih := rowInv_all V c n (Nat.lt_of_succ_lt hn) r
  rw [rowOf_pred n hn h0 r] at ih
  rw [outK_last _ _ _ _ _ _ ⟨(n + 1) % 4, Nat.mod_lt _ (by decide)⟩ h3,
    stAfter_next _ _ _ _ _ ⟨n % 4, Nat.mod_lt _ (by decide)⟩ ⟨(n + 1) % 4, Nat.mod_lt _ (by decide)⟩ (by dsimp only; omega)]
  exact out_last V c ⟨n + 1, hn⟩ h0 h3 r f _ ih

/-! ## The output array after the call -/

/-- THE VALUE OF THE CALL. The output array ends holding, at `(a, f)`, the streaming result of row `a`, feature `f`,
    computed from the arrays the call was entered with. -/
theorem arr1_4 (c : Dev nD) :
    (dat1 V c).arrAt 4 cfg1.N
      = fun i : S8192x128.Idx => Cert.Spec.outK
          (fun a => (V c main_v0_1 : S8192x1.Idx → EReal) (ix2 a (0 : Fin 1)))
          (fun b => (V c main_v2 : S1x8192.Idx → EReal) (ix2 (0 : Fin 1) b))
          (fun a b => (V c main_arg1 : S8192x8192.Idx → BitVec 32) (ix2 a b))
          (fun b f => (V c main_v1 : S8192x128.Idx → EReal) (ix2 b f)) (i 0) (i 1) :=
  arr1_4_eq (dat1 V c) _ fun t h3 r f => by
    rw [after1_4]
    exact out_at V c t h3 r f

end Cert.KernelIdeal.Val

end
-- ==== Proof.Val.Kernel.lean ====
/-
  The idealized kernel's result as one function of its five argument arrays. The attention region's output array
  is the streaming softmax spelling `Cert.Spec.outK` of the arrays it enters with; those are, read back through
  the boundaries of @main: the first score column `s1 = wh · a1` as the projection region left it; the second,
  `s2 = wh · a2`, reshaped from a column to a row by the host; the adjacency words as launched; and `wh = h Wᵀ`
  as the projection region left it, the host's change of float format being the identity on extended reals.
-/
import proofs.«417751_j15599321219367_3_alg».proof.Proof.FrmI.Run
import proofs.«417751_j15599321219367_3_alg».proof.Proof.Val.Reg0
import proofs.«417751_j15599321219367_3_alg».proof.Proof.Val.Reg1
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## The argument arrays as index functions -/

abbrev hM (c : Dev nD) : Fin 8192 → Fin 256 → EReal := fun a k => m ((c.tc : Thread nD τ).loc main_arg0) (ix2 a k)
abbrev adjM (c : Dev nD) : Fin 8192 → Fin 8192 → BitVec 32 := fun a b => m ((c.tc : Thread nD τ).loc main_arg1) (ix2 a b)
abbrev wM (c : Dev nD) : Fin 128 → Fin 256 → EReal := fun g k => m ((c.tc : Thread nD τ).loc main_arg2) (ix2 g k)
abbrev a1M (c : Dev nD) : Fin 128 → EReal := fun g => m ((c.tc : Thread nD τ).loc main_arg3) (ix2 g 0)
abbrev a2M (c : Dev nD) : Fin 128 → EReal := fun g => m ((c.tc : Thread nD τ).loc main_arg4) (ix2 g 0)
/-- `wh = h Wᵀ` of the launch contents. -/
abbrev whM (c : Dev nD) : Fin 8192 → Fin 128 → EReal := Cert.Spec.wh (hM m c) (wM m c)

/-! ## What the attention region enters with -/

/-- The first score column, untouched by the host operations: what the projection region left. -/
theorem entry_s1 (c : Dev nD) (a : Fin 8192) :
    (E2 m ρ c main_v0_1 : S8192x1.Idx → EReal) (ix2 a 0) = Cert.Spec.sv (whM m c) (a1M m c) a := by
  have h1 : E2 m ρ c main_v0_1 = W1 m ρ c (Proc.devRef .tc main_v0_1) := W2_of m ρ c main_v0_1 (by decide)
  rw [h1, show W1 m ρ c (Proc.devRef .tc main_v0_1) = (dat0 (E0 m ρ) c).arrAt 5 cfg0.N from W1_arr m ρ c 5, arr0_5 (E0 m ρ) c]
  rfl

/-- The projected features, the host's change of float format being the identity. -/
theorem entry_wh (c : Dev nD) (b : Fin 8192) (f : Fin 128) :
    (E2 m ρ c main_v1 : S8192x128.Idx → EReal) (ix2 b f) = whM m c b f := by
  have e : (W2 m ρ c (Proc.devRef .tc main_v1) : S8192x128.Idx → EReal)
      = (truncf (F := Ideal) .bf16 (W1 m ρ c (Proc.devRef .tc main_v0_0) : FVec Ideal S8192x128 .f32) bitsLt_bf16_f32 : FVec Ideal S8192x128 .bf16) := by
    dsimp only [W2, hostOps1]; after_results
  show (W2 m ρ c (Proc.devRef .tc main_v1) : S8192x128.Idx → EReal) (ix2 b f) = _
  rw [e, truncf_apply, show W1 m ρ c (Proc.devRef .tc main_v0_0) = (dat0 (E0 m ρ) c).arrAt 4 cfg0.N from W1_arr m ρ c 4, arr0_4 (E0 m ρ) c]
  rfl

/-- The second score column, reshaped by the host from [8192, 1] to [1, 8192]. -/
theorem entry_s2 (c : Dev nD) (b : Fin 8192) :
    (E2 m ρ c main_v2 : S1x8192.Idx → EReal) (ix2 0 b) = Cert.Spec.sv (whM m c) (a2M m c) b := by
  have e : (W2 m ρ c (Proc.devRef .tc main_v2) : S1x8192.Idx → EReal)
      = shapeCast S1x8192 (W1 m ρ c (Proc.devRef .tc main_v0_2) : S8192x1.Idx → EReal) shapeCasts_S8192x1_S1x8192 := by
    dsimp only [W2, hostOps1]; after_results; rfl
  show (W2 m ρ c (Proc.devRef .tc main_v2) : S1x8192.Idx → EReal) (ix2 0 b) = _
  rw [e, shapeCast_apply _ _ (ix2 0 b) (ix2 b 0) (by rw [Shape.rowMajor_val_two, Shape.rowMajor_val_two]; show b.val * 1 + 0 = 0 * 8192 + b.val; omega),
    show W1 m ρ c (Proc.devRef .tc main_v0_2) = (dat0 (E0 m ρ) c).arrAt 6 cfg0.N from W1_arr m ρ c 6, arr0_6 (E0 m ρ) c]
  rfl

/-- The adjacency words, as launched. -/
theorem entry_adj (c : Dev nD) (a b : Fin 8192) :
    (E2 m ρ c main_arg1 : S8192x8192.Idx → BitVec 32) (ix2 a b) = adjM m c a b := by
  have h1 : E2 m ρ c main_arg1 = W1 m ρ c (Proc.devRef .tc main_arg1) := W2_of m ρ c main_arg1 (by decide)
  rw [h1, show W1 m ρ c (Proc.devRef .tc main_arg1) = W0 m ρ c (Proc.devRef .tc main_arg1) from W1_of_ne m ρ c main_arg1 (by decide)]

/-! ## The result -/

/-- The result array after the run is the streaming spelling of the launch arrays. -/
theorem kernel_value (c : Dev nD) :
    (W3 m ρ c (Proc.devRef .tc main_v3) : S8192x128.Idx → EReal)
      = fun i => Cert.Spec.outK (Cert.Spec.sv (whM m c) (a1M m c)) (Cert.Spec.sv (whM m c) (a2M m c)) (adjM m c) (whM m c) (i 0) (i 1) := by
  rw [W3_main_v3 m ρ c, arr1_4 (E2 m ρ) c]
  simp only [entry_s1 m ρ c, entry_s2 m ρ c, entry_adj m ρ c, entry_wh m ρ c]
  rfl

end Cert.KernelIdeal.Val

end
-- ==== Proof.Ref.Run.lean ====
import proofs.«417751_j15599321219367_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The straight line of @main, every call replaced by the callee's operations over the call's own buffers:
    the projection Wh = h·Wᵀ and the two score vectors (1–4), the score matrix s1 + s2ᵀ (5–8), the slope
    constant and leaky_relu with its select (9–16), the adjacency mask and the masked scores (17–22), the
    row maximum (23–27), the exponentials of the differences (28–31), the row sums (32–33), the quotient
    (34–36), the product with Wh (37), and elu with its two selects (38–52). -/
abbrev ops : List (HloOp τ sig (Elt F)) :=
  [ unary main_arg2 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    binary main_v1 main_arg3 main_v2 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    binary main_v1 main_arg4 main_v3 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_v3 main_v4 ((transpose S1x8192 [1, 0] · transposes_S8192x1_S1x8192_1_0) : (⟨S8192x1, .f32⟩ : BufTy).Contents (Elt F) → (⟨S1x8192, .f32⟩ : BufTy).Contents (Elt F)),
    unary main_v2 main_v5 (broadcastInDim S8192x8192 ![0, 1] bcast_S8192x1_S8192x8192_0_1 : (⟨S8192x1, .f32⟩ : BufTy).Contents (Elt F) → (⟨S8192x8192, .f32⟩ : BufTy).Contents (Elt F)),
    unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    binary main_v5 main_v6 main_v7 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (TRef.of (T := ⟨S8192x8192, .f32⟩) main_v7) main_call0.v0 main_call0.v1 (cmpf .oge),
    TRef.unary (TRef.of (T := ⟨S_, .f32⟩) main_cst) main_call0.v2 id,
    TRef.unary main_call0.v2 main_call0.v3 (broadcastInDim S8192x8192 ![] bcast_S_S8192x8192),
    TRef.binary main_call0.v3 (TRef.of (T := ⟨S8192x8192, .f32⟩) main_v7) main_call0.v4 mulf,
    TRef.ternary main_call0.v1 (TRef.of (T := ⟨S8192x8192, .f32⟩) main_v7) main_call0.v4 main_call0.call0.v0 select,
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_arg1 main_v9 main_v10 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (TRef.of (T := ⟨S_, .f32⟩) main_cst_0) main_call1.v0 (broadcastInDim S8192x8192 ![] bcast_S_S8192x8192),
    TRef.ternary (TRef.of (T := ⟨S8192x8192, .i1⟩) main_v10) (TRef.of (T := ⟨S8192x8192, .f32⟩) main_v8) main_call1.v0 main_call1.v1 select,
    nullary main_cst_1 (constant S_ .f32 0xFF800000#32),
    binary main_v11 main_cst_1 main_v12 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v13 (broadcastInDim S8192 ![] bcast_S_S8192 : (⟨S_, .f32⟩ : BufTy).Contents (Elt F) → (⟨S8192, .f32⟩ : BufTy).Contents (Elt F)),
    binary main_v13 main_v12 main_v14 (maximumf : (⟨S8192, .f32⟩ : BufTy).Contents (Elt F) → (⟨S8192, .f32⟩ : BufTy).Contents (Elt F) → (⟨S8192, .f32⟩ : BufTy).Contents (Elt F)),
    unary main_v14 main_v15 (broadcastInDim S8192x1 ![0] bcast_S8192_S8192x1_0 : (⟨S8192, .f32⟩ : BufTy).Contents (Elt F) → (⟨S8192x1, .f32⟩ : BufTy).Contents (Elt F)),
    unary main_v15 main_v16 (broadcastInDim S8192x8192 ![0, 1] bcast_S8192x1_S8192x8192_0_1 : (⟨S8192x1, .f32⟩ : BufTy).Contents (Elt F) → (⟨S8192x8192, .f32⟩ : BufTy).Contents (Elt F)),
    binary main_v11 main_v16 main_v17 (subf : (⟨S8192x8192, .f32⟩ : BufTy).Contents (Elt F) → (⟨S8192x8192, .f32⟩ : BufTy).Contents (Elt F) → (⟨S8192x8192, .f32⟩ : BufTy).Contents (Elt F)),
    unary main_v17 main_v18 (Host.exp : (⟨S8192x8192, .f32⟩ : BufTy).Contents (Elt F) → (⟨S8192x8192, .f32⟩ : BufTy).Contents (Elt F)),
    nullary main_cst_3 (constant S_ .f32 0x00000000#32),
    binary main_v18 main_cst_3 main_v19 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    unary main_v20 main_v21 (broadcastInDim S8192x8192 ![0, 1] bcast_S8192x1_S8192x8192_0_1 : (⟨S8192x1, .f32⟩ : BufTy).Contents (Elt F) → (⟨S8192x8192, .f32⟩ : BufTy).Contents (Elt F)),
    binary main_v18 main_v21 main_v22 (Host.divf : (⟨S8192x8192, .f32⟩ : BufTy).Contents (Elt F) → (⟨S8192x8192, .f32⟩ : BufTy).Contents (Elt F) → (⟨S8192x8192, .f32⟩ : BufTy).Contents (Elt F)),
    binary main_v22 main_v1 main_v23 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (TRef.of (T := ⟨S8192x128, .f32⟩) main_v23) main_call2.v0 main_call2.v1 (cmpf .ogt),
    TRef.nullary main_call2.cst_0 (constant S_ .f32 0x00000000#32),
    TRef.unary main_call2.cst_0 main_call2.v2 (broadcastInDim S8192x128 ![] bcast_S_S8192x128),
    TRef.binary (TRef.of (T := ⟨S8192x128, .f32⟩) main_v23) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x128 ![] bcast_S_S8192x128),
    TRef.ternary main_call2.v3 main_call2.call0.v1 (TRef.of (T := ⟨S8192x128, .f32⟩) main_v23) main_call2.call0.v2 select,
    TRef.unary main_call2.call0.v2 main_call2.v5 Host.expm1,
    TRef.nullary main_call2.cst_2 (constant S_ .f32 0x3F800000#32),
    TRef.unary main_call2.cst_2 main_call2.v6 (broadcastInDim S8192x128 ![] bcast_S_S8192x128),
    TRef.binary main_call2.v6 main_call2.v5 main_call2.v7 mulf,
    TRef.ternary main_call2.v1 (TRef.of (T := ⟨S8192x128, .f32⟩) main_v23) main_call2.v7 main_call2.call1.v0 select ]

-- fifty-two binds re-associated: the rewriting under the chain recurses once per statement
set_option maxRecDepth 2048 in
/-- @main is that straight line: the functions' definitions unfolded at their calls, both sides are one
    chain of steps once sequencing is reassociated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., binary_bufs_sub .., binary_bufs_sub .., binary_bufs_sub .., unary_bufs_sub .., unary_bufs_sub ..,
    unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-! ## The stages

Each stage is the composed term of a few consecutive operations, as a function of the stage's operands. -/

/-- Wh = h · Wᵀ. -/
def res_v1 (a0 : (⟨S8192x256, .f32⟩ : BufTy).Contents (Elt F)) (a2 : (⟨S128x256, .f32⟩ : BufTy).Contents (Elt F)) :
    (⟨S8192x128, .f32⟩ : BufTy).Contents (Elt F) :=
  Host.dotGeneral dot_S8192x256_S256x128_S8192x128_1_0_0_1_n_n none a0 (transpose S256x128 [1, 0] a2 transposes_S128x256_S256x128_1_0)

/-- s1 = Wh · a1. -/
def res_v2 (wh : (⟨S8192x128, .f32⟩ : BufTy).Contents (Elt F)) (a3 : (⟨S128x1, .f32⟩ : BufTy).Contents (Elt F)) :
    (⟨S8192x1, .f32⟩ : BufTy).Contents (Elt F) :=
  Host.dotGeneral dot_S8192x128_S128x1_S8192x1_1_0_0_1_n_n none wh a3

/-- s2 = Wh · a2. -/
def res_v3 (wh : (⟨S8192x128, .f32⟩ : BufTy).Contents (Elt F)) (a4 : (⟨S128x1, .f32⟩ : BufTy).Contents (Elt F)) :
    (⟨S8192x1, .f32⟩ : BufTy).Contents (Elt F) :=
  Host.dotGeneral dot_S8192x128_S128x1_S8192x1_1_0_0_1_n_n none wh a4

/-- The score matrix s1 + s2ᵀ: entry (i, j) is s1 i + s2 j, both broadcast to the square. -/
def res_v7 (s1 s2 : (⟨S8192x1, .f32⟩ : BufTy).Contents (Elt F)) : (⟨S8192x8192, .f32⟩ : BufTy).Contents (Elt F) :=
  addf (broadcastInDim S8192x8192 ![0, 1] bcast_S8192x1_S8192x8192_0_1 s1)
    (broadcastInDim S8192x8192 ![0, 1] bcast_S1x8192_S8192x8192_0_1 (transpose S1x8192 [1, 0] s2 transposes_S8192x1_S1x8192_1_0))

/-- leaky_relu with slope 0.2: x where x ≥ 0, else 0.2 · x. -/
def res_v8 (x : (⟨S8192x8192, .f32⟩ : BufTy).Contents (Elt F)) : (⟨S8192x8192, .f32⟩ : BufTy).Contents (Elt F) :=
  select (cmpf .oge x (broadcastInDim S8192x8192 ![] bcast_S_S8192x8192 (constant S_ .f32 0x00000000#32))) x
    (mulf (broadcastInDim S8192x8192 ![] bcast_S_S8192x8192 (constant S_ .f32 0x3E4CCCCD#32)) x)

/-- The masked scores: e where adj > 0, else −9e15. -/
def res_v11 (a1 : (⟨S8192x8192, .i32⟩ : BufTy).Contents (Elt F)) (e : (⟨S8192x8192, .f32⟩ : BufTy).Contents (Elt F)) :
    (⟨S8192x8192, .f32⟩ : BufTy).Contents (Elt F) :=
  select (cmpi .sgt a1 (broadcastInDim S8192x8192 ![] bcast_S_S8192x8192 (constantI S_ 32 0#32))) e
    (broadcastInDim S8192x8192 ![] bcast_S_S8192x8192 (constant S_ .f32 0xD9FFCB9E#32))

/-- The row maximum: the maximum of −∞ and the max-reduction of each row from −∞. -/
def res_v14 (att : (⟨S8192x8192, .f32⟩ : BufTy).Contents (Elt F)) : (⟨S8192, .f32⟩ : BufTy).Contents (Elt F) :=
  maximumf (broadcastInDim S8192 ![] bcast_S_S8192 (constant S_ .f32 0xFF800000#32))
    (Host.reduce FloatOps.maximumf att (constant S_ .f32 0xFF800000#32) reducesTo_S8192x8192_S8192_d1 h_S_)

/-- exp (att − row maximum), the maximum broadcast along its row. -/
def res_v18 (att : (⟨S8192x8192, .f32⟩ : BufTy).Contents (Elt F)) (mx : (⟨S8192, .f32⟩ : BufTy).Contents (Elt F)) :
    (⟨S8192x8192, .f32⟩ : BufTy).Contents (Elt F) :=
  Host.exp (subf att (broadcastInDim S8192x8192 ![0, 1] bcast_S8192x1_S8192x8192_0_1 (broadcastInDim S8192x1 ![0] bcast_S8192_S8192x1_0 mx)))

/-- The row sums of the exponentials, from 0. -/
def res_v19 (ex : (⟨S8192x8192, .f32⟩ : BufTy).Contents (Elt F)) : (⟨S8192, .f32⟩ : BufTy).Contents (Elt F) :=
  Host.reduceAdd ex (constant S_ .f32 0x00000000#32) reducesTo_S8192x8192_S8192_d1 h_S_

/-- The softmax quotient: each exponential over its row's sum. -/
def res_v22 (ex : (⟨S8192x8192, .f32⟩ : BufTy).Contents (Elt F)) (sm : (⟨S8192, .f32⟩ : BufTy).Contents (Elt F)) :
    (⟨S8192x8192, .f32⟩ : BufTy).Contents (Elt F) :=
  Host.divf ex (broadcastInDim S8192x8192 ![0, 1] bcast_S8192x1_S8192x8192_0_1 (broadcastInDim S8192x1 ![0] bcast_S8192_S8192x1_0 sm))

/-- h' = att · Wh. -/
def res_v23 (p : (⟨S8192x8192, .f32⟩ : BufTy).Contents (Elt F)) (wh : (⟨S8192x128, .f32⟩ : BufTy).Contents (Elt F)) :
    (⟨S8192x128, .f32⟩ : BufTy).Contents (Elt F) :=
  Host.dotGeneral dot_S8192x8192_S8192x128_S8192x128_1_0_0_1_n_n none p wh

/-- elu: x where x > 0, else 1 · expm1 (0 where x > 0, else x). -/
def res_v24 (x : (⟨S8192x128, .f32⟩ : BufTy).Contents (Elt F)) : (⟨S8192x128, .f32⟩ : BufTy).Contents (Elt F) :=
  select (cmpf .ogt x (broadcastInDim S8192x128 ![] bcast_S_S8192x128 (constant S_ .f32 0x00000000#32))) x
    (mulf (broadcastInDim S8192x128 ![] bcast_S_S8192x128 (constant S_ .f32 0x3F800000#32))
      (Host.expm1 (select (cmpf .ogt x (broadcastInDim S8192x128 ![] bcast_S_S8192x128 (constant S_ .f32 0x00000000#32)))
        (broadcastInDim S8192x128 ![] bcast_S_S8192x128 (constant S_ .f32 0x00000000#32)) x)))

/-- The masked scores from the arguments: the mask over leaky_relu of s1 + s2ᵀ. -/
def res_att (a0 : (⟨S8192x256, .f32⟩ : BufTy).Contents (Elt F)) (a1 : (⟨S8192x8192, .i32⟩ : BufTy).Contents (Elt F))
    (a2 : (⟨S128x256, .f32⟩ : BufTy).Contents (Elt F)) (a3 a4 : (⟨S128x1, .f32⟩ : BufTy).Contents (Elt F)) :
    (⟨S8192x8192, .f32⟩ : BufTy).Contents (Elt F) :=
  res_v11 a1 (res_v8 (res_v7 (res_v2 (res_v1 a0 a2) a3) (res_v3 (res_v1 a0 a2) a4)))

/-- The exponentials from the arguments: of the masked scores less their row maximum. -/
def res_exp (a0 : (⟨S8192x256, .f32⟩ : BufTy).Contents (Elt F)) (a1 : (⟨S8192x8192, .i32⟩ : BufTy).Contents (Elt F))
    (a2 : (⟨S128x256, .f32⟩ : BufTy).Contents (Elt F)) (a3 a4 : (⟨S128x1, .f32⟩ : BufTy).Contents (Elt F)) :
    (⟨S8192x8192, .f32⟩ : BufTy).Contents (Elt F) :=
  res_v18 (res_att a0 a1 a2 a3 a4) (res_v14 (res_att a0 a1 a2 a3 a4))

/-- The result from the arguments h, adj, W, a1, a2: elu (softmax (mask (leaky_relu (s1 + s2ᵀ))) · Wh). -/
def res (a0 : (⟨S8192x256, .f32⟩ : BufTy).Contents (Elt F)) (a1 : (⟨S8192x8192, .i32⟩ : BufTy).Contents (Elt F))
    (a2 : (⟨S128x256, .f32⟩ : BufTy).Contents (Elt F)) (a3 a4 : (⟨S128x1, .f32⟩ : BufTy).Contents (Elt F)) :
    (⟨S8192x128, .f32⟩ : BufTy).Contents (Elt F) :=
  res_v24 (res_v23 (res_v22 (res_exp a0 a1 a2 a3 a4) (res_v19 (res_exp a0 a1 a2 a3 a4))) (res_v1 a0 a2))

/-! ## The run -/

set_option maxRecDepth 8192 in
set_option maxHeartbeats 4000000 in
/-- The result buffer after the line: each operation's result read at its own buffer, the conversions between a
    buffer's type and its value's type the identity, and what is left is the stages' composition unfolded. -/
theorem out_eq (V : Valuation τ sig (Elt F)) :
    after ops V (main_v24 : DevRef τ sig)
      = res (V (main_arg0 : DevRef τ sig)) (V (main_arg1 : DevRef τ sig)) (V (main_arg2 : DevRef τ sig))
          (V (main_arg3 : DevRef τ sig)) (V (main_arg4 : DevRef τ sig)) := by
  after_results_simp
  simp only [TRef.toBuf, TRef.ofBuf, cast_eq, id_eq]
  simp only [res, res_exp, res_att, res_v24, res_v23, res_v22, res_v19, res_v18, res_v14, res_v11, res_v8, res_v7, res_v3,
    res_v2, res_v1]

set_option maxRecDepth 8192 in
set_option maxHeartbeats 4000000 in
/-- No operation writes an argument's buffer. -/
theorem arg0_eq (V : Valuation τ sig (Elt F)) : after ops V (main_arg0 : DevRef τ sig) = V (main_arg0 : DevRef τ sig) := by
  after_results_simp
set_option maxRecDepth 8192 in
set_option maxHeartbeats 4000000 in
theorem arg1_eq (V : Valuation τ sig (Elt F)) : after ops V (main_arg1 : DevRef τ sig) = V (main_arg1 : DevRef τ sig) := by
  after_results_simp
set_option maxRecDepth 8192 in
set_option maxHeartbeats 4000000 in
theorem arg2_eq (V : Valuation τ sig (Elt F)) : after ops V (main_arg2 : DevRef τ sig) = V (main_arg2 : DevRef τ sig) := by
  after_results_simp
set_option maxRecDepth 8192 in
set_option maxHeartbeats 4000000 in
theorem arg3_eq (V : Valuation τ sig (Elt F)) : after ops V (main_arg3 : DevRef τ sig) = V (main_arg3 : DevRef τ sig) := by
  after_results_simp
set_option maxRecDepth 8192 in
set_option maxHeartbeats 4000000 in
theorem arg4_eq (V : Valuation τ sig (Elt F)) : after ops V (main_arg4 : DevRef τ sig) = V (main_arg4 : DevRef τ sig) := by
  after_results_simp

/-- On the device, for any float values, from any memory with zero counters: every weakly fair execution of @main
    terminates with the result buffer at the stages' composition of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = res (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

/-- The defining equations of the stages and of their compositions, stated here once for every module that unfolds them. -/
theorem stage_equations : True := by
  have := @res_v1.eq_1; have := @res_v2.eq_1; have := @res_v3.eq_1; have := @res_v7.eq_1; have := @res_v8.eq_1
  have := @res_v11.eq_1; have := @res_v14.eq_1; have := @res_v18.eq_1; have := @res_v19.eq_1; have := @res_v22.eq_1
  have := @res_v23.eq_1; have := @res_v24.eq_1; have := @res_att.eq_1; have := @res_exp.eq_1; have := @res.eq_1
  have := @res_v1.eq_def; have := @res_v2.eq_def; have := @res_v3.eq_def; have := @res_v7.eq_def; have := @res_v8.eq_def
  have := @res_v11.eq_def; have := @res_v14.eq_def; have := @res_v18.eq_def; have := @res_v19.eq_def; have := @res_v22.eq_def
  have := @res_v23.eq_def; have := @res_v24.eq_def; have := @res_att.eq_def; have := @res_exp.eq_def; have := @res.eq_def
  trivial

end Cert.ReferenceIdeal.RefRun

end
-- ==== Proof.Ref.Ops.lean ====
/-
  The reference's operations read at an index, at the ideal values: one lemma per kind of operation the two-pass
  program applies, over variables of the program's literal shapes and explicit coordinates. The three products are
  sums over their one contracted axis; a transpose swaps the coordinates; a column or a row broadcast over the
  square forgets one coordinate; a row reduction is the fold or the sum over the row's columns; the elementwise
  operations act on the elements.
-/
import proofs.«417751_j15599321219367_3_alg».proof.ReferenceIdeal
import proofs.«417751_j15599321219367_3_alg».proof.Proof.Spec
import Idealize.ShloMosaic.Lib.ValueLayout
import Idealize.ShloMosaic.Lib.IdealHost
import Idealize.ShloMosaic.PureOps.Ideal.Laws

noncomputable section

open scoped BigOperators

namespace Cert.ReferenceIdeal.RefOps

open Idealize.ShloMosaic Idealize.ShloMosaic.ValueIdx Cert.ReferenceIdeal

variable [Facts₀]
open Facts₀

/-! ### h · Wᵀ: [8192,256] × [256,128] -/

theorem lhs_hW_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch from List.not_mem_nil),
    dif_pos (show (0 : Fin S8192x256.rank) ∈ dot_S8192x256_S256x128_S8192x128_1_0_0_1_n_n.lhsNonContracting from List.mem_singleton.mpr rfl)]
  rfl
theorem lhs_hW_1 (i : S8192x128.Idx) (q : dot_S8192x256_S256x128_S8192x128_1_0_0_1_n_n.contr.Idx) :
    (dot_S8192x256_S256x128_S8192x128_1_0_0_1_n_n.lhsIdx i q 1).val = (q ⟨0, Nat.one_pos⟩).val :=
  dot_S8192x256_S256x128_S8192x128_1_0_0_1_n_n.lhsIdx_val_of_single rfl i q
theorem rhs_hW_0 (i : S8192x128.Idx) (q : dot_S8192x256_S256x128_S8192x128_1_0_0_1_n_n.contr.Idx) :
    (dot_S8192x256_S256x128_S8192x128_1_0_0_1_n_n.rhsIdx i q 0).val = (q ⟨0, Nat.one_pos⟩).val :=
  dot_S8192x256_S256x128_S8192x128_1_0_0_1_n_n.rhsIdx_val_of_single rfl i q
theorem rhs_hW_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch from List.not_mem_nil),
    dif_pos (show (1 : Fin S256x128.rank) ∈ dot_S8192x256_S256x128_S8192x128_1_0_0_1_n_n.rhsNonContracting from List.mem_singleton.mpr rfl)]
  rfl

/-- The product read at an index: the sum over the one contracted axis. -/
theorem dot_hW_apply (l : FVec Ideal S8192x256 .f32) (r : FVec Ideal S256x128 .f32) (i : Fin 8192) (f : Fin 128) :
    Host.dotGeneral (F := Ideal) dot_S8192x256_S256x128_S8192x128_1_0_0_1_n_n none l r (ix2 i f) = ∑ k : Fin 256, l (ix2 i k) * r (ix2 k f) := by
  simp only [Host.dotGeneral]
  rw [Ideal.dotGeneral_apply, ← Equiv.sum_comp (ValueIdx.contrEquiv1 dot_S8192x256_S256x128_S8192x128_1_0_0_1_n_n 256 rfl rfl).symm]
  refine Finset.sum_congr rfl fun k _ => ?_
  have hk := ValueIdx.contrEquiv1_symm_val dot_S8192x256_S256x128_S8192x128_1_0_0_1_n_n 256 rfl rfl k
  have el : dot_S8192x256_S256x128_S8192x128_1_0_0_1_n_n.lhsIdx (ix2 i f) ((ValueIdx.contrEquiv1 dot_S8192x256_S256x128_S8192x128_1_0_0_1_n_n 256 rfl rfl).symm k) = ix2 i k := funext fun a => Fin.ext (by
    match a with
    | ⟨0, _⟩ => exact lhs_hW_0 _ _
    | ⟨1, _⟩ => exact (lhs_hW_1 _ _).trans hk)
  have er : dot_S8192x256_S256x128_S8192x128_1_0_0_1_n_n.rhsIdx (ix2 i f) ((ValueIdx.contrEquiv1 dot_S8192x256_S256x128_S8192x128_1_0_0_1_n_n 256 rfl rfl).symm k) = ix2 k f := funext fun a => Fin.ext (by
    match a with
    | ⟨0, _⟩ => exact (rhs_hW_0 _ _).trans hk
    | ⟨1, _⟩ => exact rhs_hW_1 _ _)
  rw [el, er]

/-! ### wh · a: [8192,128] × [128,1] -/

theorem lhs_wa_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch from List.not_mem_nil),
    dif_pos (show (0 : Fin S8192x128.rank) ∈ dot_S8192x128_S128x1_S8192x1_1_0_0_1_n_n.lhsNonContracting from List.mem_singleton.mpr rfl)]
  rfl
theorem lhs_wa_1 (i : S8192x1.Idx) (q : dot_S8192x128_S128x1_S8192x1_1_0_0_1_n_n.contr.Idx) :
    (dot_S8192x128_S128x1_S8192x1_1_0_0_1_n_n.lhsIdx i q 1).val = (q ⟨0, Nat.one_pos⟩).val :=
  dot_S8192x128_S128x1_S8192x1_1_0_0_1_n_n.lhsIdx_val_of_single rfl i q
theorem rhs_wa_0 (i : S8192x1.Idx) (q : dot_S8192x128_S128x1_S8192x1_1_0_0_1_n_n.contr.Idx) :
    (dot_S8192x128_S128x1_S8192x1_1_0_0_1_n_n.rhsIdx i q 0).val = (q ⟨0, Nat.one_pos⟩).val :=
  dot_S8192x128_S128x1_S8192x1_1_0_0_1_n_n.rhsIdx_val_of_single rfl i q
theorem rhs_wa_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch from List.not_mem_nil),
    dif_pos (show (1 : Fin S128x1.rank) ∈ dot_S8192x128_S128x1_S8192x1_1_0_0_1_n_n.rhsNonContracting from List.mem_singleton.mpr rfl)]
  rfl

/-- The product read at an index: the sum over the one contracted axis. -/
theorem dot_wa_apply (l : FVec Ideal S8192x128 .f32) (r : FVec Ideal S128x1 .f32) (i : Fin 8192) (f : Fin 1) :
    Host.dotGeneral (F := Ideal) dot_S8192x128_S128x1_S8192x1_1_0_0_1_n_n none l r (ix2 i f) = ∑ k : Fin 128, l (ix2 i k) * r (ix2 k f) := by
  simp only [Host.dotGeneral]
  rw [Ideal.dotGeneral_apply, ← Equiv.sum_comp (ValueIdx.contrEquiv1 dot_S8192x128_S128x1_S8192x1_1_0_0_1_n_n 128 rfl rfl).symm]
  refine Finset.sum_congr rfl fun k _ => ?_
  have hk := ValueIdx.contrEquiv1_symm_val dot_S8192x128_S128x1_S8192x1_1_0_0_1_n_n 128 rfl rfl k
  have el : dot_S8192x128_S128x1_S8192x1_1_0_0_1_n_n.lhsIdx (ix2 i f) ((ValueIdx.contrEquiv1 dot_S8192x128_S128x1_S8192x1_1_0_0_1_n_n 128 rfl rfl).symm k) = ix2 i k := funext fun a => Fin.ext (by
    match a with
    | ⟨0, _⟩ => exact lhs_wa_0 _ _
    | ⟨1, _⟩ => exact (lhs_wa_1 _ _).trans hk)
  have er : dot_S8192x128_S128x1_S8192x1_1_0_0_1_n_n.rhsIdx (ix2 i f) ((ValueIdx.contrEquiv1 dot_S8192x128_S128x1_S8192x1_1_0_0_1_n_n 128 rfl rfl).symm k) = ix2 k f := funext fun a => Fin.ext (by
    match a with
    | ⟨0, _⟩ => exact (rhs_wa_0 _ _).trans hk
    | ⟨1, _⟩ => exact rhs_wa_1 _ _)
  rw [el, er]

/-! ### att · wh: [8192,8192] × [8192,128] -/

theorem lhs_pw_0 (i : S8192x128.Idx) (q : dot_S8192x8192_S8192x128_S8192x128_1_0_0_1_n_n.contr.Idx) :
    (dot_S8192x8192_S8192x128_S8192x128_1_0_0_1_n_n.lhsIdx i q 0).val = (i 0).val := by
  unfold DotDims.lhsIdx
  rw [dif_neg (show ¬(0 : Fin S8192x8192.rank) ∈ dot_S8192x8192_S8192x128_S8192x128_1_0_0_1_n_n.lhsBatch from List.not_mem_nil),
    dif_pos (show (0 : Fin S8192x8192.rank) ∈ dot_S8192x8192_S8192x128_S8192x128_1_0_0_1_n_n.lhsNonContracting from List.mem_singleton.mpr rfl)]
  rfl
theorem lhs_pw_1 (i : S8192x128.Idx) (q : dot_S8192x8192_S8192x128_S8192x128_1_0_0_1_n_n.contr.Idx) :
    (dot_S8192x8192_S8192x128_S8192x128_1_0_0_1_n_n.lhsIdx i q 1).val = (q ⟨0, Nat.one_pos⟩).val :=
  dot_S8192x8192_S8192x128_S8192x128_1_0_0_1_n_n.lhsIdx_val_of_single rfl i q
theorem rhs_pw_0 (i : S8192x128.Idx) (q : dot_S8192x8192_S8192x128_S8192x128_1_0_0_1_n_n.contr.Idx) :
    (dot_S8192x8192_S8192x128_S8192x128_1_0_0_1_n_n.rhsIdx i q 0).val = (q ⟨0, Nat.one_pos⟩).val :=
  dot_S8192x8192_S8192x128_S8192x128_1_0_0_1_n_n.rhsIdx_val_of_single rfl i q
theorem rhs_pw_1 (i : S8192x128.Idx) (q : dot_S8192x8192_S8192x128_S8192x128_1_0_0_1_n_n.contr.Idx) :
    (dot_S8192x8192_S8192x128_S8192x128_1_0_0_1_n_n.rhsIdx i q 1).val = (i 1).val := by
  unfold DotDims.rhsIdx
  rw [dif_neg (show ¬(1 : Fin S8192x128.rank) ∈ dot_S8192x8192_S8192x128_S8192x128_1_0_0_1_n_n.rhsBatch from List.not_mem_nil),
    dif_pos (show (1 : Fin S8192x128.rank) ∈ dot_S8192x8192_S8192x128_S8192x128_1_0_0_1_n_n.rhsNonContracting from List.mem_singleton.mpr rfl)]
  rfl

/-- The product read at an index: the sum over the one contracted axis. -/
theorem dot_pw_apply (l : FVec Ideal S8192x8192 .f32) (r : FVec Ideal S8192x128 .f32) (i : Fin 8192) (f : Fin 128) :
    Host.dotGeneral (F := Ideal) dot_S8192x8192_S8192x128_S8192x128_1_0_0_1_n_n none l r (ix2 i f) = ∑ k : Fin 8192, l (ix2 i k) * r (ix2 k f) := by
  simp only [Host.dotGeneral]
  rw [Ideal.dotGeneral_apply, ← Equiv.sum_comp (ValueIdx.contrEquiv1 dot_S8192x8192_S8192x128_S8192x128_1_0_0_1_n_n 8192 rfl rfl).symm]
  refine Finset.sum_congr rfl fun k _ => ?_
  have hk := ValueIdx.contrEquiv1_symm_val dot_S8192x8192_S8192x128_S8192x128_1_0_0_1_n_n 8192 rfl rfl k
  have el : dot_S8192x8192_S8192x128_S8192x128_1_0_0_1_n_n.lhsIdx (ix2 i f) ((ValueIdx.contrEquiv1 dot_S8192x8192_S8192x128_S8192x128_1_0_0_1_n_n 8192 rfl rfl).symm k) = ix2 i k := funext fun a => Fin.ext (by
    match a with
    | ⟨0, _⟩ => exact lhs_pw_0 _ _
    | ⟨1, _⟩ => exact (lhs_pw_1 _ _).trans hk)
  have er : dot_S8192x8192_S8192x128_S8192x128_1_0_0_1_n_n.rhsIdx (ix2 i f) ((ValueIdx.contrEquiv1 dot_S8192x8192_S8192x128_S8192x128_1_0_0_1_n_n 8192 rfl rfl).symm k) = ix2 k f := funext fun a => Fin.ext (by
    match a with
    | ⟨0, _⟩ => exact (rhs_pw_0 _ _).trans hk
    | ⟨1, _⟩ => exact rhs_pw_1 _ _)
  rw [el, er]

/-! ### Layout operations -/

/-- The weights transposed: (k, f) reads (f, k). -/
theorem transpose_W_apply {α : Type} (v : S128x256.Idx → α) (k : Fin 256) (f : Fin 128) :
    transpose S256x128 [1, 0] v transposes_S128x256_S256x128_1_0 (ix2 k f) = v (ix2 f k) :=
  transpose_ix2_apply v _ k f

/-- The score column transposed into a row: (z, j) reads (j, z). -/
theorem transpose_col_apply {α : Type} (v : S8192x1.Idx → α) (z : Fin 1) (j : Fin 8192) :
    transpose S1x8192 [1, 0] v transposes_S8192x1_S1x8192_1_0 (ix2 z j) = v (ix2 j z) :=
  transpose_ix2_apply v _ z j

/-- A column broadcast over the square: (i, j) reads row i of the column. -/
theorem bcast_col_apply {α : Type} (v : S8192x1.Idx → α) (i j : Fin 8192) :
    broadcastInDim S8192x8192 ![0, 1] bcast_S8192x1_S8192x8192_0_1 v (ix2 i j) = v (ix2 i 0) :=
  broadcastInDim_apply _ _ v _ _ fun a => match a with | ⟨0, _⟩ => rfl | ⟨1, _⟩ => rfl

/-- A row broadcast over the square: (i, j) reads column j of the row. -/
theorem bcast_row_apply {α : Type} (v : S1x8192.Idx → α) (i j : Fin 8192) :
    broadcastInDim S8192x8192 ![0, 1] bcast_S1x8192_S8192x8192_0_1 v (ix2 i j) = v (ix2 0 j) :=
  broadcastInDim_apply _ _ v _ _ fun a => match a with | ⟨0, _⟩ => rfl | ⟨1, _⟩ => rfl

/-- A vector made a column: (i, z) reads i. -/
theorem bcast_vec_col_apply {α : Type} (v : S8192.Idx → α) (i : Fin 8192) (z : Fin 1) :
    broadcastInDim S8192x1 ![0] bcast_S8192_S8192x1_0 v (ix2 i z) = v (ix1 i) :=
  broadcastInDim_apply _ _ v _ _ fun a => match a with | ⟨0, _⟩ => rfl

/-- A scalar splat over the square reads the scalar. -/
theorem splat_sq_apply {α : Type} (v : S_.Idx → α) (j : S8192x8192.Idx) :
    broadcastInDim S8192x8192 ![] bcast_S_S8192x8192 v j = v ix0 :=
  broadcastInDim_scalar_apply _ v j

/-- A scalar splat over the vector reads the scalar. -/
theorem splat_vec_apply {α : Type} (v : S_.Idx → α) (j : S8192.Idx) :
    broadcastInDim S8192 ![] bcast_S_S8192 v j = v ix0 :=
  broadcastInDim_scalar_apply _ v j

/-- A scalar splat over the result's shape reads the scalar. -/
theorem splat_out_apply {α : Type} (v : S_.Idx → α) (j : S8192x128.Idx) :
    broadcastInDim S8192x128 ![] bcast_S_S8192x128 v j = v ix0 :=
  broadcastInDim_scalar_apply _ v j

/-! ### Row reductions -/

/-- The inserted index of row i at column j. -/
theorem lift_row (h : S8192x8192.Reduces [1] S8192) (i j : Fin 8192) : h.lift (ix1 i) j = ix2 i j :=
  funext fun a => Fin.ext (by match a with | ⟨0, _⟩ => rfl | ⟨1, _⟩ => rfl)

/-- The row maximum: the fold of max from the initial value over the row's columns. -/
theorem reduceMax_apply (x : FVec Ideal S8192x8192 .f32) (init : FVec Ideal S_ .f32) (i : Fin 8192) :
    Host.reduce FloatOps.maximumf x init reducesTo_S8192x8192_S8192_d1 h_S_ (ix1 i)
      = (Finset.univ : Finset (Fin 8192)).fold max (init ix0) (fun j => x (ix2 i j)) := by
  have h : S8192x8192.Reduces [1] S8192 := by decide
  refine (Host.reduce_eq_fold_single FloatOps.maximumf x init reducesTo_S8192x8192_S8192_d1 h h_S_ (ix1 i)).trans ?_
  rw [show init (Shape.Idx.first h_S_) = init ix0 from congrArg init (eq_ix0 _),
    show x ∘ h.lift (ix1 i) = fun j => x (ix2 i j) from funext fun j => congrArg x (lift_row h i j)]
  rfl

/-- The row sum: the initial value plus the sum over the row's columns. -/
theorem reduceAdd_apply (x : FVec Ideal S8192x8192 .f32) (init : FVec Ideal S_ .f32) (i : Fin 8192) :
    Host.reduceAdd (F := Ideal) x init reducesTo_S8192x8192_S8192_d1 h_S_ (ix1 i)
      = init ix0 + ∑ j : Fin 8192, x (ix2 i j) := by
  have h : S8192x8192.Reduces [1] S8192 := by decide
  rw [hostReduceAdd_apply, Ideal.hostReduceAdd_single reducesTo_S8192x8192_S8192_d1 h,
    show init (Shape.Idx.first h_S_) = init ix0 from congrArg init (eq_ix0 _)]
  exact congrArg (_ + ·) (Finset.sum_congr rfl fun j _ => congrArg x (lift_row h i j))

/-! ### Elementwise operations the library's index lemmas do not name -/

section Elementwise
variable {s : Shape}

/-- The host's exponential at an index. -/
theorem hostExp_apply (x : FVec Ideal s .f32) (i : s.Idx) : Host.exp (F := Ideal) x i = Ideal.exp (x i) := rfl
/-- The host's exponential minus one at an index. -/
theorem hostExpm1_apply (x : FVec Ideal s .f32) (i : s.Idx) : Host.expm1 (F := Ideal) x i = Ideal.exp (x i) - 1 := rfl
/-- A float comparison at an index, at the ideal values. -/
theorem cmpfI_apply (p : CmpFPredicate) (a b : FVec Ideal s .f32) (i : s.Idx) :
    cmpf (F := Ideal) p a b i = Ideal.cmp p (a i) (b i) := rfl
/-- An integer comparison at an index. -/
theorem cmpiI_apply {w : Nat} (p : CmpIPredicate) (a b : IVec s w) (i : s.Idx) :
    cmpi p a b i = IntOp.cmpi p (a i) (b i) := rfl

end Elementwise

/-! ### Bit patterns -/

/-- The f32 pattern of minus infinity. -/
theorem ofBits_negInf_f32 : Ideal.ofBits .f32 0xFF800000#32 = ⊥ := by
  simp [Ideal.ofBits, Ideal.ieee]

/-- The scalar constants read at their one index. -/
theorem const_zero_apply (j : S_.Idx) : constant (F := Ideal) S_ .f32 0x00000000#32 j = 0 := Ideal.ofBits_zero_f32
theorem const_one_apply (j : S_.Idx) : constant (F := Ideal) S_ .f32 0x3F800000#32 j = 1 := Ideal.ofBits_one_f32
theorem const_negInf_apply (j : S_.Idx) : constant (F := Ideal) S_ .f32 0xFF800000#32 j = ⊥ := ofBits_negInf_f32
theorem const_slope_apply (j : S_.Idx) : constant (F := Ideal) S_ .f32 0x3E4CCCCD#32 j = Cert.Spec.c02 := rfl
theorem const_fill_apply (j : S_.Idx) : constant (F := Ideal) S_ .f32 0xD9FFCB9E#32 j = Cert.Spec.negBig := rfl
theorem constI_zero_apply (j : S_.Idx) : constantI S_ 32 0#32 j = 0#32 := rfl

end Cert.ReferenceIdeal.RefOps

end
-- ==== Proof.Ref.Val.lean ====
/-
  The reference's result read at an index, at the ideal values. Each stage of the two-pass program, read at one
  element, is the corresponding term of the layer's mathematics: the projection and the two score columns are the
  sums of products; the masked score is the rectifier, as a selection on the sign, under the adjacency mask; the
  row maximum is the fold of max over the row; the shifted exponentials, their row sum and the quotient follow; the
  product with the projection is the weighted combination; the last stage is the exponential-linear unit. Composed,
  the result at (i, f) is the two-pass spelling of the layer over the arguments' index functions.
-/
import proofs.«417751_j15599321219367_3_alg».proof.Proof.Ref.Run
import proofs.«417751_j15599321219367_3_alg».proof.Proof.Ref.Ops

noncomputable section

open scoped BigOperators

namespace Cert.ReferenceIdeal.RefVal

open Idealize.ShloMosaic Idealize.ShloMosaic.ValueIdx Cert.ReferenceIdeal Cert.ReferenceIdeal.Gen Cert.ReferenceIdeal.RefOps

/-! ## The stages read at an index -/

/-- The projection: row i, feature f of h Wᵀ. -/
theorem res_v1_apply (a0 : (⟨S8192x256, .f32⟩ : BufTy).Contents (Elt Ideal)) (a2 : (⟨S128x256, .f32⟩ : BufTy).Contents (Elt Ideal))
    (i : Fin 8192) (f : Fin 128) :
    RefRun.res_v1 (F := Ideal) a0 a2 (ix2 i f) = Cert.Spec.wh (fun a k => a0 (ix2 a k)) (fun g k => a2 (ix2 g k)) i f := by
  unfold RefRun.res_v1
  rw [dot_hW_apply]
  unfold Cert.Spec.wh
  exact Finset.sum_congr rfl fun k _ => by rw [transpose_W_apply]

/-- The first score column: row i of wh · a. -/
theorem res_v2_apply (w : (⟨S8192x128, .f32⟩ : BufTy).Contents (Elt Ideal)) (a : (⟨S128x1, .f32⟩ : BufTy).Contents (Elt Ideal))
    (i : Fin 8192) (z : Fin 1) :
    RefRun.res_v2 (F := Ideal) w a (ix2 i z) = Cert.Spec.sv (fun r f => w (ix2 r f)) (fun g => a (ix2 g 0)) i := by
  obtain rfl : z = 0 := Subsingleton.elim _ _
  unfold RefRun.res_v2
  rw [dot_wa_apply]
  rfl

/-- The second score column likewise. -/
theorem res_v3_apply (w : (⟨S8192x128, .f32⟩ : BufTy).Contents (Elt Ideal)) (a : (⟨S128x1, .f32⟩ : BufTy).Contents (Elt Ideal))
    (i : Fin 8192) (z : Fin 1) :
    RefRun.res_v3 (F := Ideal) w a (ix2 i z) = Cert.Spec.sv (fun r f => w (ix2 r f)) (fun g => a (ix2 g 0)) i := by
  obtain rfl : z = 0 := Subsingleton.elim _ _
  unfold RefRun.res_v3
  rw [dot_wa_apply]
  rfl

/-- The score of the pair (i, j): s1 i + s2 j. -/
theorem res_v7_apply (s1 s2 : (⟨S8192x1, .f32⟩ : BufTy).Contents (Elt Ideal)) (i j : Fin 8192) :
    RefRun.res_v7 (F := Ideal) s1 s2 (ix2 i j) = s1 (ix2 i 0) + s2 (ix2 j 0) := by
  unfold RefRun.res_v7
  rw [addf_apply, bcast_col_apply, bcast_row_apply, transpose_col_apply]

/-- The leaky rectifier at an element: a selection on the sign. -/
theorem res_v8_apply (x : (⟨S8192x8192, .f32⟩ : BufTy).Contents (Elt Ideal)) (p : S8192x8192.Idx) :
    RefRun.res_v8 (F := Ideal) x p
      = Scalar.select (Ideal.cmp .oge (x p) 0) (x p) (Cert.Spec.c02 * x p) := by
  unfold RefRun.res_v8
  rw [select_apply, cmpfI_apply, mulf_apply, splat_sq_apply, splat_sq_apply, const_zero_apply, const_slope_apply]

/-- The mask at an element: the score where the adjacency word is positive, the fill value elsewhere. -/
theorem res_v11_apply (a1 : (⟨S8192x8192, .i32⟩ : BufTy).Contents (Elt Ideal)) (e : (⟨S8192x8192, .f32⟩ : BufTy).Contents (Elt Ideal))
    (p : S8192x8192.Idx) :
    RefRun.res_v11 (F := Ideal) a1 e p = Scalar.select (Cert.Spec.edge (a1 p)) (e p) Cert.Spec.negBig := by
  unfold RefRun.res_v11
  rw [select_apply, cmpiI_apply, splat_sq_apply, splat_sq_apply, constI_zero_apply, const_fill_apply]

/-- The row maximum: the fold of max over the row, joined once more with the bottom. -/
theorem res_v14_apply (x : (⟨S8192x8192, .f32⟩ : BufTy).Contents (Elt Ideal)) (i : Fin 8192) :
    RefRun.res_v14 (F := Ideal) x (ix1 i) = max ⊥ ((Finset.univ : Finset (Fin 8192)).fold max ⊥ (fun j => x (ix2 i j))) := by
  unfold RefRun.res_v14
  rw [maximumf_apply, splat_vec_apply, reduceMax_apply, const_negInf_apply]

/-- The shifted exponential at (i, j). -/
theorem res_v18_apply (x : (⟨S8192x8192, .f32⟩ : BufTy).Contents (Elt Ideal)) (mx : (⟨S8192, .f32⟩ : BufTy).Contents (Elt Ideal))
    (i j : Fin 8192) :
    RefRun.res_v18 (F := Ideal) x mx (ix2 i j) = Ideal.exp (x (ix2 i j) - mx (ix1 i)) := by
  unfold RefRun.res_v18
  rw [hostExp_apply, subf_apply, bcast_col_apply, bcast_vec_col_apply]

/-- The row sum of the exponentials, from zero. -/
theorem res_v19_apply (x : (⟨S8192x8192, .f32⟩ : BufTy).Contents (Elt Ideal)) (i : Fin 8192) :
    RefRun.res_v19 (F := Ideal) x (ix1 i) = 0 + ∑ j : Fin 8192, x (ix2 i j) := by
  unfold RefRun.res_v19
  rw [reduceAdd_apply, const_zero_apply]

/-- The quotient at (i, j): the exponential over its row's sum. -/
theorem res_v22_apply (x : (⟨S8192x8192, .f32⟩ : BufTy).Contents (Elt Ideal)) (sm : (⟨S8192, .f32⟩ : BufTy).Contents (Elt Ideal))
    (i j : Fin 8192) :
    RefRun.res_v22 (F := Ideal) x sm (ix2 i j) = Ideal.div (x (ix2 i j)) (sm (ix1 i)) := by
  unfold RefRun.res_v22
  rw [hostDivf_apply, bcast_col_apply, bcast_vec_col_apply]

/-- The weighted combination: row i, feature f of the product with wh. -/
theorem res_v23_apply (p : (⟨S8192x8192, .f32⟩ : BufTy).Contents (Elt Ideal)) (w : (⟨S8192x128, .f32⟩ : BufTy).Contents (Elt Ideal))
    (i : Fin 8192) (f : Fin 128) :
    RefRun.res_v23 (F := Ideal) p w (ix2 i f) = ∑ j : Fin 8192, p (ix2 i j) * w (ix2 j f) := by
  unfold RefRun.res_v23
  rw [dot_pw_apply]

/-- The exponential-linear unit at an element. -/
theorem res_v24_apply (x : (⟨S8192x128, .f32⟩ : BufTy).Contents (Elt Ideal)) (p : S8192x128.Idx) :
    RefRun.res_v24 (F := Ideal) x p = Cert.Spec.eluR (x p) := by
  unfold RefRun.res_v24 Cert.Spec.eluR
  rw [select_apply, cmpfI_apply, mulf_apply, hostExpm1_apply, select_apply, cmpfI_apply, splat_out_apply, splat_out_apply,
    const_zero_apply, const_one_apply]

/-! ## The compositions -/

section Composed
variable (a0 : (⟨S8192x256, .f32⟩ : BufTy).Contents (Elt Ideal)) (a1 : (⟨S8192x8192, .i32⟩ : BufTy).Contents (Elt Ideal))
  (a2 : (⟨S128x256, .f32⟩ : BufTy).Contents (Elt Ideal)) (a3 a4 : (⟨S128x1, .f32⟩ : BufTy).Contents (Elt Ideal))

/-- The projection of the arguments, as an index function. -/
abbrev whOf : Fin 8192 → Fin 128 → EReal := Cert.Spec.wh (fun a k => a0 (ix2 a k)) (fun g k => a2 (ix2 g k))
/-- The two score columns of the arguments. -/
abbrev s1Of : Fin 8192 → EReal := Cert.Spec.sv (whOf a0 a2) (fun g => a3 (ix2 g 0))
abbrev s2Of : Fin 8192 → EReal := Cert.Spec.sv (whOf a0 a2) (fun g => a4 (ix2 g 0))

/-- The masked scores of the arguments are the two-pass spelling's. -/
theorem res_att_apply (i j : Fin 8192) :
    RefRun.res_att (F := Ideal) a0 a1 a2 a3 a4 (ix2 i j)
      = Cert.Spec.xR (s1Of a0 a2 a3) (s2Of a0 a2 a4) (fun a b => a1 (ix2 a b)) i j := by
  unfold RefRun.res_att
  rw [res_v11_apply, res_v8_apply, res_v7_apply, res_v2_apply, res_v3_apply]
  simp only [res_v1_apply]
  rfl

/-- The exponentials of the arguments are the two-pass spelling's. -/
theorem res_exp_apply (i j : Fin 8192) :
    RefRun.res_exp (F := Ideal) a0 a1 a2 a3 a4 (ix2 i j)
      = Cert.Spec.expR (s1Of a0 a2 a3) (s2Of a0 a2 a4) (fun a b => a1 (ix2 a b)) i j := by
  unfold RefRun.res_exp
  rw [res_v18_apply, res_v14_apply]
  simp only [res_att_apply]
  rfl

end Composed

/-- THE REFERENCE'S RESULT: at (i, f), the two-pass spelling of the layer over the arguments' index functions. -/
theorem res_eq (a0 : (⟨S8192x256, .f32⟩ : BufTy).Contents (Elt Ideal)) (a1 : (⟨S8192x8192, .i32⟩ : BufTy).Contents (Elt Ideal))
    (a2 : (⟨S128x256, .f32⟩ : BufTy).Contents (Elt Ideal)) (a3 a4 : (⟨S128x1, .f32⟩ : BufTy).Contents (Elt Ideal)) :
    Cert.ReferenceIdeal.RefRun.res (F := Ideal) a0 a1 a2 a3 a4 = fun i => Cert.Spec.outR (Cert.Spec.sv (Cert.Spec.wh (fun a k => a0 (ix2 a k)) (fun g k => a2 (ix2 g k))) (fun g => a3 (ix2 g 0))) (Cert.Spec.sv (Cert.Spec.wh (fun a k => a0 (ix2 a k)) (fun g k => a2 (ix2 g k))) (fun g => a4 (ix2 g 0))) (fun a b => a1 (ix2 a b)) (Cert.Spec.wh (fun a k => a0 (ix2 a k)) (fun g k => a2 (ix2 g k))) (i 0) (i 1) := by
  funext p
  obtain ⟨i, f, rfl⟩ : ∃ (i : Fin 8192) (f : Fin 128), p = ix2 i f := ⟨p 0, p 1, eq_ix2 p⟩
  unfold RefRun.res
  rw [res_v24_apply, res_v23_apply]
  simp only [res_v22_apply, res_v19_apply, res_exp_apply, res_v1_apply]
  rfl

end Cert.ReferenceIdeal.RefVal

end
-- ==== Proof.Bridge.lean ====
/-
  The streaming spelling of the attention row equals the two-pass spelling, on real data.

  With real scores every masked score is a real: the rectifier's slope and the mask's fill value are finite
  constants, and for a slope strictly between zero and one the larger of `e` and `c * e` is the selection on the sign
  of `e`. On a row of real scores `x` the streaming state after any set of tiles is, for SOME real shift `m`, the
  pair of sums `∑ exp (x j - m)` and `∑ exp (x j - m) * w j f` over the columns of those tiles: the first tile starts
  from the bottom maximum and zeros (`exp ⊥ = 0`), and a further tile moves the old sums to the new shift by
  `exp (m - M) * exp (x j - m) = exp (x j - M)`. The four tiles cover the row. The quotient of the two sums does not
  depend on the shift, so at the row maximum it is the softmax-weighted combination the two-pass spelling forms;
  the normaliser is a positive real, so the extended-real division is the real one. The two spellings of the
  exponential-linear unit agree at every extended real.
-/
import proofs.«417751_j15599321219367_3_alg».proof.Proof.Spec
import Idealize.ShloMosaic.PureOps.Ideal
import Mathlib.Data.EReal.Basic
import Mathlib.Data.EReal.Operations
import Mathlib.Data.EReal.Inv
import Mathlib.Data.Finset.Fold
import Mathlib.Data.Fintype.BigOperators
import Mathlib.Algebra.BigOperators.Group.Finset.Defs
import Mathlib.Algebra.Order.BigOperators.Group.Finset
import Mathlib.Analysis.Complex.Exponential
import Mathlib.Tactic.FieldSimp
import Mathlib.Tactic.Linarith
import Mathlib.Tactic.NormNum
import Mathlib.Tactic.Ring

noncomputable section

open scoped BigOperators

namespace Cert.Bridge

open Cert.Spec Idealize.ShloMosaic

/-! ## The two float constants, evaluated once -/

/-- The rectifier's slope is the real `13421773 / 2 ^ 26`. -/
theorem c02_eq : c02 = (((13421773 : ℝ) / 2 ^ 26 : ℝ) : EReal) := by
  simp [Ideal.ofBits, Ideal.ieee, -EReal.coe_mul]
  norm_num

/-- The mask's fill value is a (negative) real. -/
theorem negBig_eq : negBig = ((-(16763806 * 2 ^ 29) : ℝ) : EReal) := by
  simp [Ideal.ofBits, Ideal.ieee, -EReal.coe_mul]

/-! ## Coercions of finite sums and maxima -/

/-- A finite sum of coerced reals is the coercion of the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The running maximum, started at the bottom, of coerced reals over a nonempty set is a real. -/
theorem fold_max_coe {ι : Type*} (s : Finset ι) (hs : s.Nonempty) (g : ι → ℝ) :
    ∃ t : ℝ, s.fold max (⊥ : EReal) (fun i => (g i : EReal)) = (t : EReal) := by
  have h1 : s.fold max (⊥ : EReal) (fun i => (g i : EReal)) ≠ ⊤ := by
    apply ne_of_lt
    rw [Finset.fold_max_lt]
    exact ⟨bot_lt_top, fun i _ => EReal.coe_lt_top _⟩
  have h2 : s.fold max (⊥ : EReal) (fun i => (g i : EReal)) ≠ ⊥ := by
    apply ne_of_gt
    rw [Finset.lt_fold_max]
    obtain ⟨i, hi⟩ := hs
    exact Or.inr ⟨i, hi, EReal.bot_lt_coe _⟩
  exact ⟨_, (EReal.coe_toReal h1 h2).symm⟩

theorem coe_max (a b : ℝ) : max (a : EReal) (b : EReal) = ((max a b : ℝ) : EReal) :=
  (EReal.coe_strictMono.monotone.map_max).symm

/-! ## One tile of the streaming recurrence, on real data -/

/-- A tile applied to a state of reals: the new maximum `M` is a real, and normaliser and weighted sum are the old
    ones scaled by `exp (m - M)` plus the tile's shifted exponentials. -/
theorem step_real (x : Fin 2048 → ℝ) (v : Fin 2048 → Fin 128 → ℝ) (s : St) (m L : ℝ) (A : Fin 128 → ℝ)
    (hm : s.m = (m : EReal)) (hl : s.l = (L : EReal)) (hA : ∀ f, s.acc f = (A f : EReal)) :
    ∃ M : ℝ, (St.step (fun q => (x q : EReal)) (fun q f => (v q f : EReal)) s).m = (M : EReal) ∧
      (St.step (fun q => (x q : EReal)) (fun q f => (v q f : EReal)) s).l
        = ((Real.exp (m - M) * L + ∑ q, Real.exp (x q - M) : ℝ) : EReal) ∧
      ∀ f, (St.step (fun q => (x q : EReal)) (fun q f => (v q f : EReal)) s).acc f
        = ((Real.exp (m - M) * A f + ∑ q, Real.exp (x q - M) * v q f : ℝ) : EReal) := by
  obtain ⟨t, ht⟩ := fold_max_coe (Finset.univ : Finset (Fin 2048)) ⟨⟨0, by norm_num⟩, Finset.mem_univ _⟩ x
  have hM : max s.m ((Finset.univ : Finset (Fin 2048)).fold max ⊥ fun q => (x q : EReal))
      = ((max m t : ℝ) : EReal) := by
    rw [hm, ht, coe_max]
  refine ⟨max m t, hM, ?_, ?_⟩
  · show Ideal.exp (s.m - max s.m _) * s.l + ∑ q, Ideal.exp ((x q : EReal) - max s.m _) = _
    rw [hM, hm, hl]
    simp only [← EReal.coe_sub, Ideal.exp_coe, ← EReal.coe_mul, coe_sum, ← EReal.coe_add]
  · intro f
    show Ideal.exp (s.m - max s.m _) * s.acc f
      + ∑ q, Ideal.exp ((x q : EReal) - max s.m _) * (v q f : EReal) = _
    rw [hM, hm, hA]
    simp only [← EReal.coe_sub, Ideal.exp_coe, ← EReal.coe_mul, coe_sum, ← EReal.coe_add]

/-- The first tile: from the empty state (maximum the bottom, zeros) the state is the tile's own sums. -/
theorem step_init_real (x : Fin 2048 → ℝ) (v : Fin 2048 → Fin 128 → ℝ) :
    ∃ M : ℝ, (St.step (fun q => (x q : EReal)) (fun q f => (v q f : EReal)) St.init).m = (M : EReal) ∧
      (St.step (fun q => (x q : EReal)) (fun q f => (v q f : EReal)) St.init).l
        = ((∑ q, Real.exp (x q - M) : ℝ) : EReal) ∧
      ∀ f, (St.step (fun q => (x q : EReal)) (fun q f => (v q f : EReal)) St.init).acc f
        = ((∑ q, Real.exp (x q - M) * v q f : ℝ) : EReal) := by
  obtain ⟨t, ht⟩ := fold_max_coe (Finset.univ : Finset (Fin 2048)) ⟨⟨0, by norm_num⟩, Finset.mem_univ _⟩ x
  have hM : max (⊥ : EReal) ((Finset.univ : Finset (Fin 2048)).fold max ⊥ fun q => (x q : EReal))
      = (t : EReal) := by
    rw [ht]; exact max_eq_right bot_le
  refine ⟨t, hM, ?_, ?_⟩
  · show Ideal.exp (⊥ - max (⊥ : EReal) _) * 0 + ∑ q, Ideal.exp ((x q : EReal) - max (⊥ : EReal) _) = _
    rw [hM, EReal.bot_sub, Ideal.exp_bot, zero_mul, zero_add]
    simp only [← EReal.coe_sub, Ideal.exp_coe, coe_sum]
  · intro f
    show Ideal.exp (⊥ - max (⊥ : EReal) _) * 0
      + ∑ q, Ideal.exp ((x q : EReal) - max (⊥ : EReal) _) * (v q f : EReal) = _
    rw [hM, EReal.bot_sub, Ideal.exp_bot, zero_mul, zero_add]
    simp only [← EReal.coe_sub, Ideal.exp_coe, ← EReal.coe_mul, coe_sum]

/-! ## The state after a set of tiles -/

/-- For some real shift `m` the state's maximum is `m` and its normaliser and weighted sum are the shifted
    exponential sums over the tiles in `T`. (The shift need not be named: the quotient at the end does not
    depend on it.) -/
def Inv (X : Fin 4 → Fin 2048 → ℝ) (V : Fin 4 → Fin 2048 → Fin 128 → ℝ) (T : Finset (Fin 4)) (s : St) : Prop :=
  ∃ m : ℝ, s.m = (m : EReal) ∧ s.l = ((∑ k ∈ T, ∑ q, Real.exp (X k q - m) : ℝ) : EReal) ∧
    ∀ f, s.acc f = ((∑ k ∈ T, ∑ q, Real.exp (X k q - m) * V k q f : ℝ) : EReal)

theorem inv_init (X : Fin 4 → Fin 2048 → ℝ) (V : Fin 4 → Fin 2048 → Fin 128 → ℝ) (k : Fin 4) :
    Inv X V {k} (St.step (fun q => (X k q : EReal)) (fun q f => (V k q f : EReal)) St.init) := by
  obtain ⟨M, h1, h2, h3⟩ := step_init_real (X k) (V k)
  refine ⟨M, h1, ?_, fun f => ?_⟩
  · rw [h2, Finset.sum_singleton]
  · rw [h3 f, Finset.sum_singleton]

/-- A further tile: `exp (m - M) * exp (x - m) = exp (x - M)` moves the old sums to the new shift. -/
theorem inv_step (X : Fin 4 → Fin 2048 → ℝ) (V : Fin 4 → Fin 2048 → Fin 128 → ℝ) (T : Finset (Fin 4)) (s : St)
    (k : Fin 4) (hk : k ∉ T) (h : Inv X V T s) :
    Inv X V (insert k T) (St.step (fun q => (X k q : EReal)) (fun q f => (V k q f : EReal)) s) := by
  obtain ⟨m, hm, hl, hA⟩ := h
  obtain ⟨M, h1, h2, h3⟩ := step_real (X k) (V k) s m _ _ hm hl hA
  have hexp : ∀ y : ℝ, Real.exp (m - M) * Real.exp (y - m) = Real.exp (y - M) := fun y => by
    rw [← Real.exp_add]; congr 1; ring
  refine ⟨M, h1, ?_, fun f => ?_⟩
  · rw [h2, Finset.sum_insert hk, add_comm, Finset.mul_sum]
    congr 2
    refine Finset.sum_congr rfl fun k' _ => ?_
    rw [Finset.mul_sum]
    exact Finset.sum_congr rfl fun q _ => hexp _
  · rw [h3 f, Finset.sum_insert hk, add_comm, Finset.mul_sum]
    congr 2
    refine Finset.sum_congr rfl fun k' _ => ?_
    rw [Finset.mul_sum]
    exact Finset.sum_congr rfl fun q _ => by rw [← mul_assoc, hexp]

/-! ## The four tiles cover the row -/

/-- Tile and offset against column. -/
def colEquiv : Fin 4 × Fin 2048 ≃ Fin 8192 where
  toFun p := col p.1 p.2
  invFun j := (⟨j.val / 2048, by omega⟩, ⟨j.val % 2048, Nat.mod_lt _ (by norm_num)⟩)
  left_inv := by
    rintro ⟨k, q⟩
    refine Prod.ext (Fin.ext ?_) (Fin.ext ?_)
    · show (2048 * k.val + q.val) / 2048 = k.val
      omega
    · show (2048 * k.val + q.val) % 2048 = q.val
      omega
  right_inv := by
    intro j
    refine Fin.ext ?_
    show 2048 * (j.val / 2048) + j.val % 2048 = j.val
    omega

/-- A sum over the row is the sum over the tiles of the sums over each tile. -/
theorem sum_tiles (F : Fin 8192 → ℝ) : ∑ k : Fin 4, ∑ q : Fin 2048, F (col k q) = ∑ j, F j := by
  rw [← Equiv.sum_comp colEquiv F, Fintype.sum_prod_type]
  rfl

/-! ## The masked score: both spellings are one real -/

/-- For a slope strictly between `0` and `1` the larger of `e` and `c * e` is `e` where `0 ≤ e` and `c * e`
    elsewhere. -/
theorem max_slope (c e : ℝ) (h0 : 0 < c) (h1 : c < 1) : max e (c * e) = if 0 ≤ e then e else c * e := by
  split_ifs with h
  · exact max_eq_left (by nlinarith)
  · exact max_eq_right (by nlinarith)

theorem score_real (s1 s2 : Fin 8192 → EReal) (adj : Fin 8192 → Fin 8192 → BitVec 32)
    (hs1 : ∀ i, ∃ r : ℝ, s1 i = (r : EReal)) (hs2 : ∀ j, ∃ r : ℝ, s2 j = (r : EReal)) (i j : Fin 8192) :
    ∃ r : ℝ, xK s1 s2 adj i j = (r : EReal) ∧ xR s1 s2 adj i j = (r : EReal) := by
  obtain ⟨a, ha⟩ := hs1 i
  obtain ⟨b, hb⟩ := hs2 j
  unfold xK xR
  rw [ha, hb, ← EReal.coe_add, c02_eq, negBig_eq, ← EReal.coe_mul, coe_max,
    max_slope _ _ (by norm_num) (by norm_num)]
  by_cases he : edge (adj i j) = 1
  · by_cases h0 : 0 ≤ a + b
    · refine ⟨a + b, ?_, ?_⟩
      · simp only [Scalar.select, if_pos he, if_pos h0]
      · have h' : (0 : EReal) ≤ ((a + b : ℝ) : EReal) := EReal.coe_nonneg.mpr h0
        have : Ideal.cmp .oge ((a + b : ℝ) : EReal) 0 = 1 := by
          show BitVec.ofBool (decide ((0 : EReal) ≤ ((a + b : ℝ) : EReal))) = 1
          rw [decide_eq_true h']; rfl
        simp only [Scalar.select, if_pos he, if_pos this]
    · refine ⟨13421773 / 2 ^ 26 * (a + b), ?_, ?_⟩
      · simp only [Scalar.select, if_pos he, if_neg h0]
      · have h' : ¬ (0 : EReal) ≤ ((a + b : ℝ) : EReal) := fun h => h0 (EReal.coe_nonneg.mp h)
        have : Ideal.cmp .oge ((a + b : ℝ) : EReal) 0 ≠ 1 := by
          show BitVec.ofBool (decide ((0 : EReal) ≤ ((a + b : ℝ) : EReal))) ≠ 1
          rw [decide_eq_false h']; decide
        simp only [Scalar.select, if_pos he, if_neg this]
  · exact ⟨-(16763806 * 2 ^ 29), by simp only [Scalar.select, if_neg he], by simp only [Scalar.select, if_neg he]⟩

/-! ## The end: the quotient does not depend on the shift -/

/-- The weighted sum of shifted exponentials over their sum is the same at every shift, and is the sum of the
    normalised weights. -/
theorem quotient_shift {ι : Type*} [Fintype ι] [Nonempty ι] (x u : ι → ℝ) (m t : ℝ) :
    (∑ j, Real.exp (x j - m) * u j) * (∑ j, Real.exp (x j - m))⁻¹
      = ∑ j, Real.exp (x j - t) * (∑ j, Real.exp (x j - t))⁻¹ * u j := by
  have key : ∀ j, Real.exp (x j - m) = Real.exp (t - m) * Real.exp (x j - t) := fun j => by
    rw [← Real.exp_add]; congr 1; ring
  have hZ : (∑ j, Real.exp (x j - t)) ≠ 0 :=
    (Finset.sum_pos (fun j _ => Real.exp_pos _) Finset.univ_nonempty).ne'
  have hc : Real.exp (t - m) ≠ 0 := (Real.exp_pos _).ne'
  simp_rw [key, mul_assoc, ← Finset.mul_sum]
  rw [mul_inv, Finset.sum_congr rfl fun j _ => mul_left_comm _ _ _, ← Finset.mul_sum]
  field_simp

/-- The exponential-linear unit: both spellings agree at every extended real. -/
theorem eluK_eq_eluR (y : EReal) : eluK y = eluR y := by
  unfold eluK eluR
  by_cases h : Ideal.cmp .ogt y 0 = 1
  · simp only [Scalar.select, if_pos h]
  · simp only [Scalar.select, if_neg h, one_mul]

/-! ## The projection is real on real data -/

theorem wh_real (h : Fin 8192 → Fin 256 → EReal) (W : Fin 128 → Fin 256 → EReal)
    (hh : ∀ i k, ∃ r : ℝ, h i k = (r : EReal)) (hW : ∀ f k, ∃ r : ℝ, W f k = (r : EReal)) :
    ∀ i f, ∃ r : ℝ, wh h W i f = (r : EReal) := by
  intro i f
  choose a ha using hh
  choose b hb using hW
  refine ⟨∑ k, a i k * b f k, ?_⟩
  unfold wh
  simp only [ha, hb, ← EReal.coe_mul, coe_sum]

theorem sv_real (w : Fin 8192 → Fin 128 → EReal) (a : Fin 128 → EReal)
    (hw : ∀ i f, ∃ r : ℝ, w i f = (r : EReal)) (ha : ∀ f, ∃ r : ℝ, a f = (r : EReal)) :
    ∀ i, ∃ r : ℝ, sv w a i = (r : EReal) := by
  intro i
  choose u hu using hw
  choose b hb using ha
  refine ⟨∑ f, u i f * b f, ?_⟩
  unfold sv
  simp only [hu, hb, ← EReal.coe_mul, coe_sum]

/-! ## The streaming result is the two-pass result -/

theorem outK_eq_outR (s1 s2 : Fin 8192 → EReal) (adj : Fin 8192 → Fin 8192 → BitVec 32)
    (w : Fin 8192 → Fin 128 → EReal) (hs1 : ∀ i, ∃ r : ℝ, s1 i = (r : EReal))
    (hs2 : ∀ j, ∃ r : ℝ, s2 j = (r : EReal)) (hw : ∀ j f, ∃ r : ℝ, w j f = (r : EReal))
    (i : Fin 8192) (f : Fin 128) : outK s1 s2 adj w i f = outR s1 s2 adj w i f := by
  -- row `i`'s scores and the rows of `w`, as reals
  choose x hxK hxR using fun j => score_real s1 s2 adj hs1 hs2 i j
  choose W hW using hw
  have hne : (Finset.univ : Finset (Fin 8192)).Nonempty := ⟨⟨0, by norm_num⟩, Finset.mem_univ _⟩
  haveI : Nonempty (Fin 8192) := ⟨⟨0, by norm_num⟩⟩
  -- the streaming side: after the four tiles the state holds the sums over the whole row at some real shift
  have hX : ∀ k : Fin 4, tileX s1 s2 adj i k = fun q => ((x (col k q) : ℝ) : EReal) :=
    fun k => funext fun q => hxK _
  have hV : ∀ k : Fin 4, tileW w k = fun q f => ((W (col k q) f : ℝ) : EReal) :=
    fun k => funext fun q => funext fun f => hW _ _
  have hinv : Inv (fun k q => x (col k q)) (fun k q f => W (col k q) f) Finset.univ
      (stAfter s1 s2 adj w i 3) := by
    have e : (Finset.univ : Finset (Fin 4)) = insert 3 (insert 2 (insert 1 {0})) := by decide
    have h3 : stAfter s1 s2 adj w i 3
        = St.step (tileX s1 s2 adj i 3) (tileW w 3) (St.step (tileX s1 s2 adj i 2) (tileW w 2)
            (St.step (tileX s1 s2 adj i 1) (tileW w 1)
              (St.step (tileX s1 s2 adj i 0) (tileW w 0) St.init))) := by
      have e3 : (3 : Fin 4) = ⟨2 + 1, by omega⟩ := rfl
      rw [e3, stAfter.eq_2, stAfter.eq_2, stAfter.eq_2, stAfter.eq_1]
      rfl
    rw [e, h3, hX, hX, hX, hX, hV, hV, hV, hV]
    exact inv_step _ _ _ _ 3 (by decide) (inv_step _ _ _ _ 2 (by decide)
      (inv_step _ _ _ _ 1 (by decide) (inv_init _ _ 0)))
  obtain ⟨m, -, hl, hacc⟩ := hinv
  have hl' : (stAfter s1 s2 adj w i 3).l = ((∑ j, Real.exp (x j - m) : ℝ) : EReal) := by
    rw [hl]; exact congrArg _ (sum_tiles fun j => Real.exp (x j - m))
  have hacc' : (stAfter s1 s2 adj w i 3).acc f = ((∑ j, Real.exp (x j - m) * W j f : ℝ) : EReal) := by
    rw [hacc f]; exact congrArg _ (sum_tiles fun j => Real.exp (x j - m) * W j f)
  have hZm : (∑ j, Real.exp (x j - m)) ≠ 0 := (Finset.sum_pos (fun j _ => Real.exp_pos _) hne).ne'
  have hK : Ideal.div ((stAfter s1 s2 adj w i 3).acc f) (stAfter s1 s2 adj w i 3).l
      = (((∑ j, Real.exp (x j - m) * W j f) * (∑ j, Real.exp (x j - m))⁻¹ : ℝ) : EReal) := by
    rw [hacc', hl', Ideal.div, if_neg (EReal.coe_ne_zero.mpr hZm), ← EReal.coe_inv, ← EReal.coe_mul]
  -- the two-pass side: the row maximum is a real, the rest follows operation by operation
  have hxRf : xR s1 s2 adj i = fun j => ((x j : ℝ) : EReal) := funext hxR
  obtain ⟨t, ht⟩ := fold_max_coe (Finset.univ : Finset (Fin 8192)) hne x
  have hmax : maxR s1 s2 adj i = (t : EReal) := by
    unfold maxR; rw [hxRf, ht]; exact max_eq_right bot_le
  have hexp : ∀ j, expR s1 s2 adj i j = ((Real.exp (x j - t) : ℝ) : EReal) := fun j => by
    unfold expR; rw [hxR, hmax, ← EReal.coe_sub, Ideal.exp_coe]
  have hsum : sumR s1 s2 adj i = ((∑ j, Real.exp (x j - t) : ℝ) : EReal) := by
    unfold sumR; simp only [hexp, coe_sum, zero_add]
  have hZt : (∑ j, Real.exp (x j - t)) ≠ 0 := (Finset.sum_pos (fun j _ => Real.exp_pos _) hne).ne'
  have hatt : ∀ j, attR s1 s2 adj i j
      = ((Real.exp (x j - t) * (∑ j, Real.exp (x j - t))⁻¹ : ℝ) : EReal) := fun j => by
    unfold attR
    rw [hexp, hsum, Ideal.div, if_neg (EReal.coe_ne_zero.mpr hZt), ← EReal.coe_inv, ← EReal.coe_mul]
  have hhR : hR s1 s2 adj w i f
      = ((∑ j, Real.exp (x j - t) * (∑ j, Real.exp (x j - t))⁻¹ * W j f : ℝ) : EReal) := by
    unfold hR; simp only [hatt, hW, ← EReal.coe_mul, coe_sum]
  unfold outK outR
  rw [hK, hhR, quotient_shift x (fun j => W j f) m t, eluK_eq_eluR]

end Cert.Bridge

end
-- ==== Proof.Finite.lean ====
import proofs.«417751_j15599321219367_3_alg».proof.Defs
import proofs.«417751_j15599321219367_3_alg».proof.Proof.Gen.Pre_finite_inputs
import Idealize.ShloMosaic.Lib.ReduceAll
import Idealize.ShloMosaic.Lib.ValueIdx

/-!
  From the precondition to "every float input entry is a real".

  The precondition is the conjunction of four tests `all (|x| < +∞)`, one per float argument, and it
  is stated to come out 1. A conjunction of one-bit words that is 1 has both sides 1; a reduction by
  `and` over all axes that is 1 met a 1 at every index; and `|x| < +∞` over the extended reals, where
  `|x| = max x (-x)`, fails at both infinities (`|±∞| = +∞`), so it leaves exactly the reals.
-/

noncomputable section

namespace Cert.Finite

open Idealize.ShloMosaic Idealize.SL.Sem

/-- The f32 pattern `0x7F800000` (sign 0, exponent all ones, significand 0) denotes `+∞`. -/
theorem inf_bits : Ideal.ofBits .f32 0x7F800000#32 = (⊤ : EReal) := by
  simp [Ideal.ofBits, Ideal.ieee]

/-- An extended real whose absolute value is strictly below `+∞` is a real:
    at `⊥` and at `⊤` the absolute value `max x (-x)` is `⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- The rank-0 shape has one index. -/
instance subsingleton_scalar_idx : Subsingleton Cert.Pre_finite_inputs.S_.Idx :=
  ⟨fun a b => funext fun d => d.elim0⟩

/-- One `all (|x| < +∞)`: if the reduction by `and` over both axes of the elementwise test is 1,
    every entry of `x` is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

/-- The precondition, decoded: every entry of each of the four float arguments is a real. -/
theorem of_pre [hPre : Cert.Pre_finite_inputs.Facts]
    (a0 : (⟨Cert.Pre_finite_inputs.S8192x256, .f32⟩ : BufTy).Contents (Elt Ideal))
    (a1 : (⟨Cert.Pre_finite_inputs.S8192x8192, .i32⟩ : BufTy).Contents (Elt Ideal))
    (a2 : (⟨Cert.Pre_finite_inputs.S128x256, .f32⟩ : BufTy).Contents (Elt Ideal))
    (a3 a4 : (⟨Cert.Pre_finite_inputs.S128x1, .f32⟩ : BufTy).Contents (Elt Ideal))
    (h : Cert.Pre_finite_inputs.fn (F := Ideal) a0 a1 a2 a3 a4 = (fun _ => 1#1)) :
    (∀ i, ∃ r : ℝ, a0 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  -- the result is ((t0 ∧ t2) ∧ t3) ∧ t4, each t the test of one argument
  obtain ⟨h023, h4⟩ := IntOp.andi_eq_one.1 h0
  obtain ⟨h02, h3⟩ := IntOp.andi_eq_one.1 h023
  obtain ⟨h0', h2⟩ := IntOp.andi_eq_one.1 h02
  exact ⟨real_of_all a0 _ _ _ h0', real_of_all a2 _ _ _ h2, real_of_all a3 _ _ _ h3, real_of_all a4 _ _ _ h4⟩

/-- The same for the kernel's memory: under its precondition the four float argument arrays
    hold reals only, on every device. -/
theorem of_pre_KernelIdeal [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  of_pre _ _ _ _ _ (h c)

end Cert.Finite
-- ==== Proof.lean ====
/-
  A dense graph-attention layer in two kernel regions against its plain reference, over the extended reals.
  The projection region computes `wh = h Wᵀ` and the two score columns `s1 = wh · a1`, `s2 = wh · a2`; the attention
  region streams over four column tiles of the masked, leaky-rectified scores `s1 i + s2 j`, keeping per row a running
  maximum, a running normaliser and a running weighted sum of the rows of `wh`, and ends with one division and the
  exponential-linear unit. The reference takes the row maximum, the exponentials, the row sum and the quotient in
  two passes and multiplies by `wh`. With finite inputs every score is a real number, the rescaling by
  `exp (old maximum - new maximum)` is exact, and the two results agree entry by entry.
  The three frames: each program runs to the end from any admitted memory and leaves its argument arrays as launched
  (the two kernel programs by the region-by-region launch, the reference by its run read back). Nothing was
  rewritten between the printed kernel and its idealization.
-/
import proofs.«417751_j15599321219367_3_alg».proof.Defs
import proofs.«417751_j15599321219367_3_alg».proof.Proof.Gen.Kernel
import proofs.«417751_j15599321219367_3_alg».proof.Proof.Gen.KernelIdeal
import proofs.«417751_j15599321219367_3_alg».proof.Proof.Gen.ReferenceIdeal
import proofs.«417751_j15599321219367_3_alg».proof.Proof.Gen.Pre_finite_inputs
import proofs.«417751_j15599321219367_3_alg».proof.Proof.FrmB.Run
import proofs.«417751_j15599321219367_3_alg».proof.Proof.FrmI.Run
import proofs.«417751_j15599321219367_3_alg».proof.Proof.Val.Kernel
import proofs.«417751_j15599321219367_3_alg».proof.Proof.Ref.Run
import proofs.«417751_j15599321219367_3_alg».proof.Proof.Ref.Val
import proofs.«417751_j15599321219367_3_alg».proof.Proof.Bridge
import proofs.«417751_j15599321219367_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end with the same result array: the kernel's is the streaming spelling of the launch
    arrays, the reference's the two-pass spelling, and with real inputs the two spellings agree. -/
theorem algebraic : Cert.algebraic_KernelIdeal_ReferenceIdeal := by
  intro m ρ m' ρ' hpre hagree
  refine ⟨fun c => Cert.KernelIdeal.Frm.W3 m ρ c (Proc.devRef .tc Cert.KernelIdeal.main_v3), ?_, ?_⟩
  · refine (θ_run Cert.KernelIdeal.defs _ _).mono (fun _ h c => ?_) (Cert.KernelIdeal.Frm.run_all (F := Ideal) m ρ)
    exact ⟨h c _ (Cert.KernelIdeal.Frm.mem_uc Cert.KernelIdeal.main_v3 (by decide)),
      (h c _ (Cert.KernelIdeal.Frm.mem_uc Cert.KernelIdeal.main_arg0 (by decide))).trans (Cert.KernelIdeal.Frm.W3_main_arg0 m ρ c),
      (h c _ (Cert.KernelIdeal.Frm.mem_uc Cert.KernelIdeal.main_arg1 (by decide))).trans (Cert.KernelIdeal.Frm.W3_main_arg1 m ρ c),
      (h c _ (Cert.KernelIdeal.Frm.mem_uc Cert.KernelIdeal.main_arg2 (by decide))).trans (Cert.KernelIdeal.Frm.W3_main_arg2 m ρ c),
      (h c _ (Cert.KernelIdeal.Frm.mem_uc Cert.KernelIdeal.main_arg3 (by decide))).trans (Cert.KernelIdeal.Frm.W3_main_arg3 m ρ c),
      (h c _ (Cert.KernelIdeal.Frm.mem_uc Cert.KernelIdeal.main_arg4 (by decide))).trans (Cert.KernelIdeal.Frm.W3_main_arg4 m ρ c)⟩
  · refine (θ_run Cert.ReferenceIdeal.defs _ _).mono (fun _ h c => ⟨(h c).1.trans ?_, (h c).2⟩)
      (Cert.ReferenceIdeal.RefRun.run (F := Ideal) m' ρ')
    obtain ⟨hh, hW, ha1, ha2⟩ := Cert.Finite.of_pre_KernelIdeal m hpre c
    rw [(hagree c).1, (hagree c).2.1, (hagree c).2.2.1, (hagree c).2.2.2.1, (hagree c).2.2.2.2]
    rw [Cert.ReferenceIdeal.RefVal.res_eq]
    refine Eq.trans ?_ (Cert.KernelIdeal.Val.kernel_value m ρ c).symm
    funext i
    have hwh := Cert.Bridge.wh_real (Cert.KernelIdeal.Val.hM m c) (Cert.KernelIdeal.Val.wM m c) (fun a k => hh _) (fun g k => hW _)
    exact (Cert.Bridge.outK_eq_outR _ _ _ _ (Cert.Bridge.sv_real _ _ hwh (fun g => ha1 _)) (Cert.Bridge.sv_real _ _ hwh (fun g => ha2 _)) hwh (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
